-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1457) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x2 : S_.BroadcastsInDim S8x8192x2 (![] : Fin 0 → Fin S8x8192x2.rank)
  reducesTo_S8x8192x2_S_d0_1_2 : S8x8192x2.ReducesTo [0, 1, 2] S_
  bcast_S_S768x514 : S_.BroadcastsInDim S768x514 (![] : Fin 0 → Fin S768x514.rank)
  reducesTo_S768x514_S_d0_1 : S768x514.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2x256 .f32) (main_arg15 : FVec F S2 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S768x256 .f32) (main_arg12 : FVec F S768 .f32) (main_arg13 : FVec F S768 .f32) (main_arg14 : FVec F S2x256 .f32) (main_arg15 : FVec F S2 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_v63 main_v67

def fn_part2 {F : FTy → Type} [FloatOps F] (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_v48 main_v49 main_v50

def fn_part1 {F : FTy → Type} [FloatOps F] (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x512 .f32) (main_arg1 : FVec F S8x8192x2 .f32) (main_arg2 : FVec F S768x514 .f32) (main_arg3 : FVec F S768x256 .f32) (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x2 .f32 := Host.absf main_arg1
  let main_cst_0 : FVec F S_ .f32 := constant S_ .f32 0x7F800000#32
  let main_v5 : FVec F S8x8192x2 .f32 := broadcastInDim S8x8192x2 ![] bcast_S_S8x8192x2 main_cst_0
  let main_v6 : IVec S8x8192x2 1 := cmpf .olt main_v4 main_v5
  let main_c_1 : IVec S_ 1 := constantI S_ 1 1#1
  let main_v7 : IVec S_ 1 := (fun x v => Host.reduce IntOp.andi x v reducesTo_S8x8192x2_S_d0_1_2 h_S_) main_v6 main_c_1
  let main_v8 : IVec S_ 1 := andi main_v3 main_v7
  let main_v9 : FVec F S768x514 .f32 := Host.absf main_arg2
  let main_cst_2 : FVec F S_ .f32 := constant S_ .f32 0x7F800000#32
  let main_v10 : FVec F S768x514 .f32 := broadcastInDim S768x514 ![] bcast_S_S768x514 main_cst_2
  let main_v11 : IVec S768x514 1 := cmpf .olt main_v9 main_v10
  let main_c_3 : IVec S_ 1 := constantI S_ 1 1#1
  let main_v12 : IVec S_ 1 := (fun x v => Host.reduce IntOp.andi x v reducesTo_S768x514_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S1x8192x2 : Shape := ⟨3, ![1, 8192, 2]⟩
abbrev S8192x2 : Shape := ⟨2, ![8192, 2]⟩
abbrev S514x768 : Shape := ⟨2, ![514, 768]⟩
abbrev S256x768 : Shape := ⟨2, ![256, 768]⟩
abbrev S256x2 : Shape := ⟨2, ![256, 2]⟩
abbrev S12x8192x2 : Shape := ⟨3, ![12, 8192, 2]⟩
abbrev S1024x512 : Shape := ⟨2, ![1024, 512]⟩
abbrev S1024x2 : Shape := ⟨2, ![1024, 2]⟩
abbrev S12x1024x2 : Shape := ⟨3, ![12, 1024, 2]⟩
abbrev S1024x256 : Shape := ⟨2, ![1024, 256]⟩
abbrev S1024x514 : Shape := ⟨2, ![1024, 514]⟩
abbrev S1024x768 : Shape := ⟨2, ![1024, 768]⟩
abbrev S1x768 : Shape := ⟨2, ![1, 768]⟩
abbrev S1x2 : Shape := ⟨2, ![1, 2]⟩
abbrev S1x1024x2 : Shape := ⟨3, ![1, 1024, 2]⟩

abbrev nBuf : Space → Nat
  | .hbm => 33
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8x8192x2, .f32⟩
  | .hbm, ⟨2, _⟩ => ⟨S768x514, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S768x256, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S2x256, .f32⟩
  | .hbm, ⟨15, _⟩ => ⟨S2, .f32⟩
  | .hbm, ⟨16, _⟩ => ⟨S1x8192x2, .f32⟩
  | .hbm, ⟨17, _⟩ => ⟨S8192x2, .f32⟩
  | .hbm, ⟨18, _⟩ => ⟨S514x768, .f32⟩
  | .hbm, ⟨19, _⟩ => ⟨S514x768, .bf16⟩
  | .hbm, ⟨20, _⟩ => ⟨S256x768, .f32⟩
  | .hbm, ⟨21, _⟩ => ⟨S256x768, .bf16⟩
  | .hbm, ⟨22, _⟩ => ⟨S256x768, .f32⟩
  | .hbm, ⟨23, _⟩ => ⟨S256x768, .bf16⟩
  | .hbm, ⟨24, _⟩ => ⟨S256x768, .f32⟩
  | .hbm, ⟨25, _⟩ => ⟨S256x768, .bf16⟩
  | .hbm, ⟨26, _⟩ => ⟨S256x768, .f32⟩
  | .hbm, ⟨27, _⟩ => ⟨S256x768, .bf16⟩
  | .hbm, ⟨28, _⟩ => ⟨S256x768, .f32⟩
  | .hbm, ⟨29, _⟩ => ⟨S256x768, .bf16⟩
  | .hbm, ⟨30, _⟩ => ⟨S256x2, .f32⟩
  | .hbm, ⟨31, _⟩ => ⟨S256x2, .bf16⟩
  | .hbm, ⟨32, _⟩ => ⟨S12x8192x2, .f32⟩
  | .local _ .vmem, ⟨0, _⟩ => ⟨S1024x512, .f32⟩
  | .local _ .vmem, ⟨1, _⟩ => ⟨S1024x512, .f32⟩
  | .local _ .vmem, ⟨2, _⟩ => ⟨S1024x2, .f32⟩
  | .local _ .vmem, ⟨3, _⟩ => ⟨S1024x2, .f32⟩
  | .local _ .vmem, ⟨4, _⟩ => ⟨S514x768, .bf16⟩
  | .local _ .vmem, ⟨5, _⟩ => ⟨S256x768, .bf16⟩
  | .local _ .vmem, ⟨6, _⟩ => ⟨S768, .f32⟩
  | .local _ .vmem, ⟨7, _⟩ => ⟨S768, .f32⟩
  | .local _ .vmem, ⟨8, _⟩ => ⟨S256x768, .bf16⟩
  | .local _ .vmem, ⟨9, _⟩ => ⟨S256x768, .bf16⟩
  | .local _ .vmem, ⟨10, _⟩ => ⟨S768, .f32⟩
  | .local _ .vmem, ⟨11, _⟩ => ⟨S768, .f32⟩
  | .local _ .vmem, ⟨12, _⟩ => ⟨S256x768, .bf16⟩
  | .local _ .vmem, ⟨13, _⟩ => ⟨S256x768, .bf16⟩
  | .local _ .vmem, ⟨14, _⟩ => ⟨S768, .f32⟩
  | .local _ .vmem, ⟨15, _⟩ => ⟨S768, .f32⟩
  | .local _ .vmem, ⟨16, _⟩ => ⟨S256x2, .bf16⟩
  | .local _ .vmem, ⟨17, _⟩ => ⟨S2, .f32⟩
  | .local _ .vmem, ⟨18, _⟩ => ⟨S12x1024x2, .f32⟩
  | .local _ .vmem, ⟨19, _⟩ => ⟨S12x1024x2, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S514x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x2 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S12x1024x2 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S8x8192x2_S1x8192x2_7_0_0 : S8x8192x2.Slices ![7, 0, 0] S1x8192x2
  shapeCasts_S1x8192x2_S8192x2 : S1x8192x2.ShapeCasts S8192x2
  transposes_S768x514_S514x768_1_0 : S768x514.Transposes [1, 0] S514x768
  bitsLt_bf16_f32 : FTy.bits .bf16 < FTy.bits .f32
  transposes_S768x256_S256x768_1_0 : S768x256.Transposes [1, 0] S256x768
  transposes_S2x256_S256x2_1_0 : S2x256.Transposes [1, 0] S256x2
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S514x768_S514x768_0_0 : ∀ a, (![0, 0] : Fin 2 → Nat) a + S514x768.size a ≤ S514x768.size a
  h_S514x768 : 0 < S514x768.numel
  shapeCasts_S514x768_S514x768 : S514x768.ShapeCasts S514x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  concatenates_S1024x512_S1024x2_S1024x514_d1 : Shape.Concatenates [S1024x512, S1024x2] S1024x514 1
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S2_S1x2 : S2.ShapeCasts S1x2
  broadcasts_S1x2_S1024x2 : S1x2.Broadcasts S1024x2
  inb_S12x1024x2_S1x1024x2_0_0_0 : ∀ a, (![0, 0, 0] : Fin 3 → Nat) a + S1x1024x2.size a ≤ S12x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  inb_S12x1024x2_S1x1024x2_1_0_0 : ∀ a, (![1, 0, 0] : Fin 3 → Nat) a + S1x1024x2.size a ≤ S12x1024x2.size a
  inb_S12x1024x2_S1x1024x2_2_0_0 : ∀ a, (![2, 0, 0] : Fin 3 → Nat) a + S1x1024x2.size a ≤ S12x1024x2.size a
  inb_S12x1024x2_S1x1024x2_3_0_0 : ∀ a, (![3, 0, 0] : Fin 3 → Nat) a + S1x1024x2.size a ≤ S12x1024x2.size a
  inb_S12x1024x2_S1x1024x2_4_0_0 : ∀ a, (![4, 0, 0] : Fin 3 → Nat) a + S1x1024x2.size a ≤ S12x1024x2.size a
  inb_S12x1024x2_S1x1024x2_5_0_0 : ∀ a, (![5, 0, 0] : Fin 3 → Nat) a + S1x1024x2.size a ≤ S12x1024x2.size a
  inb_S12x1024x2_S1x1024x2_6_0_0 : ∀ a, (![6, 0, 0] : Fin 3 → Nat) a + S1x1024x2.size a ≤ S12x1024x2.size a
  inb_S12x1024x2_S1x1024x2_7_0_0 : ∀ a, (![7, 0, 0] : Fin 3 → Nat) a + S1x1024x2.size a ≤ S12x1024x2.size a
  inb_S12x1024x2_S1x1024x2_8_0_0 : ∀ a, (![8, 0, 0] : Fin 3 → Nat) a + S1x1024x2.size a ≤ S12x1024x2.size a
  inb_S12x1024x2_S1x1024x2_9_0_0 : ∀ a, (![9, 0, 0] : Fin 3 → Nat) a + S1x1024x2.size a ≤ S12x1024x2.size a
  inb_S12x1024x2_S1x1024x2_10_0_0 : ∀ a, (![10, 0, 0] : Fin 3 → Nat) a + S1x1024x2.size a ≤ S12x1024x2.size a
  inb_S12x1024x2_S1x1024x2_11_0_0 : ∀ a, (![11, 0, 0] : Fin 3 → Nat) a + S1x1024x2.size a ≤ S12x1024x2.size a
  dot_S1024x514_S514x768_S1024x768_1_0_0_1_n_n_wf : DotDims.WF S1024x514 S514x768 S1024x768 [1] [0] [0] [1] [] []
  dot_S1024x256_S256x768_S1024x768_1_0_0_1_n_n_wf : DotDims.WF S1024x256 S256x768 S1024x768 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S514x768.size a ≤ S514x768.size a
  hwx0_2 : ∀ i : grid0.Coords, EltTy.bits .bf16 = 32 ∨ (Rect.block (s := S514x768) S514x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .bf16 = 32 ∨ (Rect.block (s := S256x768) S256x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .bf16 = 32 ∨ (Rect.block (s := S256x768) S256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x768.size a ≤ S256x768.size a
  hwx0_10 : ∀ i : grid0.Coords, EltTy.bits .bf16 = 32 ∨ (Rect.block (s := S256x768) S256x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S256x768.size a
  hwx0_11 : ∀ i : grid0.Coords, EltTy.bits .bf16 = 32 ∨ (Rect.block (s := S256x768) S256x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768.size a ≤ S768.size a
  hwx0_13 : ∀ i : grid0.Coords, EltTy.bits .f32 = 32 ∨ (Rect.block (s := S768) S768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x2.size a ≤ S256x2.size a
  hwx0_14 : ∀ i : grid0.Coords, EltTy.bits .bf16 = 32 ∨ (Rect.block (s := S256x2) S256x2.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2.size a ≤ S2.size a
  hwx0_15 : ∀ i : grid0.Coords, EltTy.bits .f32 = 32 ∨ (Rect.block (s := S2) S2.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S12x1024x2.size a ≤ S12x8192x2.size a
  hwx0_16 : ∀ i : grid0.Coords, EltTy.bits .f32 = 32 ∨ (Rect.block (s := S12x8192x2) S12x1024x2.size (cc0_transform_16 i) (hinb0_16 i)).WholeWords (EltTy.packing .f32)

variable [Facts₀]

def dot_S1024x514_S514x768_S1024x768_1_0_0_1_n_n : DotDims S1024x514 S514x768 S1024x768 where
  lhsContracting := [1]
  rhsContracting := [0]
  lhsNonContracting := [0]
  rhsNonContracting := [1]
  lhsBatch := []
  rhsBatch := []
  wf := dot_S1024x514_S514x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S514x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S256x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S256x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S12x1024x2.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩
abbrev S8192x256 : Shape := ⟨2, ![8192, 256]⟩
abbrev S1x8192x2 : Shape := ⟨3, ![1, 8192, 2]⟩
abbrev S8192x2 : Shape := ⟨2, ![8192, 2]⟩
abbrev S8192x514 : Shape := ⟨2, ![8192, 514]⟩
abbrev S514x768 : Shape := ⟨2, ![514, 768]⟩
abbrev S8192x768 : Shape := ⟨2, ![8192, 768]⟩
abbrev S1x768 : Shape := ⟨2, ![1, 768]⟩
abbrev S256x768 : Shape := ⟨2, ![256, 768]⟩
abbrev S256x2 : Shape := ⟨2, ![256, 2]⟩
abbrev S1x2 : Shape := ⟨2, ![1, 2]⟩
abbrev S12x8192x2 : Shape := ⟨3, ![12, 8192, 2]⟩

abbrev nBuf : Space → Nat
  | .hbm => 1657
  | .vmem => 0
  | .smem => 0
  | _ => 0

abbrev hbmTy0_0 (i : Nat) : BufTy := match i % 128 with
  | 0 => ⟨S8192x512, .f32⟩
  | 1 => ⟨S8x8192x2, .f32⟩
  | 2 => ⟨S768x514, .f32⟩
  | 3 => ⟨S768x256, .f32⟩
  | 4 => ⟨S768, .f32⟩
  | 5 => ⟨S768, .f32⟩
  | 6 => ⟨S768x256, .f32⟩
  | 7 => ⟨S768x256, .f32⟩
  | 8 => ⟨S768, .f32⟩
  | 9 => ⟨S768, .f32⟩
  | 10 => ⟨S768x256, .f32⟩
  | 11 => ⟨S768x256, .f32⟩
  | 12 => ⟨S768, .f32⟩
  | 13 => ⟨S768, .f32⟩
  | 14 => ⟨S2x256, .f32⟩
  | 15 => ⟨S2, .f32⟩
  | 16 => ⟨S_, .f32⟩
  | 17 => ⟨S8192x256, .f32⟩
  | 18 => ⟨S_, .f32⟩
  | 19 => ⟨S8192x256, .f32⟩
  | 20 => ⟨S_, .f32⟩
  | 21 => ⟨S8192x256, .f32⟩
  | 22 => ⟨S1x8192x2, .f32⟩
  | 23 => ⟨S8192x2, .f32⟩
  | 24 => ⟨S8192x514, .f32⟩
  | 25 => ⟨S514x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x768, .f32⟩
  | 69 => ⟨S8192x768, .f32⟩
  | 70 => ⟨S1x768, .f32⟩
  | 71 => ⟨S8192x768, .f32⟩
  | 72 => ⟨S8192x768, .f32⟩
  | 73 => ⟨S256x768, .f32⟩
  | 74 => ⟨S8192x768, .f32⟩
  | 75 => ⟨S1x768, .f32⟩
  | 76 => ⟨S8192x768, .f32⟩
  | 77 => ⟨S8192x768, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S256x768, .f32⟩
  | 112 => ⟨S8192x768, .f32⟩
  | 113 => ⟨S1x768, .f32⟩
  | 114 => ⟨S8192x768, .f32⟩
  | 115 => ⟨S8192x768, .f32⟩
  | 116 => ⟨S256x768, .f32⟩
  | 117 => ⟨S8192x768, .f32⟩
  | 118 => ⟨S1x768, .f32⟩
  | 119 => ⟨S8192x768, .f32⟩
  | 120 => ⟨S8192x768, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_1 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S256x2, .f32⟩
  | 27 => ⟨S8192x2, .f32⟩
  | 28 => ⟨S1x2, .f32⟩
  | 29 => ⟨S8192x2, .f32⟩
  | 30 => ⟨S8192x2, .f32⟩
  | 31 => ⟨S8192x514, .f32⟩
  | 32 => ⟨S514x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x768, .f32⟩
  | 76 => ⟨S8192x768, .f32⟩
  | 77 => ⟨S1x768, .f32⟩
  | 78 => ⟨S8192x768, .f32⟩
  | 79 => ⟨S8192x768, .f32⟩
  | 80 => ⟨S256x768, .f32⟩
  | 81 => ⟨S8192x768, .f32⟩
  | 82 => ⟨S1x768, .f32⟩
  | 83 => ⟨S8192x768, .f32⟩
  | 84 => ⟨S8192x768, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S256x768, .f32⟩
  | 119 => ⟨S8192x768, .f32⟩
  | 120 => ⟨S1x768, .f32⟩
  | 121 => ⟨S8192x768, .f32⟩
  | 122 => ⟨S8192x768, .f32⟩
  | 123 => ⟨S256x768, .f32⟩
  | 124 => ⟨S8192x768, .f32⟩
  | 125 => ⟨S1x768, .f32⟩
  | 126 => ⟨S8192x768, .f32⟩
  | 127 => ⟨S8192x768, .f32⟩
  | _ => ⟨S8192x512, .f32⟩

abbrev hbmTy0_2 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S8192x256, .f32⟩
  | 9 => ⟨S_, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S256x2, .f32⟩
  | 34 => ⟨S8192x2, .f32⟩
  | 35 => ⟨S1x2, .f32⟩
  | 36 => ⟨S8192x2, .f32⟩
  | 37 => ⟨S8192x2, .f32⟩
  | 38 => ⟨S8192x514, .f32⟩
  | 39 => ⟨S514x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x768, .f32⟩
  | 83 => ⟨S8192x768, .f32⟩
  | 84 => ⟨S1x768, .f32⟩
  | 85 => ⟨S8192x768, .f32⟩
  | 86 => ⟨S8192x768, .f32⟩
  | 87 => ⟨S256x768, .f32⟩
  | 88 => ⟨S8192x768, .f32⟩
  | 89 => ⟨S1x768, .f32⟩
  | 90 => ⟨S8192x768, .f32⟩
  | 91 => ⟨S8192x768, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S256x768, .f32⟩
  | 126 => ⟨S8192x768, .f32⟩
  | 127 => ⟨S1x768, .f32⟩
  | _ => ⟨S8192x512, .f32⟩

abbrev hbmTy0_3 (i : Nat) : BufTy := match i % 128 with
  | 0 => ⟨S8192x768, .f32⟩
  | 1 => ⟨S8192x768, .f32⟩
  | 2 => ⟨S256x768, .f32⟩
  | 3 => ⟨S8192x768, .f32⟩
  | 4 => ⟨S1x768, .f32⟩
  | 5 => ⟨S8192x768, .f32⟩
  | 6 => ⟨S8192x768, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S256x2, .f32⟩
  | 41 => ⟨S8192x2, .f32⟩
  | 42 => ⟨S1x2, .f32⟩
  | 43 => ⟨S8192x2, .f32⟩
  | 44 => ⟨S8192x2, .f32⟩
  | 45 => ⟨S8192x514, .f32⟩
  | 46 => ⟨S514x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x768, .f32⟩
  | 90 => ⟨S8192x768, .f32⟩
  | 91 => ⟨S1x768, .f32⟩
  | 92 => ⟨S8192x768, .f32⟩
  | 93 => ⟨S8192x768, .f32⟩
  | 94 => ⟨S256x768, .f32⟩
  | 95 => ⟨S8192x768, .f32⟩
  | 96 => ⟨S1x768, .f32⟩
  | 97 => ⟨S8192x768, .f32⟩
  | 98 => ⟨S8192x768, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S_, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_4 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S256x768, .f32⟩
  | 5 => ⟨S8192x768, .f32⟩
  | 6 => ⟨S1x768, .f32⟩
  | 7 => ⟨S8192x768, .f32⟩
  | 8 => ⟨S8192x768, .f32⟩
  | 9 => ⟨S256x768, .f32⟩
  | 10 => ⟨S8192x768, .f32⟩
  | 11 => ⟨S1x768, .f32⟩
  | 12 => ⟨S8192x768, .f32⟩
  | 13 => ⟨S8192x768, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S256x2, .f32⟩
  | 48 => ⟨S8192x2, .f32⟩
  | 49 => ⟨S1x2, .f32⟩
  | 50 => ⟨S8192x2, .f32⟩
  | 51 => ⟨S8192x2, .f32⟩
  | 52 => ⟨S8192x514, .f32⟩
  | 53 => ⟨S514x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x768, .f32⟩
  | 97 => ⟨S8192x768, .f32⟩
  | 98 => ⟨S1x768, .f32⟩
  | 99 => ⟨S8192x768, .f32⟩
  | 100 => ⟨S8192x768, .f32⟩
  | 101 => ⟨S256x768, .f32⟩
  | 102 => ⟨S8192x768, .f32⟩
  | 103 => ⟨S1x768, .f32⟩
  | 104 => ⟨S8192x768, .f32⟩
  | 105 => ⟨S8192x768, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S_, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S_, .f32⟩
  | _ => ⟨S8192x512, .f32⟩

abbrev hbmTy0_5 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S256x768, .f32⟩
  | 12 => ⟨S8192x768, .f32⟩
  | 13 => ⟨S1x768, .f32⟩
  | 14 => ⟨S8192x768, .f32⟩
  | 15 => ⟨S8192x768, .f32⟩
  | 16 => ⟨S256x768, .f32⟩
  | 17 => ⟨S8192x768, .f32⟩
  | 18 => ⟨S1x768, .f32⟩
  | 19 => ⟨S8192x768, .f32⟩
  | 20 => ⟨S8192x768, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S256x2, .f32⟩
  | 55 => ⟨S8192x2, .f32⟩
  | 56 => ⟨S1x2, .f32⟩
  | 57 => ⟨S8192x2, .f32⟩
  | 58 => ⟨S8192x2, .f32⟩
  | 59 => ⟨S8192x514, .f32⟩
  | 60 => ⟨S514x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x768, .f32⟩
  | 104 => ⟨S8192x768, .f32⟩
  | 105 => ⟨S1x768, .f32⟩
  | 106 => ⟨S8192x768, .f32⟩
  | 107 => ⟨S8192x768, .f32⟩
  | 108 => ⟨S256x768, .f32⟩
  | 109 => ⟨S8192x768, .f32⟩
  | 110 => ⟨S1x768, .f32⟩
  | 111 => ⟨S8192x768, .f32⟩
  | 112 => ⟨S8192x768, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_6 (i : Nat) : BufTy := match i % 128 with
  | 0 => ⟨S8192x256, .f32⟩
  | 1 => ⟨S8192x256, .f32⟩
  | 2 => ⟨S8192x256, .f32⟩
  | 3 => ⟨S_, .f32⟩
  | 4 => ⟨S8192x256, .f32⟩
  | 5 => ⟨S8192x256, .f32⟩
  | 6 => ⟨S_, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S256x768, .f32⟩
  | 19 => ⟨S8192x768, .f32⟩
  | 20 => ⟨S1x768, .f32⟩
  | 21 => ⟨S8192x768, .f32⟩
  | 22 => ⟨S8192x768, .f32⟩
  | 23 => ⟨S256x768, .f32⟩
  | 24 => ⟨S8192x768, .f32⟩
  | 25 => ⟨S1x768, .f32⟩
  | 26 => ⟨S8192x768, .f32⟩
  | 27 => ⟨S8192x768, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S_, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S256x2, .f32⟩
  | 62 => ⟨S8192x2, .f32⟩
  | 63 => ⟨S1x2, .f32⟩
  | 64 => ⟨S8192x2, .f32⟩
  | 65 => ⟨S8192x2, .f32⟩
  | 66 => ⟨S8192x514, .f32⟩
  | 67 => ⟨S514x768, .f32⟩
  | 68 => ⟨S8192x768, .f32⟩
  | 69 => ⟨S1x768, .f32⟩
  | 70 => ⟨S8192x768, .f32⟩
  | 71 => ⟨S8192x768, .f32⟩
  | 72 => ⟨S256x768, .f32⟩
  | 73 => ⟨S8192x768, .f32⟩
  | 74 => ⟨S1x768, .f32⟩
  | 75 => ⟨S8192x768, .f32⟩
  | 76 => ⟨S8192x768, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S8192x256, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S_, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S256x768, .f32⟩
  | 111 => ⟨S8192x768, .f32⟩
  | 112 => ⟨S1x768, .f32⟩
  | 113 => ⟨S8192x768, .f32⟩
  | 114 => ⟨S8192x768, .f32⟩
  | 115 => ⟨S256x768, .f32⟩
  | 116 => ⟨S8192x768, .f32⟩
  | 117 => ⟨S1x768, .f32⟩
  | 118 => ⟨S8192x768, .f32⟩
  | 119 => ⟨S8192x768, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_7 (i : Nat) : BufTy := match i % 128 with
  | 0 => ⟨S8192x256, .f32⟩
  | 1 => ⟨S_, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S256x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x2, .f32⟩
  | 69 => ⟨S8192x2, .f32⟩
  | 70 => ⟨S1x2, .f32⟩
  | 71 => ⟨S8192x2, .f32⟩
  | 72 => ⟨S8192x2, .f32⟩
  | 73 => ⟨S8192x514, .f32⟩
  | 74 => ⟨S514x768, .f32⟩
  | 75 => ⟨S8192x768, .f32⟩
  | 76 => ⟨S1x768, .f32⟩
  | 77 => ⟨S8192x768, .f32⟩
  | 78 => ⟨S8192x768, .f32⟩
  | 79 => ⟨S256x768, .f32⟩
  | 80 => ⟨S8192x768, .f32⟩
  | 81 => ⟨S1x768, .f32⟩
  | 82 => ⟨S8192x768, .f32⟩
  | 83 => ⟨S8192x768, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S_, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S_, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S256x768, .f32⟩
  | 118 => ⟨S8192x768, .f32⟩
  | 119 => ⟨S1x768, .f32⟩
  | 120 => ⟨S8192x768, .f32⟩
  | 121 => ⟨S8192x768, .f32⟩
  | 122 => ⟨S256x768, .f32⟩
  | 123 => ⟨S8192x768, .f32⟩
  | 124 => ⟨S1x768, .f32⟩
  | 125 => ⟨S8192x768, .f32⟩
  | 126 => ⟨S8192x768, .f32⟩
  | 127 => ⟨S8192x256, .f32⟩
  | _ => ⟨S8192x512, .f32⟩

abbrev hbmTy0_8 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S_, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S256x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x2, .f32⟩
  | 76 => ⟨S8192x2, .f32⟩
  | 77 => ⟨S1x2, .f32⟩
  | 78 => ⟨S8192x2, .f32⟩
  | 79 => ⟨S8192x2, .f32⟩
  | 80 => ⟨S8192x514, .f32⟩
  | 81 => ⟨S514x768, .f32⟩
  | 82 => ⟨S8192x768, .f32⟩
  | 83 => ⟨S1x768, .f32⟩
  | 84 => ⟨S8192x768, .f32⟩
  | 85 => ⟨S8192x768, .f32⟩
  | 86 => ⟨S256x768, .f32⟩
  | 87 => ⟨S8192x768, .f32⟩
  | 88 => ⟨S1x768, .f32⟩
  | 89 => ⟨S8192x768, .f32⟩
  | 90 => ⟨S8192x768, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S256x768, .f32⟩
  | 125 => ⟨S8192x768, .f32⟩
  | 126 => ⟨S1x768, .f32⟩
  | 127 => ⟨S8192x768, .f32⟩
  | _ => ⟨S8192x512, .f32⟩

abbrev hbmTy0_9 (i : Nat) : BufTy := match i % 128 with
  | 0 => ⟨S8192x768, .f32⟩
  | 1 => ⟨S256x768, .f32⟩
  | 2 => ⟨S8192x768, .f32⟩
  | 3 => ⟨S1x768, .f32⟩
  | 4 => ⟨S8192x768, .f32⟩
  | 5 => ⟨S8192x768, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S8192x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S256x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x2, .f32⟩
  | 83 => ⟨S8192x2, .f32⟩
  | 84 => ⟨S1x2, .f32⟩
  | 85 => ⟨S8192x2, .f32⟩
  | 86 => ⟨S8192x2, .f32⟩
  | 87 => ⟨S8192x514, .f32⟩
  | 88 => ⟨S514x768, .f32⟩
  | 89 => ⟨S8192x768, .f32⟩
  | 90 => ⟨S1x768, .f32⟩
  | 91 => ⟨S8192x768, .f32⟩
  | 92 => ⟨S8192x768, .f32⟩
  | 93 => ⟨S256x768, .f32⟩
  | 94 => ⟨S8192x768, .f32⟩
  | 95 => ⟨S1x768, .f32⟩
  | 96 => ⟨S8192x768, .f32⟩
  | 97 => ⟨S8192x768, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S_, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S_, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_10 (i : Nat) : BufTy := match i % 128 with
  | 0 => ⟨S8192x256, .f32⟩
  | 1 => ⟨S8192x256, .f32⟩
  | 2 => ⟨S8192x256, .f32⟩
  | 3 => ⟨S256x768, .f32⟩
  | 4 => ⟨S8192x768, .f32⟩
  | 5 => ⟨S1x768, .f32⟩
  | 6 => ⟨S8192x768, .f32⟩
  | 7 => ⟨S8192x768, .f32⟩
  | 8 => ⟨S256x768, .f32⟩
  | 9 => ⟨S8192x768, .f32⟩
  | 10 => ⟨S1x768, .f32⟩
  | 11 => ⟨S8192x768, .f32⟩
  | 12 => ⟨S8192x768, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S_, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S256x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x2, .f32⟩
  | 90 => ⟨S8192x2, .f32⟩
  | 91 => ⟨S1x2, .f32⟩
  | 92 => ⟨S8192x2, .f32⟩
  | 93 => ⟨S8192x2, .f32⟩
  | 94 => ⟨S8192x514, .f32⟩
  | 95 => ⟨S514x768, .f32⟩
  | 96 => ⟨S8192x768, .f32⟩
  | 97 => ⟨S1x768, .f32⟩
  | 98 => ⟨S8192x768, .f32⟩
  | 99 => ⟨S8192x768, .f32⟩
  | 100 => ⟨S256x768, .f32⟩
  | 101 => ⟨S8192x768, .f32⟩
  | 102 => ⟨S1x768, .f32⟩
  | 103 => ⟨S8192x768, .f32⟩
  | 104 => ⟨S8192x768, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S_, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_11 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S256x768, .f32⟩
  | 11 => ⟨S8192x768, .f32⟩
  | 12 => ⟨S1x768, .f32⟩
  | 13 => ⟨S8192x768, .f32⟩
  | 14 => ⟨S8192x768, .f32⟩
  | 15 => ⟨S256x768, .f32⟩
  | 16 => ⟨S8192x768, .f32⟩
  | 17 => ⟨S1x768, .f32⟩
  | 18 => ⟨S8192x768, .f32⟩
  | 19 => ⟨S8192x768, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S256x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x2, .f32⟩
  | 97 => ⟨S8192x2, .f32⟩
  | 98 => ⟨S1x2, .f32⟩
  | 99 => ⟨S8192x2, .f32⟩
  | 100 => ⟨S8192x2, .f32⟩
  | 101 => ⟨S8192x514, .f32⟩
  | 102 => ⟨S514x768, .f32⟩
  | 103 => ⟨S8192x768, .f32⟩
  | 104 => ⟨S1x768, .f32⟩
  | 105 => ⟨S8192x768, .f32⟩
  | 106 => ⟨S8192x768, .f32⟩
  | 107 => ⟨S256x768, .f32⟩
  | 108 => ⟨S8192x768, .f32⟩
  | 109 => ⟨S1x768, .f32⟩
  | 110 => ⟨S8192x768, .f32⟩
  | 111 => ⟨S8192x768, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S_, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S8192x256, .f32⟩
  | _ => ⟨S8192x512, .f32⟩

abbrev hbmTy0_12 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S256x768, .f32⟩
  | 18 => ⟨S8192x768, .f32⟩
  | 19 => ⟨S1x768, .f32⟩
  | 20 => ⟨S8192x768, .f32⟩
  | 21 => ⟨S8192x768, .f32⟩
  | 22 => ⟨S256x768, .f32⟩
  | 23 => ⟨S8192x768, .f32⟩
  | 24 => ⟨S1x768, .f32⟩
  | 25 => ⟨S8192x768, .f32⟩
  | 26 => ⟨S8192x768, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S256x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x2, .f32⟩
  | 104 => ⟨S8192x2, .f32⟩
  | 105 => ⟨S1x2, .f32⟩
  | 106 => ⟨S8192x2, .f32⟩
  | 107 => ⟨S8192x2, .f32⟩
  | 108 => ⟨S1x8192x2, .f32⟩
  | 109 => ⟨S1x8192x2, .f32⟩
  | 110 => ⟨S1x8192x2, .f32⟩
  | 111 => ⟨S1x8192x2, .f32⟩
  | 112 => ⟨S1x8192x2, .f32⟩
  | 113 => ⟨S1x8192x2, .f32⟩
  | 114 => ⟨S1x8192x2, .f32⟩
  | 115 => ⟨S1x8192x2, .f32⟩
  | 116 => ⟨S1x8192x2, .f32⟩
  | 117 => ⟨S1x8192x2, .f32⟩
  | 118 => ⟨S1x8192x2, .f32⟩
  | 119 => ⟨S1x8192x2, .f32⟩
  | 120 => ⟨S12x8192x2, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_12 : Ref sig .tc := ⟨.hbm, 130, rfl⟩
abbrev main_v101 : Ref sig .tc := ⟨.hbm, 131, rfl⟩
abbrev main_v102 : Ref sig .tc := ⟨.hbm, 132, rfl⟩
abbrev main_cst_13 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_14 : Ref sig .tc := ⟨.hbm, 139, rfl⟩
abbrev main_v108 : Ref sig .tc := ⟨.hbm, 140, rfl⟩
abbrev main_v109 : Ref sig .tc := ⟨.hbm, 141, rfl⟩
abbrev main_cst_15 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_16 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_17 : Ref sig .tc := ⟨.hbm, 179, rfl⟩
abbrev main_v145 : Ref sig .tc := ⟨.hbm, 180, rfl⟩
abbrev main_v146 : Ref sig .tc := ⟨.hbm, 181, rfl⟩
abbrev main_cst_18 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_19 : Ref sig .tc := ⟨.hbm, 188, rfl⟩
abbrev main_v152 : Ref sig .tc := ⟨.hbm, 189, rfl⟩
abbrev main_v153 : Ref sig .tc := ⟨.hbm, 190, rfl⟩
abbrev main_cst_20 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_21 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_22 : Ref sig .tc := ⟨.hbm, 222, rfl⟩
abbrev main_v183 : Ref sig .tc := ⟨.hbm, 223, rfl⟩
abbrev main_v184 : Ref sig .tc := ⟨.hbm, 224, rfl⟩
abbrev main_cst_23 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_24 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_26 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_27 : Ref sig .tc := ⟨.hbm, 265, rfl⟩
abbrev main_v221 : Ref sig .tc := ⟨.hbm, 266, rfl⟩
abbrev main_v222 : Ref sig .tc := ⟨.hbm, 267, rfl⟩
abbrev main_cst_28 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_29 : Ref sig .tc := ⟨.hbm, 274, rfl⟩
abbrev main_v228 : Ref sig .tc := ⟨.hbm, 275, rfl⟩
abbrev main_v229 : Ref sig .tc := ⟨.hbm, 276, rfl⟩
abbrev main_cst_30 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_31 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_cst_32 : Ref sig .tc := ⟨.hbm, 314, rfl⟩
abbrev main_v265 : Ref sig .tc := ⟨.hbm, 315, rfl⟩
abbrev main_v266 : Ref sig .tc := ⟨.hbm, 316, rfl⟩
abbrev main_cst_33 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_cst_34 : Ref sig .tc := ⟨.hbm, 323, rfl⟩
abbrev main_v272 : Ref sig .tc := ⟨.hbm, 324, rfl⟩
abbrev main_v273 : Ref sig .tc := ⟨.hbm, 325, rfl⟩
abbrev main_cst_35 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_cst_36 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_cst_37 : Ref sig .tc := ⟨.hbm, 357, rfl⟩
abbrev main_v303 : Ref sig .tc := ⟨.hbm, 358, rfl⟩
abbrev main_v304 : Ref sig .tc := ⟨.hbm, 359, rfl⟩
abbrev main_cst_38 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_cst_39 : Ref sig .tc := ⟨.hbm, 366, rfl⟩
abbrev main_v310 : Ref sig .tc := ⟨.hbm, 367, rfl⟩
abbrev main_v311 : Ref sig .tc := ⟨.hbm, 368, rfl⟩
abbrev main_cst_40 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_cst_41 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_v340 : Ref sig .tc := ⟨.hbm, 399, rfl⟩
abbrev main_cst_42 : Ref sig .tc := ⟨.hbm, 400, rfl⟩
abbrev main_v341 : Ref sig .tc := ⟨.hbm, 401, rfl⟩
abbrev main_v342 : Ref sig .tc := ⟨.hbm, 402, rfl⟩
abbrev main_cst_43 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_cst_44 : Ref sig .tc := ⟨.hbm, 409, rfl⟩
abbrev main_v348 : Ref sig .tc := ⟨.hbm, 410, rfl⟩
abbrev main_v349 : Ref sig .tc := ⟨.hbm, 411, rfl⟩
abbrev main_cst_45 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_cst_46 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_47 : Ref sig .tc := ⟨.hbm, 449, rfl⟩
abbrev main_v385 : Ref sig .tc := ⟨.hbm, 450, rfl⟩
abbrev main_v386 : Ref sig .tc := ⟨.hbm, 451, rfl⟩
abbrev main_cst_48 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_cst_49 : Ref sig .tc := ⟨.hbm, 458, rfl⟩
abbrev main_v392 : Ref sig .tc := ⟨.hbm, 459, rfl⟩
abbrev main_v393 : Ref sig .tc := ⟨.hbm, 460, rfl⟩
abbrev main_cst_50 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_cst_51 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_v407 : Ref sig .tc := ⟨.hbm, 476, rfl⟩
abbrev main_v408 : Ref sig .tc := ⟨.hbm, 477, rfl⟩
abbrev main_v409 : Ref sig .tc := ⟨.hbm, 478, rfl⟩
abbrev main_v410 : Ref sig .tc := ⟨.hbm, 479, rfl⟩
abbrev main_v411 : Ref sig .tc := ⟨.hbm, 480, rfl⟩
abbrev main_v412 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_cst_52 : Ref sig .tc := ⟨.hbm, 492, rfl⟩
abbrev main_v423 : Ref sig .tc := ⟨.hbm, 493, rfl⟩
abbrev main_v424 : Ref sig .tc := ⟨.hbm, 494, rfl⟩
abbrev main_cst_53 : Ref sig .tc := ⟨.hbm, 495, rfl⟩
abbrev main_v425 : Ref sig .tc := ⟨.hbm, 496, rfl⟩
abbrev main_v426 : Ref sig .tc := ⟨.hbm, 497, rfl⟩
abbrev main_v427 : Ref sig .tc := ⟨.hbm, 498, rfl⟩
abbrev main_v428 : Ref sig .tc := ⟨.hbm, 499, rfl⟩
abbrev main_v429 : Ref sig .tc := ⟨.hbm, 500, rfl⟩
abbrev main_cst_54 : Ref sig .tc := ⟨.hbm, 501, rfl⟩
abbrev main_v430 : Ref sig .tc := ⟨.hbm, 502, rfl⟩
abbrev main_v431 : Ref sig .tc := ⟨.hbm, 503, rfl⟩
abbrev main_cst_55 : Ref sig .tc := ⟨.hbm, 504, rfl⟩
abbrev main_v432 : Ref sig .tc := ⟨.hbm, 505, rfl⟩
abbrev main_v433 : Ref sig .tc := ⟨.hbm, 506, rfl⟩
abbrev main_v434 : Ref sig .tc := ⟨.hbm, 507, rfl⟩
abbrev main_v435 : Ref sig .tc := ⟨.hbm, 508, rfl⟩
abbrev main_v436 : Ref sig .tc := ⟨.hbm, 509, rfl⟩
abbrev main_cst_56 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_v452 : Ref sig .tc := ⟨.hbm, 526, rfl⟩
abbrev main_v453 : Ref sig .tc := ⟨.hbm, 527, rfl⟩
abbrev main_v454 : Ref sig .tc := ⟨.hbm, 528, rfl⟩
abbrev main_v455 : Ref sig .tc := ⟨.hbm, 529, rfl⟩
abbrev main_v456 : Ref sig .tc := ⟨.hbm, 530, rfl⟩
abbrev main_v457 : Ref sig .tc := ⟨.hbm, 531, rfl⟩
abbrev main_v458 : Ref sig .tc := ⟨.hbm, 532, rfl⟩
abbrev main_v459 : Ref sig .tc := ⟨.hbm, 533, rfl⟩
abbrev main_v460 : Ref sig .tc := ⟨.hbm, 534, rfl⟩
abbrev main_cst_57 : Ref sig .tc := ⟨.hbm, 535, rfl⟩
abbrev main_v461 : Ref sig .tc := ⟨.hbm, 536, rfl⟩
abbrev main_v462 : Ref sig .tc := ⟨.hbm, 537, rfl⟩
abbrev main_cst_58 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_v466 : Ref sig .tc := ⟨.hbm, 542, rfl⟩
abbrev main_v467 : Ref sig .tc := ⟨.hbm, 543, rfl⟩
abbrev main_cst_59 : Ref sig .tc := ⟨.hbm, 544, rfl⟩
abbrev main_v468 : Ref sig .tc := ⟨.hbm, 545, rfl⟩
abbrev main_v469 : Ref sig .tc := ⟨.hbm, 546, rfl⟩
abbrev main_cst_60 : Ref sig .tc := ⟨.hbm, 547, rfl⟩
abbrev main_v470 : Ref sig .tc := ⟨.hbm, 548, rfl⟩
abbrev main_v471 : Ref sig .tc := ⟨.hbm, 549, rfl⟩
abbrev main_v472 : Ref sig .tc := ⟨.hbm, 550, rfl⟩
abbrev main_v473 : Ref sig .tc := ⟨.hbm, 551, rfl⟩
abbrev main_v474 : Ref sig .tc := ⟨.hbm, 552, rfl⟩
abbrev main_cst_61 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_v480 : Ref sig .tc := ⟨.hbm, 559, rfl⟩
abbrev main_v481 : Ref sig .tc := ⟨.hbm, 560, rfl⟩
abbrev main_v482 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_cst_62 : Ref sig .tc := ⟨.hbm, 584, rfl⟩
abbrev main_v505 : Ref sig .tc := ⟨.hbm, 585, rfl⟩
abbrev main_v506 : Ref sig .tc := ⟨.hbm, 586, rfl⟩
abbrev main_cst_63 : Ref sig .tc := ⟨.hbm, 587, rfl⟩
abbrev main_v507 : Ref sig .tc := ⟨.hbm, 588, rfl⟩
abbrev main_v508 : Ref sig .tc := ⟨.hbm, 589, rfl⟩
abbrev main_v509 : Ref sig .tc := ⟨.hbm, 590, rfl⟩
abbrev main_v510 : Ref sig .tc := ⟨.hbm, 591, rfl⟩
abbrev main_v511 : Ref sig .tc := ⟨.hbm, 592, rfl⟩
abbrev main_cst_64 : Ref sig .tc := ⟨.hbm, 593, rfl⟩
abbrev main_v512 : Ref sig .tc := ⟨.hbm, 594, rfl⟩
abbrev main_v513 : Ref sig .tc := ⟨.hbm, 595, rfl⟩
abbrev main_cst_65 : Ref sig .tc := ⟨.hbm, 596, rfl⟩
abbrev main_v514 : Ref sig .tc := ⟨.hbm, 597, rfl⟩
abbrev main_v515 : Ref sig .tc := ⟨.hbm, 598, rfl⟩
abbrev main_v516 : Ref sig .tc := ⟨.hbm, 599, rfl⟩
abbrev main_v517 : Ref sig .tc := ⟨.hbm, 600, rfl⟩
abbrev main_v518 : Ref sig .tc := ⟨.hbm, 601, rfl⟩
abbrev main_cst_66 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_v524 : Ref sig .tc := ⟨.hbm, 608, rfl⟩
abbrev main_v525 : Ref sig .tc := ⟨.hbm, 609, rfl⟩
abbrev main_v526 : Ref sig .tc := ⟨.hbm, 610, rfl⟩
abbrev main_v527 : Ref sig .tc := ⟨.hbm, 611, rfl⟩
abbrev main_v528 : Ref sig .tc := ⟨.hbm, 612, rfl⟩
abbrev main_v529 : Ref sig .tc := ⟨.hbm, 613, rfl⟩
abbrev main_v530 : Ref sig .tc := ⟨.hbm, 614, rfl⟩
abbrev main_v531 : Ref sig .tc := ⟨.hbm, 615, rfl⟩
abbrev main_v532 : Ref sig .tc := ⟨.hbm, 616, rfl⟩
abbrev main_v533 : Ref sig .tc := ⟨.hbm, 617, rfl⟩
abbrev main_v534 : Ref sig .tc := ⟨.hbm, 618, rfl⟩
abbrev main_v535 : Ref sig .tc := ⟨.hbm, 619, rfl⟩
abbrev main_v536 : Ref sig .tc := ⟨.hbm, 620, rfl⟩
abbrev main_v537 : Ref sig .tc := ⟨.hbm, 621, rfl⟩
abbrev main_v538 : Ref sig .tc := ⟨.hbm, 622, rfl⟩
abbrev main_v539 : Ref sig .tc := ⟨.hbm, 623, rfl⟩
abbrev main_v540 : Ref sig .tc := ⟨.hbm, 624, rfl⟩
abbrev main_v541 : Ref sig .tc := ⟨.hbm, 625, rfl⟩
abbrev main_v542 : Ref sig .tc := ⟨.hbm, 626, rfl⟩
abbrev main_cst_67 : Ref sig .tc := ⟨.hbm, 627, rfl⟩
abbrev main_v543 : Ref sig .tc := ⟨.hbm, 628, rfl⟩
abbrev main_v544 : Ref sig .tc := ⟨.hbm, 629, rfl⟩
abbrev main_cst_68 : Ref sig .tc := ⟨.hbm, 630, rfl⟩
abbrev main_v545 : Ref sig .tc := ⟨.hbm, 631, rfl⟩
abbrev main_v546 : Ref sig .tc := ⟨.hbm, 632, rfl⟩
abbrev main_v547 : Ref sig .tc := ⟨.hbm, 633, rfl⟩
abbrev main_v548 : Ref sig .tc := ⟨.hbm, 634, rfl⟩
abbrev main_v549 : Ref sig .tc := ⟨.hbm, 635, rfl⟩
abbrev main_cst_69 : Ref sig .tc := ⟨.hbm, 636, rfl⟩
abbrev main_v550 : Ref sig .tc := ⟨.hbm, 637, rfl⟩
abbrev main_v551 : Ref sig .tc := ⟨.hbm, 638, rfl⟩
abbrev main_cst_70 : Ref sig .tc := ⟨.hbm, 639, rfl⟩
abbrev main_v552 : Ref sig .tc := ⟨.hbm, 640, rfl⟩
abbrev main_v553 : Ref sig .tc := ⟨.hbm, 641, rfl⟩
abbrev main_v554 : Ref sig .tc := ⟨.hbm, 642, rfl⟩
abbrev main_v555 : Ref sig .tc := ⟨.hbm, 643, rfl⟩
abbrev main_v556 : Ref sig .tc := ⟨.hbm, 644, rfl⟩
abbrev main_cst_71 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_v561 : Ref sig .tc := ⟨.hbm, 650, rfl⟩
abbrev main_v562 : Ref sig .tc := ⟨.hbm, 651, rfl⟩
abbrev main_v563 : Ref sig .tc := ⟨.hbm, 652, rfl⟩
abbrev main_v564 : Ref sig .tc := ⟨.hbm, 653, rfl⟩
abbrev main_v565 : Ref sig .tc := ⟨.hbm, 654, rfl⟩
abbrev main_v566 : Ref sig .tc := ⟨.hbm, 655, rfl⟩
abbrev main_v567 : Ref sig .tc := ⟨.hbm, 656, rfl⟩
abbrev main_v568 : Ref sig .tc := ⟨.hbm, 657, rfl⟩
abbrev main_v569 : Ref sig .tc := ⟨.hbm, 658, rfl⟩
abbrev main_v570 : Ref sig .tc := ⟨.hbm, 659, rfl⟩
abbrev main_v571 : Ref sig .tc := ⟨.hbm, 660, rfl⟩
abbrev main_v572 : Ref sig .tc := ⟨.hbm, 661, rfl⟩
abbrev main_v573 : Ref sig .tc := ⟨.hbm, 662, rfl⟩
abbrev main_v574 : Ref sig .tc := ⟨.hbm, 663, rfl⟩
abbrev main_v575 : Ref sig .tc := ⟨.hbm, 664, rfl⟩
abbrev main_v576 : Ref sig .tc := ⟨.hbm, 665, rfl⟩
abbrev main_v577 : Ref sig .tc := ⟨.hbm, 666, rfl⟩
abbrev main_v578 : Ref sig .tc := ⟨.hbm, 667, rfl⟩
abbrev main_v579 : Ref sig .tc := ⟨.hbm, 668, rfl⟩
abbrev main_v580 : Ref sig .tc := ⟨.hbm, 669, rfl⟩
abbrev main_cst_72 : Ref sig .tc := ⟨.hbm, 670, rfl⟩
abbrev main_v581 : Ref sig .tc := ⟨.hbm, 671, rfl⟩
abbrev main_v582 : Ref sig .tc := ⟨.hbm, 672, rfl⟩
abbrev main_cst_73 : Ref sig .tc := ⟨.hbm, 673, rfl⟩
abbrev main_v583 : Ref sig .tc := ⟨.hbm, 674, rfl⟩
abbrev main_v584 : Ref sig .tc := ⟨.hbm, 675, rfl⟩
abbrev main_v585 : Ref sig .tc := ⟨.hbm, 676, rfl⟩
abbrev main_v586 : Ref sig .tc := ⟨.hbm, 677, rfl⟩
abbrev main_v587 : Ref sig .tc := ⟨.hbm, 678, rfl⟩
abbrev main_cst_74 : Ref sig .tc := ⟨.hbm, 679, rfl⟩
abbrev main_v588 : Ref sig .tc := ⟨.hbm, 680, rfl⟩
abbrev main_v589 : Ref sig .tc := ⟨.hbm, 681, rfl⟩
abbrev main_cst_75 : Ref sig .tc := ⟨.hbm, 682, rfl⟩
abbrev main_v590 : Ref sig .tc := ⟨.hbm, 683, rfl⟩
abbrev main_v591 : Ref sig .tc := ⟨.hbm, 684, rfl⟩
abbrev main_v592 : Ref sig .tc := ⟨.hbm, 685, rfl⟩
abbrev main_v593 : Ref sig .tc := ⟨.hbm, 686, rfl⟩
abbrev main_v594 : Ref sig .tc := ⟨.hbm, 687, rfl⟩
abbrev main_cst_76 : Ref sig .tc := ⟨.hbm, 688, rfl⟩
abbrev main_v595 : Ref sig .tc := ⟨.hbm, 689, rfl⟩
abbrev main_v596 : Ref sig .tc := ⟨.hbm, 690, rfl⟩
abbrev main_v597 : Ref sig .tc := ⟨.hbm, 691, rfl⟩
abbrev main_v598 : Ref sig .tc := ⟨.hbm, 692, rfl⟩
abbrev main_v599 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_cst_77 : Ref sig .tc := ⟨.hbm, 719, rfl⟩
abbrev main_v625 : Ref sig .tc := ⟨.hbm, 720, rfl⟩
abbrev main_v626 : Ref sig .tc := ⟨.hbm, 721, rfl⟩
abbrev main_cst_78 : Ref sig .tc := ⟨.hbm, 722, rfl⟩
abbrev main_v627 : Ref sig .tc := ⟨.hbm, 723, rfl⟩
abbrev main_v628 : Ref sig .tc := ⟨.hbm, 724, rfl⟩
abbrev main_v629 : Ref sig .tc := ⟨.hbm, 725, rfl⟩
abbrev main_v630 : Ref sig .tc := ⟨.hbm, 726, rfl⟩
abbrev main_v631 : Ref sig .tc := ⟨.hbm, 727, rfl⟩
abbrev main_cst_79 : Ref sig .tc := ⟨.hbm, 728, rfl⟩
abbrev main_v632 : Ref sig .tc := ⟨.hbm, 729, rfl⟩
abbrev main_v633 : Ref sig .tc := ⟨.hbm, 730, rfl⟩
abbrev main_cst_80 : Ref sig .tc := ⟨.hbm, 731, rfl⟩
abbrev main_v634 : Ref sig .tc := ⟨.hbm, 732, rfl⟩
abbrev main_v635 : Ref sig .tc := ⟨.hbm, 733, rfl⟩
abbrev main_v636 : Ref sig .tc := ⟨.hbm, 734, rfl⟩
abbrev main_v637 : Ref sig .tc := ⟨.hbm, 735, rfl⟩
abbrev main_v638 : Ref sig .tc := ⟨.hbm, 736, rfl⟩
abbrev main_cst_81 : Ref sig .tc := ⟨.hbm, 737, rfl⟩
abbrev main_v639 : Ref sig .tc := ⟨.hbm, 738, rfl⟩
abbrev main_v640 : Ref sig .tc := ⟨.hbm, 739, rfl⟩
abbrev main_v641 : Ref sig .tc := ⟨.hbm, 740, rfl⟩
abbrev main_v642 : Ref sig .tc := ⟨.hbm, 741, rfl⟩
abbrev main_v643 : Ref sig .tc := ⟨.hbm, 742, rfl⟩
abbrev main_v644 : Ref sig .tc := ⟨.hbm, 743, rfl⟩
abbrev main_v645 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_v651 : Ref sig .tc := ⟨.hbm, 750, rfl⟩
abbrev main_v652 : Ref sig .tc := ⟨.hbm, 751, rfl⟩
abbrev main_v653 : Ref sig .tc := ⟨.hbm, 752, rfl⟩
abbrev main_v654 : Ref sig .tc := ⟨.hbm, 753, rfl⟩
abbrev main_v655 : Ref sig .tc := ⟨.hbm, 754, rfl⟩
abbrev main_v656 : Ref sig .tc := ⟨.hbm, 755, rfl⟩
abbrev main_v657 : Ref sig .tc := ⟨.hbm, 756, rfl⟩
abbrev main_v658 : Ref sig .tc := ⟨.hbm, 757, rfl⟩
abbrev main_v659 : Ref sig .tc := ⟨.hbm, 758, rfl⟩
abbrev main_v660 : Ref sig .tc := ⟨.hbm, 759, rfl⟩
abbrev main_v661 : Ref sig .tc := ⟨.hbm, 760, rfl⟩
abbrev main_v662 : Ref sig .tc := ⟨.hbm, 761, rfl⟩
abbrev main_cst_82 : Ref sig .tc := ⟨.hbm, 762, rfl⟩
abbrev main_v663 : Ref sig .tc := ⟨.hbm, 763, rfl⟩
abbrev main_v664 : Ref sig .tc := ⟨.hbm, 764, rfl⟩
abbrev main_cst_83 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_v668 : Ref sig .tc := ⟨.hbm, 769, rfl⟩
abbrev main_v669 : Ref sig .tc := ⟨.hbm, 770, rfl⟩
abbrev main_cst_84 : Ref sig .tc := ⟨.hbm, 771, rfl⟩
abbrev main_v670 : Ref sig .tc := ⟨.hbm, 772, rfl⟩
abbrev main_v671 : Ref sig .tc := ⟨.hbm, 773, rfl⟩
abbrev main_cst_85 : Ref sig .tc := ⟨.hbm, 774, rfl⟩
abbrev main_v672 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_cst_86 : Ref sig .tc := ⟨.hbm, 780, rfl⟩
abbrev main_v677 : Ref sig .tc := ⟨.hbm, 781, rfl⟩
abbrev main_v678 : Ref sig .tc := ⟨.hbm, 782, rfl⟩
abbrev main_v679 : Ref sig .tc := ⟨.hbm, 783, rfl⟩
abbrev main_v680 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_v690 : Ref sig .tc := ⟨.hbm, 794, rfl⟩
abbrev main_v691 : Ref sig .tc := ⟨.hbm, 795, rfl⟩
abbrev main_v692 : Ref sig .tc := ⟨.hbm, 796, rfl⟩
abbrev main_v693 : Ref sig .tc := ⟨.hbm, 797, rfl⟩
abbrev main_v694 : Ref sig .tc := ⟨.hbm, 798, rfl⟩
abbrev main_v695 : Ref sig .tc := ⟨.hbm, 799, rfl⟩
abbrev main_v696 : Ref sig .tc := ⟨.hbm, 800, rfl⟩
abbrev main_v697 : Ref sig .tc := ⟨.hbm, 801, rfl⟩
abbrev main_v698 : Ref sig .tc := ⟨.hbm, 802, rfl⟩
abbrev main_v699 : Ref sig .tc := ⟨.hbm, 803, rfl⟩
abbrev main_v700 : Ref sig .tc := ⟨.hbm, 804, rfl⟩
abbrev main_cst_87 : Ref sig .tc := ⟨.hbm, 805, rfl⟩
abbrev main_v701 : Ref sig .tc := ⟨.hbm, 806, rfl⟩
abbrev main_v702 : Ref sig .tc := ⟨.hbm, 807, rfl⟩
abbrev main_cst_88 : Ref sig .tc := ⟨.hbm, 808, rfl⟩
abbrev main_v703 : Ref sig .tc := ⟨.hbm, 809, rfl⟩
abbrev main_v704 : Ref sig .tc := ⟨.hbm, 810, rfl⟩
abbrev main_v705 : Ref sig .tc := ⟨.hbm, 811, rfl⟩
abbrev main_v706 : Ref sig .tc := ⟨.hbm, 812, rfl⟩
abbrev main_v707 : Ref sig .tc := ⟨.hbm, 813, rfl⟩
abbrev main_cst_89 : Ref sig .tc := ⟨.hbm, 814, rfl⟩
abbrev main_v708 : Ref sig .tc := ⟨.hbm, 815, rfl⟩
abbrev main_v709 : Ref sig .tc := ⟨.hbm, 816, rfl⟩
abbrev main_cst_90 : Ref sig .tc := ⟨.hbm, 817, rfl⟩
abbrev main_v710 : Ref sig .tc := ⟨.hbm, 818, rfl⟩
abbrev main_v711 : Ref sig .tc := ⟨.hbm, 819, rfl⟩
abbrev main_v712 : Ref sig .tc := ⟨.hbm, 820, rfl⟩
abbrev main_v713 : Ref sig .tc := ⟨.hbm, 821, rfl⟩
abbrev main_v714 : Ref sig .tc := ⟨.hbm, 822, rfl⟩
abbrev main_cst_91 : Ref sig .tc := ⟨.hbm, 823, rfl⟩
abbrev main_v715 : Ref sig .tc := ⟨.hbm, 824, rfl⟩
abbrev main_v716 : Ref sig .tc := ⟨.hbm, 825, rfl⟩
abbrev main_v717 : Ref sig .tc := ⟨.hbm, 826, rfl⟩
abbrev main_v718 : Ref sig .tc := ⟨.hbm, 827, rfl⟩
abbrev main_v719 : Ref sig .tc := ⟨.hbm, 828, rfl⟩
abbrev main_v720 : Ref sig .tc := ⟨.hbm, 829, rfl⟩
abbrev main_v721 : Ref sig .tc := ⟨.hbm, 830, rfl⟩
abbrev main_v722 : Ref sig .tc := ⟨.hbm, 831, rfl⟩
abbrev main_v723 : Ref sig .tc := ⟨.hbm, 832, rfl⟩
abbrev main_v724 : Ref sig .tc := ⟨.hbm, 833, rfl⟩
abbrev main_v725 : Ref sig .tc := ⟨.hbm, 834, rfl⟩
abbrev main_v726 : Ref sig .tc := ⟨.hbm, 835, rfl⟩
abbrev main_v727 : Ref sig .tc := ⟨.hbm, 836, rfl⟩
abbrev main_v728 : Ref sig .tc := ⟨.hbm, 837, rfl⟩
abbrev main_v729 : Ref sig .tc := ⟨.hbm, 838, rfl⟩
abbrev main_v730 : Ref sig .tc := ⟨.hbm, 839, rfl⟩
abbrev main_v731 : Ref sig .tc := ⟨.hbm, 840, rfl⟩
abbrev main_v732 : Ref sig .tc := ⟨.hbm, 841, rfl⟩
abbrev main_v733 : Ref sig .tc := ⟨.hbm, 842, rfl⟩
abbrev main_v734 : Ref sig .tc := ⟨.hbm, 843, rfl⟩
abbrev main_v735 : Ref sig .tc := ⟨.hbm, 844, rfl⟩
abbrev main_v736 : Ref sig .tc := ⟨.hbm, 845, rfl⟩
abbrev main_v737 : Ref sig .tc := ⟨.hbm, 846, rfl⟩
abbrev main_v738 : Ref sig .tc := ⟨.hbm, 847, rfl⟩
abbrev main_v739 : Ref sig .tc := ⟨.hbm, 848, rfl⟩
abbrev main_v740 : Ref sig .tc := ⟨.hbm, 849, rfl⟩
abbrev main_v741 : Ref sig .tc := ⟨.hbm, 850, rfl⟩
abbrev main_v742 : Ref sig .tc := ⟨.hbm, 851, rfl⟩
abbrev main_v743 : Ref sig .tc := ⟨.hbm, 852, rfl⟩
abbrev main_v744 : Ref sig .tc := ⟨.hbm, 853, rfl⟩
abbrev main_cst_92 : Ref sig .tc := ⟨.hbm, 854, rfl⟩
abbrev main_v745 : Ref sig .tc := ⟨.hbm, 855, rfl⟩
abbrev main_v746 : Ref sig .tc := ⟨.hbm, 856, rfl⟩
abbrev main_cst_93 : Ref sig .tc := ⟨.hbm, 857, rfl⟩
abbrev main_v747 : Ref sig .tc := ⟨.hbm, 858, rfl⟩
abbrev main_v748 : Ref sig .tc := ⟨.hbm, 859, rfl⟩
abbrev main_v749 : Ref sig .tc := ⟨.hbm, 860, rfl⟩
abbrev main_v750 : Ref sig .tc := ⟨.hbm, 861, rfl⟩
abbrev main_v751 : Ref sig .tc := ⟨.hbm, 862, rfl⟩
abbrev main_cst_94 : Ref sig .tc := ⟨.hbm, 863, rfl⟩
abbrev main_v752 : Ref sig .tc := ⟨.hbm, 864, rfl⟩
abbrev main_v753 : Ref sig .tc := ⟨.hbm, 865, rfl⟩
abbrev main_cst_95 : Ref sig .tc := ⟨.hbm, 866, rfl⟩
abbrev main_v754 : Ref sig .tc := ⟨.hbm, 867, rfl⟩
abbrev main_v755 : Ref sig .tc := ⟨.hbm, 868, rfl⟩
abbrev main_v756 : Ref sig .tc := ⟨.hbm, 869, rfl⟩
abbrev main_v757 : Ref sig .tc := ⟨.hbm, 870, rfl⟩
abbrev main_v758 : Ref sig .tc := ⟨.hbm, 871, rfl⟩
abbrev main_cst_96 : Ref sig .tc := ⟨.hbm, 872, rfl⟩
abbrev main_v759 : Ref sig .tc := ⟨.hbm, 873, rfl⟩
abbrev main_v760 : Ref sig .tc := ⟨.hbm, 874, rfl⟩
abbrev main_v761 : Ref sig .tc := ⟨.hbm, 875, rfl⟩
abbrev main_v762 : Ref sig .tc := ⟨.hbm, 876, rfl⟩
abbrev main_v763 : Ref sig .tc := ⟨.hbm, 877, rfl⟩
abbrev main_v764 : Ref sig .tc := ⟨.hbm, 878, rfl⟩
abbrev main_v765 : Ref sig .tc := ⟨.hbm, 879, rfl⟩
abbrev main_v766 : Ref sig .tc := ⟨.hbm, 880, rfl⟩
abbrev main_v767 : Ref sig .tc := ⟨.hbm, 881, rfl⟩
abbrev main_v768 : Ref sig .tc := ⟨.hbm, 882, rfl⟩
abbrev main_v769 : Ref sig .tc := ⟨.hbm, 883, rfl⟩
abbrev main_v770 : Ref sig .tc := ⟨.hbm, 884, rfl⟩
abbrev main_v771 : Ref sig .tc := ⟨.hbm, 885, rfl⟩
abbrev main_v772 : Ref sig .tc := ⟨.hbm, 886, rfl⟩
abbrev main_v773 : Ref sig .tc := ⟨.hbm, 887, rfl⟩
abbrev main_v774 : Ref sig .tc := ⟨.hbm, 888, rfl⟩
abbrev main_v775 : Ref sig .tc := ⟨.hbm, 889, rfl⟩
abbrev main_v776 : Ref sig .tc := ⟨.hbm, 890, rfl⟩
abbrev main_v777 : Ref sig .tc := ⟨.hbm, 891, rfl⟩
abbrev main_v778 : Ref sig .tc := ⟨.hbm, 892, rfl⟩
abbrev main_v779 : Ref sig .tc := ⟨.hbm, 893, rfl⟩
abbrev main_v780 : Ref sig .tc := ⟨.hbm, 894, rfl⟩
abbrev main_v781 : Ref sig .tc := ⟨.hbm, 895, rfl⟩
abbrev main_v782 : Ref sig .tc := ⟨.hbm, 896, rfl⟩
abbrev main_cst_97 : Ref sig .tc := ⟨.hbm, 897, rfl⟩
abbrev main_v783 : Ref sig .tc := ⟨.hbm, 898, rfl⟩
abbrev main_v784 : Ref sig .tc := ⟨.hbm, 899, rfl⟩
abbrev main_cst_98 : Ref sig .tc := ⟨.hbm, 900, rfl⟩
abbrev main_v785 : Ref sig .tc := ⟨.hbm, 901, rfl⟩
abbrev main_v786 : Ref sig .tc := ⟨.hbm, 902, rfl⟩
abbrev main_v787 : Ref sig .tc := ⟨.hbm, 903, rfl⟩
abbrev main_v788 : Ref sig .tc := ⟨.hbm, 904, rfl⟩
abbrev main_v789 : Ref sig .tc := ⟨.hbm, 905, rfl⟩
abbrev main_cst_99 : Ref sig .tc := ⟨.hbm, 906, rfl⟩
abbrev main_v790 : Ref sig .tc := ⟨.hbm, 907, rfl⟩
abbrev main_v791 : Ref sig .tc := ⟨.hbm, 908, rfl⟩
abbrev main_cst_100 : Ref sig .tc := ⟨.hbm, 909, rfl⟩
abbrev main_v792 : Ref sig .tc := ⟨.hbm, 910, rfl⟩
abbrev main_v793 : Ref sig .tc := ⟨.hbm, 911, rfl⟩
abbrev main_v794 : Ref sig .tc := ⟨.hbm, 912, rfl⟩
abbrev main_v795 : Ref sig .tc := ⟨.hbm, 913, rfl⟩
abbrev main_v796 : Ref sig .tc := ⟨.hbm, 914, rfl⟩
abbrev main_cst_101 : Ref sig .tc := ⟨.hbm, 915, rfl⟩
abbrev main_v797 : Ref sig .tc := ⟨.hbm, 916, rfl⟩
abbrev main_v798 : Ref sig .tc := ⟨.hbm, 917, rfl⟩
abbrev main_v799 : Ref sig .tc := ⟨.hbm, 918, rfl⟩
abbrev main_v800 : Ref sig .tc := ⟨.hbm, 919, rfl⟩
abbrev main_v801 : Ref sig .tc := ⟨.hbm, 920, rfl⟩
abbrev main_v802 : Ref sig .tc := ⟨.hbm, 921, rfl⟩
abbrev main_v803 : Ref sig .tc := ⟨.hbm, 922, rfl⟩
abbrev main_v804 : Ref sig .tc := ⟨.hbm, 923, rfl⟩
abbrev main_v805 : Ref sig .tc := ⟨.hbm, 924, rfl⟩
abbrev main_v806 : Ref sig .tc := ⟨.hbm, 925, rfl⟩
abbrev main_v807 : Ref sig .tc := ⟨.hbm, 926, rfl⟩
abbrev main_v808 : Ref sig .tc := ⟨.hbm, 927, rfl⟩
abbrev main_v809 : Ref sig .tc := ⟨.hbm, 928, rfl⟩
abbrev main_v810 : Ref sig .tc := ⟨.hbm, 929, rfl⟩
abbrev main_v811 : Ref sig .tc := ⟨.hbm, 930, rfl⟩
abbrev main_v812 : Ref sig .tc := ⟨.hbm, 931, rfl⟩
abbrev main_v813 : Ref sig .tc := ⟨.hbm, 932, rfl⟩
abbrev main_v814 : Ref sig .tc := ⟨.hbm, 933, rfl⟩
abbrev main_v815 : Ref sig .tc := ⟨.hbm, 934, rfl⟩
abbrev main_v816 : Ref sig .tc := ⟨.hbm, 935, rfl⟩
abbrev main_v817 : Ref sig .tc := ⟨.hbm, 936, rfl⟩
abbrev main_v818 : Ref sig .tc := ⟨.hbm, 937, rfl⟩
abbrev main_v819 : Ref sig .tc := ⟨.hbm, 938, rfl⟩
abbrev main_v820 : Ref sig .tc := ⟨.hbm, 939, rfl⟩
abbrev main_cst_102 : Ref sig .tc := ⟨.hbm, 940, rfl⟩
abbrev main_v821 : Ref sig .tc := ⟨.hbm, 941, rfl⟩
abbrev main_v822 : Ref sig .tc := ⟨.hbm, 942, rfl⟩
abbrev main_cst_103 : Ref sig .tc := ⟨.hbm, 943, rfl⟩
abbrev main_v823 : Ref sig .tc := ⟨.hbm, 944, rfl⟩
abbrev main_v824 : Ref sig .tc := ⟨.hbm, 945, rfl⟩
abbrev main_v825 : Ref sig .tc := ⟨.hbm, 946, rfl⟩
abbrev main_v826 : Ref sig .tc := ⟨.hbm, 947, rfl⟩
abbrev main_v827 : Ref sig .tc := ⟨.hbm, 948, rfl⟩
abbrev main_cst_104 : Ref sig .tc := ⟨.hbm, 949, rfl⟩
abbrev main_v828 : Ref sig .tc := ⟨.hbm, 950, rfl⟩
abbrev main_v829 : Ref sig .tc := ⟨.hbm, 951, rfl⟩
abbrev main_cst_105 : Ref sig .tc := ⟨.hbm, 952, rfl⟩
abbrev main_v830 : Ref sig .tc := ⟨.hbm, 953, rfl⟩
abbrev main_v831 : Ref sig .tc := ⟨.hbm, 954, rfl⟩
abbrev main_v832 : Ref sig .tc := ⟨.hbm, 955, rfl⟩
abbrev main_v833 : Ref sig .tc := ⟨.hbm, 956, rfl⟩
abbrev main_v834 : Ref sig .tc := ⟨.hbm, 957, rfl⟩
abbrev main_cst_106 : Ref sig .tc := ⟨.hbm, 958, rfl⟩
abbrev main_v835 : Ref sig .tc := ⟨.hbm, 959, rfl⟩
abbrev main_v836 : Ref sig .tc := ⟨.hbm, 960, rfl⟩
abbrev main_v837 : Ref sig .tc := ⟨.hbm, 961, rfl⟩
abbrev main_v838 : Ref sig .tc := ⟨.hbm, 962, rfl⟩
abbrev main_v839 : Ref sig .tc := ⟨.hbm, 963, rfl⟩
abbrev main_v840 : Ref sig .tc := ⟨.hbm, 964, rfl⟩
abbrev main_v841 : Ref sig .tc := ⟨.hbm, 965, rfl⟩
abbrev main_v842 : Ref sig .tc := ⟨.hbm, 966, rfl⟩
abbrev main_v843 : Ref sig .tc := ⟨.hbm, 967, rfl⟩
abbrev main_v844 : Ref sig .tc := ⟨.hbm, 968, rfl⟩
abbrev main_v845 : Ref sig .tc := ⟨.hbm, 969, rfl⟩
abbrev main_v846 : Ref sig .tc := ⟨.hbm, 970, rfl⟩
abbrev main_v847 : Ref sig .tc := ⟨.hbm, 971, rfl⟩
abbrev main_v848 : Ref sig .tc := ⟨.hbm, 972, rfl⟩
abbrev main_v849 : Ref sig .tc := ⟨.hbm, 973, rfl⟩
abbrev main_v850 : Ref sig .tc := ⟨.hbm, 974, rfl⟩
abbrev main_v851 : Ref sig .tc := ⟨.hbm, 975, rfl⟩
abbrev main_v852 : Ref sig .tc := ⟨.hbm, 976, rfl⟩
abbrev main_v853 : Ref sig .tc := ⟨.hbm, 977, rfl⟩
abbrev main_v854 : Ref sig .tc := ⟨.hbm, 978, rfl⟩
abbrev main_v855 : Ref sig .tc := ⟨.hbm, 979, rfl⟩
abbrev main_v856 : Ref sig .tc := ⟨.hbm, 980, rfl⟩
abbrev main_v857 : Ref sig .tc := ⟨.hbm, 981, rfl⟩
abbrev main_v858 : Ref sig .tc := ⟨.hbm, 982, rfl⟩
abbrev main_v859 : Ref sig .tc := ⟨.hbm, 983, rfl⟩
abbrev main_v860 : Ref sig .tc := ⟨.hbm, 984, rfl⟩
abbrev main_v861 : Ref sig .tc := ⟨.hbm, 985, rfl⟩
abbrev main_v862 : Ref sig .tc := ⟨.hbm, 986, rfl⟩
abbrev main_v863 : Ref sig .tc := ⟨.hbm, 987, rfl⟩
abbrev main_v864 : Ref sig .tc := ⟨.hbm, 988, rfl⟩
abbrev main_cst_107 : Ref sig .tc := ⟨.hbm, 989, rfl⟩
abbrev main_v865 : Ref sig .tc := ⟨.hbm, 990, rfl⟩
abbrev main_v866 : Ref sig .tc := ⟨.hbm, 991, rfl⟩
abbrev main_cst_108 : Ref sig .tc := ⟨.hbm, 992, rfl⟩
abbrev main_v867 : Ref sig .tc := ⟨.hbm, 993, rfl⟩
abbrev main_v868 : Ref sig .tc := ⟨.hbm, 994, rfl⟩
abbrev main_v869 : Ref sig .tc := ⟨.hbm, 995, rfl⟩
abbrev main_v870 : Ref sig .tc := ⟨.hbm, 996, rfl⟩
abbrev main_v871 : Ref sig .tc := ⟨.hbm, 997, rfl⟩
abbrev main_cst_109 : Ref sig .tc := ⟨.hbm, 998, rfl⟩
abbrev main_v872 : Ref sig .tc := ⟨.hbm, 999, rfl⟩
abbrev main_v873 : Ref sig .tc := ⟨.hbm, 1000, rfl⟩
abbrev main_cst_110 : Ref sig .tc := ⟨.hbm, 1001, rfl⟩
abbrev main_v874 : Ref sig .tc := ⟨.hbm, 1002, rfl⟩
abbrev main_v875 : Ref sig .tc := ⟨.hbm, 1003, rfl⟩
abbrev main_v876 : Ref sig .tc := ⟨.hbm, 1004, rfl⟩
abbrev main_v877 : Ref sig .tc := ⟨.hbm, 1005, rfl⟩
abbrev main_v878 : Ref sig .tc := ⟨.hbm, 1006, rfl⟩
abbrev main_cst_111 : Ref sig .tc := ⟨.hbm, 1007, rfl⟩
abbrev main_v879 : Ref sig .tc := ⟨.hbm, 1008, rfl⟩
abbrev main_v880 : Ref sig .tc := ⟨.hbm, 1009, rfl⟩
abbrev main_v881 : Ref sig .tc := ⟨.hbm, 1010, rfl⟩
abbrev main_v882 : Ref sig .tc := ⟨.hbm, 1011, rfl⟩
abbrev main_v883 : Ref sig .tc := ⟨.hbm, 1012, rfl⟩
abbrev main_v884 : Ref sig .tc := ⟨.hbm, 1013, rfl⟩
abbrev main_v885 : Ref sig .tc := ⟨.hbm, 1014, rfl⟩
abbrev main_v886 : Ref sig .tc := ⟨.hbm, 1015, rfl⟩
abbrev main_v887 : Ref sig .tc := ⟨.hbm, 1016, rfl⟩
abbrev main_v888 : Ref sig .tc := ⟨.hbm, 1017, rfl⟩
abbrev main_v889 : Ref sig .tc := ⟨.hbm, 1018, rfl⟩
abbrev main_v890 : Ref sig .tc := ⟨.hbm, 1019, rfl⟩
abbrev main_v891 : Ref sig .tc := ⟨.hbm, 1020, rfl⟩
abbrev main_v892 : Ref sig .tc := ⟨.hbm, 1021, rfl⟩
abbrev main_v893 : Ref sig .tc := ⟨.hbm, 1022, rfl⟩
abbrev main_v894 : Ref sig .tc := ⟨.hbm, 1023, rfl⟩
abbrev main_v895 : Ref sig .tc := ⟨.hbm, 1024, rfl⟩
abbrev main_v896 : Ref sig .tc := ⟨.hbm, 1025, rfl⟩
abbrev main_v897 : Ref sig .tc := ⟨.hbm, 1026, rfl⟩
abbrev main_v898 : Ref sig .tc := ⟨.hbm, 1027, rfl⟩
abbrev main_v899 : Ref sig .tc := ⟨.hbm, 1028, rfl⟩
abbrev main_v900 : Ref sig .tc := ⟨.hbm, 1029, rfl⟩
abbrev main_v901 : Ref sig .tc := ⟨.hbm, 1030, rfl⟩
abbrev main_v902 : Ref sig .tc := ⟨.hbm, 1031, rfl⟩
abbrev main_cst_112 : Ref sig .tc := ⟨.hbm, 1032, rfl⟩
abbrev main_v903 : Ref sig .tc := ⟨.hbm, 1033, rfl⟩
abbrev main_v904 : Ref sig .tc := ⟨.hbm, 1034, rfl⟩
abbrev main_cst_113 : Ref sig .tc := ⟨.hbm, 1035, rfl⟩
abbrev main_v905 : Ref sig .tc := ⟨.hbm, 1036, rfl⟩
abbrev main_v906 : Ref sig .tc := ⟨.hbm, 1037, rfl⟩
abbrev main_v907 : Ref sig .tc := ⟨.hbm, 1038, rfl⟩
abbrev main_v908 : Ref sig .tc := ⟨.hbm, 1039, rfl⟩
abbrev main_v909 : Ref sig .tc := ⟨.hbm, 1040, rfl⟩
abbrev main_cst_114 : Ref sig .tc := ⟨.hbm, 1041, rfl⟩
abbrev main_v910 : Ref sig .tc := ⟨.hbm, 1042, rfl⟩
abbrev main_v911 : Ref sig .tc := ⟨.hbm, 1043, rfl⟩
abbrev main_cst_115 : Ref sig .tc := ⟨.hbm, 1044, rfl⟩
abbrev main_v912 : Ref sig .tc := ⟨.hbm, 1045, rfl⟩
abbrev main_v913 : Ref sig .tc := ⟨.hbm, 1046, rfl⟩
abbrev main_v914 : Ref sig .tc := ⟨.hbm, 1047, rfl⟩
abbrev main_v915 : Ref sig .tc := ⟨.hbm, 1048, rfl⟩
abbrev main_v916 : Ref sig .tc := ⟨.hbm, 1049, rfl⟩
abbrev main_cst_116 : Ref sig .tc := ⟨.hbm, 1050, rfl⟩
abbrev main_v917 : Ref sig .tc := ⟨.hbm, 1051, rfl⟩
abbrev main_v918 : Ref sig .tc := ⟨.hbm, 1052, rfl⟩
abbrev main_v919 : Ref sig .tc := ⟨.hbm, 1053, rfl⟩
abbrev main_v920 : Ref sig .tc := ⟨.hbm, 1054, rfl⟩
abbrev main_v921 : Ref sig .tc := ⟨.hbm, 1055, rfl⟩
abbrev main_v922 : Ref sig .tc := ⟨.hbm, 1056, rfl⟩
abbrev main_v923 : Ref sig .tc := ⟨.hbm, 1057, rfl⟩
abbrev main_v924 : Ref sig .tc := ⟨.hbm, 1058, rfl⟩
abbrev main_v925 : Ref sig .tc := ⟨.hbm, 1059, rfl⟩
abbrev main_v926 : Ref sig .tc := ⟨.hbm, 1060, rfl⟩
abbrev main_v927 : Ref sig .tc := ⟨.hbm, 1061, rfl⟩
abbrev main_v928 : Ref sig .tc := ⟨.hbm, 1062, rfl⟩
abbrev main_v929 : Ref sig .tc := ⟨.hbm, 1063, rfl⟩
abbrev main_v930 : Ref sig .tc := ⟨.hbm, 1064, rfl⟩
abbrev main_v931 : Ref sig .tc := ⟨.hbm, 1065, rfl⟩
abbrev main_v932 : Ref sig .tc := ⟨.hbm, 1066, rfl⟩
abbrev main_v933 : Ref sig .tc := ⟨.hbm, 1067, rfl⟩
abbrev main_v934 : Ref sig .tc := ⟨.hbm, 1068, rfl⟩
abbrev main_v935 : Ref sig .tc := ⟨.hbm, 1069, rfl⟩
abbrev main_v936 : Ref sig .tc := ⟨.hbm, 1070, rfl⟩
abbrev main_v937 : Ref sig .tc := ⟨.hbm, 1071, rfl⟩
abbrev main_v938 : Ref sig .tc := ⟨.hbm, 1072, rfl⟩
abbrev main_v939 : Ref sig .tc := ⟨.hbm, 1073, rfl⟩
abbrev main_v940 : Ref sig .tc := ⟨.hbm, 1074, rfl⟩
abbrev main_cst_117 : Ref sig .tc := ⟨.hbm, 1075, rfl⟩
abbrev main_v941 : Ref sig .tc := ⟨.hbm, 1076, rfl⟩
abbrev main_v942 : Ref sig .tc := ⟨.hbm, 1077, rfl⟩
abbrev main_cst_118 : Ref sig .tc := ⟨.hbm, 1078, rfl⟩
abbrev main_v943 : Ref sig .tc := ⟨.hbm, 1079, rfl⟩
abbrev main_v944 : Ref sig .tc := ⟨.hbm, 1080, rfl⟩
abbrev main_v945 : Ref sig .tc := ⟨.hbm, 1081, rfl⟩
abbrev main_v946 : Ref sig .tc := ⟨.hbm, 1082, rfl⟩
abbrev main_v947 : Ref sig .tc := ⟨.hbm, 1083, rfl⟩
abbrev main_cst_119 : Ref sig .tc := ⟨.hbm, 1084, rfl⟩
abbrev main_v948 : Ref sig .tc := ⟨.hbm, 1085, rfl⟩
abbrev main_v949 : Ref sig .tc := ⟨.hbm, 1086, rfl⟩
abbrev main_cst_120 : Ref sig .tc := ⟨.hbm, 1087, rfl⟩
abbrev main_v950 : Ref sig .tc := ⟨.hbm, 1088, rfl⟩
abbrev main_v951 : Ref sig .tc := ⟨.hbm, 1089, rfl⟩
abbrev main_v952 : Ref sig .tc := ⟨.hbm, 1090, rfl⟩
abbrev main_v953 : Ref sig .tc := ⟨.hbm, 1091, rfl⟩
abbrev main_v954 : Ref sig .tc := ⟨.hbm, 1092, rfl⟩
abbrev main_cst_121 : Ref sig .tc := ⟨.hbm, 1093, rfl⟩
abbrev main_v955 : Ref sig .tc := ⟨.hbm, 1094, rfl⟩
abbrev main_v956 : Ref sig .tc := ⟨.hbm, 1095, rfl⟩
abbrev main_v957 : Ref sig .tc := ⟨.hbm, 1096, rfl⟩
abbrev main_v958 : Ref sig .tc := ⟨.hbm, 1097, rfl⟩
abbrev main_v959 : Ref sig .tc := ⟨.hbm, 1098, rfl⟩
abbrev main_v960 : Ref sig .tc := ⟨.hbm, 1099, rfl⟩
abbrev main_v961 : Ref sig .tc := ⟨.hbm, 1100, rfl⟩
abbrev main_v962 : Ref sig .tc := ⟨.hbm, 1101, rfl⟩
abbrev main_v963 : Ref sig .tc := ⟨.hbm, 1102, rfl⟩
abbrev main_v964 : Ref sig .tc := ⟨.hbm, 1103, rfl⟩
abbrev main_v965 : Ref sig .tc := ⟨.hbm, 1104, rfl⟩
abbrev main_v966 : Ref sig .tc := ⟨.hbm, 1105, rfl⟩
abbrev main_v967 : Ref sig .tc := ⟨.hbm, 1106, rfl⟩
abbrev main_v968 : Ref sig .tc := ⟨.hbm, 1107, rfl⟩
abbrev main_v969 : Ref sig .tc := ⟨.hbm, 1108, rfl⟩
abbrev main_v970 : Ref sig .tc := ⟨.hbm, 1109, rfl⟩
abbrev main_v971 : Ref sig .tc := ⟨.hbm, 1110, rfl⟩
abbrev main_v972 : Ref sig .tc := ⟨.hbm, 1111, rfl⟩
abbrev main_v973 : Ref sig .tc := ⟨.hbm, 1112, rfl⟩
abbrev main_v974 : Ref sig .tc := ⟨.hbm, 1113, rfl⟩
abbrev main_v975 : Ref sig .tc := ⟨.hbm, 1114, rfl⟩
abbrev main_v976 : Ref sig .tc := ⟨.hbm, 1115, rfl⟩
abbrev main_v977 : Ref sig .tc := ⟨.hbm, 1116, rfl⟩
abbrev main_v978 : Ref sig .tc := ⟨.hbm, 1117, rfl⟩
abbrev main_v979 : Ref sig .tc := ⟨.hbm, 1118, rfl⟩
abbrev main_v980 : Ref sig .tc := ⟨.hbm, 1119, rfl⟩
abbrev main_v981 : Ref sig .tc := ⟨.hbm, 1120, rfl⟩
abbrev main_v982 : Ref sig .tc := ⟨.hbm, 1121, rfl⟩
abbrev main_v983 : Ref sig .tc := ⟨.hbm, 1122, rfl⟩
abbrev main_v984 : Ref sig .tc := ⟨.hbm, 1123, rfl⟩
abbrev main_cst_122 : Ref sig .tc := ⟨.hbm, 1124, rfl⟩
abbrev main_v985 : Ref sig .tc := ⟨.hbm, 1125, rfl⟩
abbrev main_v986 : Ref sig .tc := ⟨.hbm, 1126, rfl⟩
abbrev main_cst_123 : Ref sig .tc := ⟨.hbm, 1127, rfl⟩
abbrev main_v987 : Ref sig .tc := ⟨.hbm, 1128, rfl⟩
abbrev main_v988 : Ref sig .tc := ⟨.hbm, 1129, rfl⟩
abbrev main_v989 : Ref sig .tc := ⟨.hbm, 1130, rfl⟩
abbrev main_v990 : Ref sig .tc := ⟨.hbm, 1131, rfl⟩
abbrev main_v991 : Ref sig .tc := ⟨.hbm, 1132, rfl⟩
abbrev main_cst_124 : Ref sig .tc := ⟨.hbm, 1133, rfl⟩
abbrev main_v992 : Ref sig .tc := ⟨.hbm, 1134, rfl⟩
abbrev main_v993 : Ref sig .tc := ⟨.hbm, 1135, rfl⟩
abbrev main_cst_125 : Ref sig .tc := ⟨.hbm, 1136, rfl⟩
abbrev main_v994 : Ref sig .tc := ⟨.hbm, 1137, rfl⟩
abbrev main_v995 : Ref sig .tc := ⟨.hbm, 1138, rfl⟩
abbrev main_v996 : Ref sig .tc := ⟨.hbm, 1139, rfl⟩
abbrev main_v997 : Ref sig .tc := ⟨.hbm, 1140, rfl⟩
abbrev main_v998 : Ref sig .tc := ⟨.hbm, 1141, rfl⟩
abbrev main_cst_126 : Ref sig .tc := ⟨.hbm, 1142, rfl⟩
abbrev main_v999 : Ref sig .tc := ⟨.hbm, 1143, rfl⟩
abbrev main_v1000 : Ref sig .tc := ⟨.hbm, 1144, rfl⟩
abbrev main_v1001 : Ref sig .tc := ⟨.hbm, 1145, rfl⟩
abbrev main_v1002 : Ref sig .tc := ⟨.hbm, 1146, rfl⟩
abbrev main_v1003 : Ref sig .tc := ⟨.hbm, 1147, rfl⟩
abbrev main_v1004 : Ref sig .tc := ⟨.hbm, 1148, rfl⟩
abbrev main_v1005 : Ref sig .tc := ⟨.hbm, 1149, rfl⟩
abbrev main_v1006 : Ref sig .tc := ⟨.hbm, 1150, rfl⟩
abbrev main_v1007 : Ref sig .tc := ⟨.hbm, 1151, rfl⟩
abbrev main_v1008 : Ref sig .tc := ⟨.hbm, 1152, rfl⟩
abbrev main_v1009 : Ref sig .tc := ⟨.hbm, 1153, rfl⟩
abbrev main_v1010 : Ref sig .tc := ⟨.hbm, 1154, rfl⟩
abbrev main_v1011 : Ref sig .tc := ⟨.hbm, 1155, rfl⟩
abbrev main_v1012 : Ref sig .tc := ⟨.hbm, 1156, rfl⟩
abbrev main_v1013 : Ref sig .tc := ⟨.hbm, 1157, rfl⟩
abbrev main_v1014 : Ref sig .tc := ⟨.hbm, 1158, rfl⟩
abbrev main_v1015 : Ref sig .tc := ⟨.hbm, 1159, rfl⟩
abbrev main_v1016 : Ref sig .tc := ⟨.hbm, 1160, rfl⟩
abbrev main_v1017 : Ref sig .tc := ⟨.hbm, 1161, rfl⟩
abbrev main_v1018 : Ref sig .tc := ⟨.hbm, 1162, rfl⟩
abbrev main_v1019 : Ref sig .tc := ⟨.hbm, 1163, rfl⟩
abbrev main_v1020 : Ref sig .tc := ⟨.hbm, 1164, rfl⟩
abbrev main_v1021 : Ref sig .tc := ⟨.hbm, 1165, rfl⟩
abbrev main_v1022 : Ref sig .tc := ⟨.hbm, 1166, rfl⟩
abbrev main_cst_127 : Ref sig .tc := ⟨.hbm, 1167, rfl⟩
abbrev main_v1023 : Ref sig .tc := ⟨.hbm, 1168, rfl⟩
abbrev main_v1024 : Ref sig .tc := ⟨.hbm, 1169, rfl⟩
abbrev main_cst_128 : Ref sig .tc := ⟨.hbm, 1170, rfl⟩
abbrev main_v1025 : Ref sig .tc := ⟨.hbm, 1171, rfl⟩
abbrev main_v1026 : Ref sig .tc := ⟨.hbm, 1172, rfl⟩
abbrev main_v1027 : Ref sig .tc := ⟨.hbm, 1173, rfl⟩
abbrev main_v1028 : Ref sig .tc := ⟨.hbm, 1174, rfl⟩
abbrev main_v1029 : Ref sig .tc := ⟨.hbm, 1175, rfl⟩
abbrev main_cst_129 : Ref sig .tc := ⟨.hbm, 1176, rfl⟩
abbrev main_v1030 : Ref sig .tc := ⟨.hbm, 1177, rfl⟩
abbrev main_v1031 : Ref sig .tc := ⟨.hbm, 1178, rfl⟩
abbrev main_cst_130 : Ref sig .tc := ⟨.hbm, 1179, rfl⟩
abbrev main_v1032 : Ref sig .tc := ⟨.hbm, 1180, rfl⟩
abbrev main_v1033 : Ref sig .tc := ⟨.hbm, 1181, rfl⟩
abbrev main_v1034 : Ref sig .tc := ⟨.hbm, 1182, rfl⟩
abbrev main_v1035 : Ref sig .tc := ⟨.hbm, 1183, rfl⟩
abbrev main_v1036 : Ref sig .tc := ⟨.hbm, 1184, rfl⟩
abbrev main_cst_131 : Ref sig .tc := ⟨.hbm, 1185, rfl⟩
abbrev main_v1037 : Ref sig .tc := ⟨.hbm, 1186, rfl⟩
abbrev main_v1038 : Ref sig .tc := ⟨.hbm, 1187, rfl⟩
abbrev main_v1039 : Ref sig .tc := ⟨.hbm, 1188, rfl⟩
abbrev main_v1040 : Ref sig .tc := ⟨.hbm, 1189, rfl⟩
abbrev main_v1041 : Ref sig .tc := ⟨.hbm, 1190, rfl⟩
abbrev main_v1042 : Ref sig .tc := ⟨.hbm, 1191, rfl⟩
abbrev main_v1043 : Ref sig .tc := ⟨.hbm, 1192, rfl⟩
abbrev main_v1044 : Ref sig .tc := ⟨.hbm, 1193, rfl⟩
abbrev main_v1045 : Ref sig .tc := ⟨.hbm, 1194, rfl⟩
abbrev main_v1046 : Ref sig .tc := ⟨.hbm, 1195, rfl⟩
abbrev main_v1047 : Ref sig .tc := ⟨.hbm, 1196, rfl⟩
abbrev main_v1048 : Ref sig .tc := ⟨.hbm, 1197, rfl⟩
abbrev main_v1049 : Ref sig .tc := ⟨.hbm, 1198, rfl⟩
abbrev main_v1050 : Ref sig .tc := ⟨.hbm, 1199, rfl⟩
abbrev main_v1051 : Ref sig .tc := ⟨.hbm, 1200, rfl⟩
abbrev main_v1052 : Ref sig .tc := ⟨.hbm, 1201, rfl⟩
abbrev main_v1053 : Ref sig .tc := ⟨.hbm, 1202, rfl⟩
abbrev main_v1054 : Ref sig .tc := ⟨.hbm, 1203, rfl⟩
abbrev main_v1055 : Ref sig .tc := ⟨.hbm, 1204, rfl⟩
abbrev main_v1056 : Ref sig .tc := ⟨.hbm, 1205, rfl⟩
abbrev main_v1057 : Ref sig .tc := ⟨.hbm, 1206, rfl⟩
abbrev main_v1058 : Ref sig .tc := ⟨.hbm, 1207, rfl⟩
abbrev main_v1059 : Ref sig .tc := ⟨.hbm, 1208, rfl⟩
abbrev main_v1060 : Ref sig .tc := ⟨.hbm, 1209, rfl⟩
abbrev main_cst_132 : Ref sig .tc := ⟨.hbm, 1210, rfl⟩
abbrev main_v1061 : Ref sig .tc := ⟨.hbm, 1211, rfl⟩
abbrev main_v1062 : Ref sig .tc := ⟨.hbm, 1212, rfl⟩
abbrev main_cst_133 : Ref sig .tc := ⟨.hbm, 1213, rfl⟩
abbrev main_v1063 : Ref sig .tc := ⟨.hbm, 1214, rfl⟩
abbrev main_v1064 : Ref sig .tc := ⟨.hbm, 1215, rfl⟩
abbrev main_v1065 : Ref sig .tc := ⟨.hbm, 1216, rfl⟩
abbrev main_v1066 : Ref sig .tc := ⟨.hbm, 1217, rfl⟩
abbrev main_v1067 : Ref sig .tc := ⟨.hbm, 1218, rfl⟩
abbrev main_cst_134 : Ref sig .tc := ⟨.hbm, 1219, rfl⟩
abbrev main_v1068 : Ref sig .tc := ⟨.hbm, 1220, rfl⟩
abbrev main_v1069 : Ref sig .tc := ⟨.hbm, 1221, rfl⟩
abbrev main_cst_135 : Ref sig .tc := ⟨.hbm, 1222, rfl⟩
abbrev main_v1070 : Ref sig .tc := ⟨.hbm, 1223, rfl⟩
abbrev main_v1071 : Ref sig .tc := ⟨.hbm, 1224, rfl⟩
abbrev main_v1072 : Ref sig .tc := ⟨.hbm, 1225, rfl⟩
abbrev main_v1073 : Ref sig .tc := ⟨.hbm, 1226, rfl⟩
abbrev main_v1074 : Ref sig .tc := ⟨.hbm, 1227, rfl⟩
abbrev main_cst_136 : Ref sig .tc := ⟨.hbm, 1228, rfl⟩
abbrev main_v1075 : Ref sig .tc := ⟨.hbm, 1229, rfl⟩
abbrev main_v1076 : Ref sig .tc := ⟨.hbm, 1230, rfl⟩
abbrev main_v1077 : Ref sig .tc := ⟨.hbm, 1231, rfl⟩
abbrev main_v1078 : Ref sig .tc := ⟨.hbm, 1232, rfl⟩
abbrev main_v1079 : Ref sig .tc := ⟨.hbm, 1233, rfl⟩
abbrev main_v1080 : Ref sig .tc := ⟨.hbm, 1234, rfl⟩
abbrev main_v1081 : Ref sig .tc := ⟨.hbm, 1235, rfl⟩
abbrev main_v1082 : Ref sig .tc := ⟨.hbm, 1236, rfl⟩
abbrev main_v1083 : Ref sig .tc := ⟨.hbm, 1237, rfl⟩
abbrev main_v1084 : Ref sig .tc := ⟨.hbm, 1238, rfl⟩
abbrev main_v1085 : Ref sig .tc := ⟨.hbm, 1239, rfl⟩
abbrev main_v1086 : Ref sig .tc := ⟨.hbm, 1240, rfl⟩
abbrev main_v1087 : Ref sig .tc := ⟨.hbm, 1241, rfl⟩
abbrev main_v1088 : Ref sig .tc := ⟨.hbm, 1242, rfl⟩
abbrev main_v1089 : Ref sig .tc := ⟨.hbm, 1243, rfl⟩
abbrev main_v1090 : Ref sig .tc := ⟨.hbm, 1244, rfl⟩
abbrev main_v1091 : Ref sig .tc := ⟨.hbm, 1245, rfl⟩
abbrev main_v1092 : Ref sig .tc := ⟨.hbm, 1246, rfl⟩
abbrev main_v1093 : Ref sig .tc := ⟨.hbm, 1247, rfl⟩
abbrev main_v1094 : Ref sig .tc := ⟨.hbm, 1248, rfl⟩
abbrev main_v1095 : Ref sig .tc := ⟨.hbm, 1249, rfl⟩
abbrev main_v1096 : Ref sig .tc := ⟨.hbm, 1250, rfl⟩
abbrev main_v1097 : Ref sig .tc := ⟨.hbm, 1251, rfl⟩
abbrev main_v1098 : Ref sig .tc := ⟨.hbm, 1252, rfl⟩
abbrev main_v1099 : Ref sig .tc := ⟨.hbm, 1253, rfl⟩
abbrev main_v1100 : Ref sig .tc := ⟨.hbm, 1254, rfl⟩
abbrev main_v1101 : Ref sig .tc := ⟨.hbm, 1255, rfl⟩
abbrev main_v1102 : Ref sig .tc := ⟨.hbm, 1256, rfl⟩
abbrev main_v1103 : Ref sig .tc := ⟨.hbm, 1257, rfl⟩
abbrev main_v1104 : Ref sig .tc := ⟨.hbm, 1258, rfl⟩
abbrev main_cst_137 : Ref sig .tc := ⟨.hbm, 1259, rfl⟩
abbrev main_v1105 : Ref sig .tc := ⟨.hbm, 1260, rfl⟩
abbrev main_v1106 : Ref sig .tc := ⟨.hbm, 1261, rfl⟩
abbrev main_cst_138 : Ref sig .tc := ⟨.hbm, 1262, rfl⟩
abbrev main_v1107 : Ref sig .tc := ⟨.hbm, 1263, rfl⟩
abbrev main_v1108 : Ref sig .tc := ⟨.hbm, 1264, rfl⟩
abbrev main_v1109 : Ref sig .tc := ⟨.hbm, 1265, rfl⟩
abbrev main_v1110 : Ref sig .tc := ⟨.hbm, 1266, rfl⟩
abbrev main_v1111 : Ref sig .tc := ⟨.hbm, 1267, rfl⟩
abbrev main_cst_139 : Ref sig .tc := ⟨.hbm, 1268, rfl⟩
abbrev main_v1112 : Ref sig .tc := ⟨.hbm, 1269, rfl⟩
abbrev main_v1113 : Ref sig .tc := ⟨.hbm, 1270, rfl⟩
abbrev main_cst_140 : Ref sig .tc := ⟨.hbm, 1271, rfl⟩
abbrev main_v1114 : Ref sig .tc := ⟨.hbm, 1272, rfl⟩
abbrev main_v1115 : Ref sig .tc := ⟨.hbm, 1273, rfl⟩
abbrev main_v1116 : Ref sig .tc := ⟨.hbm, 1274, rfl⟩
abbrev main_v1117 : Ref sig .tc := ⟨.hbm, 1275, rfl⟩
abbrev main_v1118 : Ref sig .tc := ⟨.hbm, 1276, rfl⟩
abbrev main_cst_141 : Ref sig .tc := ⟨.hbm, 1277, rfl⟩
abbrev main_v1119 : Ref sig .tc := ⟨.hbm, 1278, rfl⟩
abbrev main_v1120 : Ref sig .tc := ⟨.hbm, 1279, rfl⟩
abbrev main_v1121 : Ref sig .tc := ⟨.hbm, 1280, rfl⟩
abbrev main_v1122 : Ref sig .tc := ⟨.hbm, 1281, rfl⟩
abbrev main_v1123 : Ref sig .tc := ⟨.hbm, 1282, rfl⟩
abbrev main_v1124 : Ref sig .tc := ⟨.hbm, 1283, rfl⟩
abbrev main_v1125 : Ref sig .tc := ⟨.hbm, 1284, rfl⟩
abbrev main_v1126 : Ref sig .tc := ⟨.hbm, 1285, rfl⟩
abbrev main_v1127 : Ref sig .tc := ⟨.hbm, 1286, rfl⟩
abbrev main_v1128 : Ref sig .tc := ⟨.hbm, 1287, rfl⟩
abbrev main_v1129 : Ref sig .tc := ⟨.hbm, 1288, rfl⟩
abbrev main_v1130 : Ref sig .tc := ⟨.hbm, 1289, rfl⟩
abbrev main_v1131 : Ref sig .tc := ⟨.hbm, 1290, rfl⟩
abbrev main_v1132 : Ref sig .tc := ⟨.hbm, 1291, rfl⟩
abbrev main_v1133 : Ref sig .tc := ⟨.hbm, 1292, rfl⟩
abbrev main_v1134 : Ref sig .tc := ⟨.hbm, 1293, rfl⟩
abbrev main_v1135 : Ref sig .tc := ⟨.hbm, 1294, rfl⟩
abbrev main_v1136 : Ref sig .tc := ⟨.hbm, 1295, rfl⟩
abbrev main_v1137 : Ref sig .tc := ⟨.hbm, 1296, rfl⟩
abbrev main_v1138 : Ref sig .tc := ⟨.hbm, 1297, rfl⟩
abbrev main_v1139 : Ref sig .tc := ⟨.hbm, 1298, rfl⟩
abbrev main_v1140 : Ref sig .tc := ⟨.hbm, 1299, rfl⟩
abbrev main_v1141 : Ref sig .tc := ⟨.hbm, 1300, rfl⟩
abbrev main_v1142 : Ref sig .tc := ⟨.hbm, 1301, rfl⟩
abbrev main_cst_142 : Ref sig .tc := ⟨.hbm, 1302, rfl⟩
abbrev main_v1143 : Ref sig .tc := ⟨.hbm, 1303, rfl⟩
abbrev main_v1144 : Ref sig .tc := ⟨.hbm, 1304, rfl⟩
abbrev main_cst_143 : Ref sig .tc := ⟨.hbm, 1305, rfl⟩
abbrev main_v1145 : Ref sig .tc := ⟨.hbm, 1306, rfl⟩
abbrev main_v1146 : Ref sig .tc := ⟨.hbm, 1307, rfl⟩
abbrev main_v1147 : Ref sig .tc := ⟨.hbm, 1308, rfl⟩
abbrev main_v1148 : Ref sig .tc := ⟨.hbm, 1309, rfl⟩
abbrev main_v1149 : Ref sig .tc := ⟨.hbm, 1310, rfl⟩
abbrev main_cst_144 : Ref sig .tc := ⟨.hbm, 1311, rfl⟩
abbrev main_v1150 : Ref sig .tc := ⟨.hbm, 1312, rfl⟩
abbrev main_v1151 : Ref sig .tc := ⟨.hbm, 1313, rfl⟩
abbrev main_cst_145 : Ref sig .tc := ⟨.hbm, 1314, rfl⟩
abbrev main_v1152 : Ref sig .tc := ⟨.hbm, 1315, rfl⟩
abbrev main_v1153 : Ref sig .tc := ⟨.hbm, 1316, rfl⟩
abbrev main_v1154 : Ref sig .tc := ⟨.hbm, 1317, rfl⟩
abbrev main_v1155 : Ref sig .tc := ⟨.hbm, 1318, rfl⟩
abbrev main_v1156 : Ref sig .tc := ⟨.hbm, 1319, rfl⟩
abbrev main_cst_146 : Ref sig .tc := ⟨.hbm, 1320, rfl⟩
abbrev main_v1157 : Ref sig .tc := ⟨.hbm, 1321, rfl⟩
abbrev main_v1158 : Ref sig .tc := ⟨.hbm, 1322, rfl⟩
abbrev main_v1159 : Ref sig .tc := ⟨.hbm, 1323, rfl⟩
abbrev main_v1160 : Ref sig .tc := ⟨.hbm, 1324, rfl⟩
abbrev main_v1161 : Ref sig .tc := ⟨.hbm, 1325, rfl⟩
abbrev main_v1162 : Ref sig .tc := ⟨.hbm, 1326, rfl⟩
abbrev main_v1163 : Ref sig .tc := ⟨.hbm, 1327, rfl⟩
abbrev main_v1164 : Ref sig .tc := ⟨.hbm, 1328, rfl⟩
abbrev main_v1165 : Ref sig .tc := ⟨.hbm, 1329, rfl⟩
abbrev main_v1166 : Ref sig .tc := ⟨.hbm, 1330, rfl⟩
abbrev main_v1167 : Ref sig .tc := ⟨.hbm, 1331, rfl⟩
abbrev main_v1168 : Ref sig .tc := ⟨.hbm, 1332, rfl⟩
abbrev main_v1169 : Ref sig .tc := ⟨.hbm, 1333, rfl⟩
abbrev main_v1170 : Ref sig .tc := ⟨.hbm, 1334, rfl⟩
abbrev main_v1171 : Ref sig .tc := ⟨.hbm, 1335, rfl⟩
abbrev main_v1172 : Ref sig .tc := ⟨.hbm, 1336, rfl⟩
abbrev main_v1173 : Ref sig .tc := ⟨.hbm, 1337, rfl⟩
abbrev main_v1174 : Ref sig .tc := ⟨.hbm, 1338, rfl⟩
abbrev main_v1175 : Ref sig .tc := ⟨.hbm, 1339, rfl⟩
abbrev main_v1176 : Ref sig .tc := ⟨.hbm, 1340, rfl⟩
abbrev main_v1177 : Ref sig .tc := ⟨.hbm, 1341, rfl⟩
abbrev main_v1178 : Ref sig .tc := ⟨.hbm, 1342, rfl⟩
abbrev main_v1179 : Ref sig .tc := ⟨.hbm, 1343, rfl⟩
abbrev main_v1180 : Ref sig .tc := ⟨.hbm, 1344, rfl⟩
abbrev main_cst_147 : Ref sig .tc := ⟨.hbm, 1345, rfl⟩
abbrev main_v1181 : Ref sig .tc := ⟨.hbm, 1346, rfl⟩
abbrev main_v1182 : Ref sig .tc := ⟨.hbm, 1347, rfl⟩
abbrev main_cst_148 : Ref sig .tc := ⟨.hbm, 1348, rfl⟩
abbrev main_v1183 : Ref sig .tc := ⟨.hbm, 1349, rfl⟩
abbrev main_v1184 : Ref sig .tc := ⟨.hbm, 1350, rfl⟩
abbrev main_v1185 : Ref sig .tc := ⟨.hbm, 1351, rfl⟩
abbrev main_v1186 : Ref sig .tc := ⟨.hbm, 1352, rfl⟩
abbrev main_v1187 : Ref sig .tc := ⟨.hbm, 1353, rfl⟩
abbrev main_cst_149 : Ref sig .tc := ⟨.hbm, 1354, rfl⟩
abbrev main_v1188 : Ref sig .tc := ⟨.hbm, 1355, rfl⟩
abbrev main_v1189 : Ref sig .tc := ⟨.hbm, 1356, rfl⟩
abbrev main_cst_150 : Ref sig .tc := ⟨.hbm, 1357, rfl⟩
abbrev main_v1190 : Ref sig .tc := ⟨.hbm, 1358, rfl⟩
abbrev main_v1191 : Ref sig .tc := ⟨.hbm, 1359, rfl⟩
abbrev main_v1192 : Ref sig .tc := ⟨.hbm, 1360, rfl⟩
abbrev main_v1193 : Ref sig .tc := ⟨.hbm, 1361, rfl⟩
abbrev main_v1194 : Ref sig .tc := ⟨.hbm, 1362, rfl⟩
abbrev main_cst_151 : Ref sig .tc := ⟨.hbm, 1363, rfl⟩
abbrev main_v1195 : Ref sig .tc := ⟨.hbm, 1364, rfl⟩
abbrev main_v1196 : Ref sig .tc := ⟨.hbm, 1365, rfl⟩
abbrev main_v1197 : Ref sig .tc := ⟨.hbm, 1366, rfl⟩
abbrev main_v1198 : Ref sig .tc := ⟨.hbm, 1367, rfl⟩
abbrev main_v1199 : Ref sig .tc := ⟨.hbm, 1368, rfl⟩
abbrev main_v1200 : Ref sig .tc := ⟨.hbm, 1369, rfl⟩
abbrev main_v1201 : Ref sig .tc := ⟨.hbm, 1370, rfl⟩
abbrev main_v1202 : Ref sig .tc := ⟨.hbm, 1371, rfl⟩
abbrev main_v1203 : Ref sig .tc := ⟨.hbm, 1372, rfl⟩
abbrev main_v1204 : Ref sig .tc := ⟨.hbm, 1373, rfl⟩
abbrev main_v1205 : Ref sig .tc := ⟨.hbm, 1374, rfl⟩
abbrev main_v1206 : Ref sig .tc := ⟨.hbm, 1375, rfl⟩
abbrev main_v1207 : Ref sig .tc := ⟨.hbm, 1376, rfl⟩
abbrev main_v1208 : Ref sig .tc := ⟨.hbm, 1377, rfl⟩
abbrev main_v1209 : Ref sig .tc := ⟨.hbm, 1378, rfl⟩
abbrev main_v1210 : Ref sig .tc := ⟨.hbm, 1379, rfl⟩
abbrev main_v1211 : Ref sig .tc := ⟨.hbm, 1380, rfl⟩
abbrev main_v1212 : Ref sig .tc := ⟨.hbm, 1381, rfl⟩
abbrev main_v1213 : Ref sig .tc := ⟨.hbm, 1382, rfl⟩
abbrev main_v1214 : Ref sig .tc := ⟨.hbm, 1383, rfl⟩
abbrev main_v1215 : Ref sig .tc := ⟨.hbm, 1384, rfl⟩
abbrev main_v1216 : Ref sig .tc := ⟨.hbm, 1385, rfl⟩
abbrev main_v1217 : Ref sig .tc := ⟨.hbm, 1386, rfl⟩
abbrev main_v1218 : Ref sig .tc := ⟨.hbm, 1387, rfl⟩
abbrev main_v1219 : Ref sig .tc := ⟨.hbm, 1388, rfl⟩
abbrev main_v1220 : Ref sig .tc := ⟨.hbm, 1389, rfl⟩
abbrev main_v1221 : Ref sig .tc := ⟨.hbm, 1390, rfl⟩
abbrev main_v1222 : Ref sig .tc := ⟨.hbm, 1391, rfl⟩
abbrev main_v1223 : Ref sig .tc := ⟨.hbm, 1392, rfl⟩
abbrev main_v1224 : Ref sig .tc := ⟨.hbm, 1393, rfl⟩
abbrev main_cst_152 : Ref sig .tc := ⟨.hbm, 1394, rfl⟩
abbrev main_v1225 : Ref sig .tc := ⟨.hbm, 1395, rfl⟩
abbrev main_v1226 : Ref sig .tc := ⟨.hbm, 1396, rfl⟩
abbrev main_cst_153 : Ref sig .tc := ⟨.hbm, 1397, rfl⟩
abbrev main_v1227 : Ref sig .tc := ⟨.hbm, 1398, rfl⟩
abbrev main_v1228 : Ref sig .tc := ⟨.hbm, 1399, rfl⟩
abbrev main_v1229 : Ref sig .tc := ⟨.hbm, 1400, rfl⟩
abbrev main_v1230 : Ref sig .tc := ⟨.hbm, 1401, rfl⟩
abbrev main_v1231 : Ref sig .tc := ⟨.hbm, 1402, rfl⟩
abbrev main_cst_154 : Ref sig .tc := ⟨.hbm, 1403, rfl⟩
abbrev main_v1232 : Ref sig .tc := ⟨.hbm, 1404, rfl⟩
abbrev main_v1233 : Ref sig .tc := ⟨.hbm, 1405, rfl⟩
abbrev main_cst_155 : Ref sig .tc := ⟨.hbm, 1406, rfl⟩
abbrev main_v1234 : Ref sig .tc := ⟨.hbm, 1407, rfl⟩
abbrev main_v1235 : Ref sig .tc := ⟨.hbm, 1408, rfl⟩
abbrev main_v1236 : Ref sig .tc := ⟨.hbm, 1409, rfl⟩
abbrev main_v1237 : Ref sig .tc := ⟨.hbm, 1410, rfl⟩
abbrev main_v1238 : Ref sig .tc := ⟨.hbm, 1411, rfl⟩
abbrev main_cst_156 : Ref sig .tc := ⟨.hbm, 1412, rfl⟩
abbrev main_v1239 : Ref sig .tc := ⟨.hbm, 1413, rfl⟩
abbrev main_v1240 : Ref sig .tc := ⟨.hbm, 1414, rfl⟩
abbrev main_v1241 : Ref sig .tc := ⟨.hbm, 1415, rfl⟩
abbrev main_v1242 : Ref sig .tc := ⟨.hbm, 1416, rfl⟩
abbrev main_v1243 : Ref sig .tc := ⟨.hbm, 1417, rfl⟩
abbrev main_v1244 : Ref sig .tc := ⟨.hbm, 1418, rfl⟩
abbrev main_v1245 : Ref sig .tc := ⟨.hbm, 1419, rfl⟩
abbrev main_v1246 : Ref sig .tc := ⟨.hbm, 1420, rfl⟩
abbrev main_v1247 : Ref sig .tc := ⟨.hbm, 1421, rfl⟩
abbrev main_v1248 : Ref sig .tc := ⟨.hbm, 1422, rfl⟩
abbrev main_v1249 : Ref sig .tc := ⟨.hbm, 1423, rfl⟩
abbrev main_v1250 : Ref sig .tc := ⟨.hbm, 1424, rfl⟩
abbrev main_v1251 : Ref sig .tc := ⟨.hbm, 1425, rfl⟩
abbrev main_v1252 : Ref sig .tc := ⟨.hbm, 1426, rfl⟩
abbrev main_v1253 : Ref sig .tc := ⟨.hbm, 1427, rfl⟩
abbrev main_v1254 : Ref sig .tc := ⟨.hbm, 1428, rfl⟩
abbrev main_v1255 : Ref sig .tc := ⟨.hbm, 1429, rfl⟩
abbrev main_v1256 : Ref sig .tc := ⟨.hbm, 1430, rfl⟩
abbrev main_v1257 : Ref sig .tc := ⟨.hbm, 1431, rfl⟩
abbrev main_v1258 : Ref sig .tc := ⟨.hbm, 1432, rfl⟩
abbrev main_v1259 : Ref sig .tc := ⟨.hbm, 1433, rfl⟩
abbrev main_v1260 : Ref sig .tc := ⟨.hbm, 1434, rfl⟩
abbrev main_v1261 : Ref sig .tc := ⟨.hbm, 1435, rfl⟩
abbrev main_v1262 : Ref sig .tc := ⟨.hbm, 1436, rfl⟩
abbrev main_cst_157 : Ref sig .tc := ⟨.hbm, 1437, rfl⟩
abbrev main_v1263 : Ref sig .tc := ⟨.hbm, 1438, rfl⟩
abbrev main_v1264 : Ref sig .tc := ⟨.hbm, 1439, rfl⟩
abbrev main_cst_158 : Ref sig .tc := ⟨.hbm, 1440, rfl⟩
abbrev main_v1265 : Ref sig .tc := ⟨.hbm, 1441, rfl⟩
abbrev main_v1266 : Ref sig .tc := ⟨.hbm, 1442, rfl⟩
abbrev main_v1267 : Ref sig .tc := ⟨.hbm, 1443, rfl⟩
abbrev main_v1268 : Ref sig .tc := ⟨.hbm, 1444, rfl⟩
abbrev main_v1269 : Ref sig .tc := ⟨.hbm, 1445, rfl⟩
abbrev main_cst_159 : Ref sig .tc := ⟨.hbm, 1446, rfl⟩
abbrev main_v1270 : Ref sig .tc := ⟨.hbm, 1447, rfl⟩
abbrev main_v1271 : Ref sig .tc := ⟨.hbm, 1448, rfl⟩
abbrev main_cst_160 : Ref sig .tc := ⟨.hbm, 1449, rfl⟩
abbrev main_v1272 : Ref sig .tc := ⟨.hbm, 1450, rfl⟩
abbrev main_v1273 : Ref sig .tc := ⟨.hbm, 1451, rfl⟩
abbrev main_v1274 : Ref sig .tc := ⟨.hbm, 1452, rfl⟩
abbrev main_v1275 : Ref sig .tc := ⟨.hbm, 1453, rfl⟩
abbrev main_v1276 : Ref sig .tc := ⟨.hbm, 1454, rfl⟩
abbrev main_cst_161 : Ref sig .tc := ⟨.hbm, 1455, rfl⟩
abbrev main_v1277 : Ref sig .tc := ⟨.hbm, 1456, rfl⟩
abbrev main_v1278 : Ref sig .tc := ⟨.hbm, 1457, rfl⟩
abbrev main_v1279 : Ref sig .tc := ⟨.hbm, 1458, rfl⟩
abbrev main_v1280 : Ref sig .tc := ⟨.hbm, 1459, rfl⟩
abbrev main_v1281 : Ref sig .tc := ⟨.hbm, 1460, rfl⟩
abbrev main_v1282 : Ref sig .tc := ⟨.hbm, 1461, rfl⟩
abbrev main_v1283 : Ref sig .tc := ⟨.hbm, 1462, rfl⟩
abbrev main_v1284 : Ref sig .tc := ⟨.hbm, 1463, rfl⟩
abbrev main_v1285 : Ref sig .tc := ⟨.hbm, 1464, rfl⟩
abbrev main_v1286 : Ref sig .tc := ⟨.hbm, 1465, rfl⟩
abbrev main_v1287 : Ref sig .tc := ⟨.hbm, 1466, rfl⟩
abbrev main_v1288 : Ref sig .tc := ⟨.hbm, 1467, rfl⟩
abbrev main_v1289 : Ref sig .tc := ⟨.hbm, 1468, rfl⟩
abbrev main_v1290 : Ref sig .tc := ⟨.hbm, 1469, rfl⟩
abbrev main_v1291 : Ref sig .tc := ⟨.hbm, 1470, rfl⟩
abbrev main_v1292 : Ref sig .tc := ⟨.hbm, 1471, rfl⟩
abbrev main_v1293 : Ref sig .tc := ⟨.hbm, 1472, rfl⟩
abbrev main_v1294 : Ref sig .tc := ⟨.hbm, 1473, rfl⟩
abbrev main_v1295 : Ref sig .tc := ⟨.hbm, 1474, rfl⟩
abbrev main_v1296 : Ref sig .tc := ⟨.hbm, 1475, rfl⟩
abbrev main_v1297 : Ref sig .tc := ⟨.hbm, 1476, rfl⟩
abbrev main_v1298 : Ref sig .tc := ⟨.hbm, 1477, rfl⟩
abbrev main_v1299 : Ref sig .tc := ⟨.hbm, 1478, rfl⟩
abbrev main_v1300 : Ref sig .tc := ⟨.hbm, 1479, rfl⟩
abbrev main_cst_162 : Ref sig .tc := ⟨.hbm, 1480, rfl⟩
abbrev main_v1301 : Ref sig .tc := ⟨.hbm, 1481, rfl⟩
abbrev main_v1302 : Ref sig .tc := ⟨.hbm, 1482, rfl⟩
abbrev main_cst_163 : Ref sig .tc := ⟨.hbm, 1483, rfl⟩
abbrev main_v1303 : Ref sig .tc := ⟨.hbm, 1484, rfl⟩
abbrev main_v1304 : Ref sig .tc := ⟨.hbm, 1485, rfl⟩
abbrev main_v1305 : Ref sig .tc := ⟨.hbm, 1486, rfl⟩
abbrev main_v1306 : Ref sig .tc := ⟨.hbm, 1487, rfl⟩
abbrev main_v1307 : Ref sig .tc := ⟨.hbm, 1488, rfl⟩
abbrev main_cst_164 : Ref sig .tc := ⟨.hbm, 1489, rfl⟩
abbrev main_v1308 : Ref sig .tc := ⟨.hbm, 1490, rfl⟩
abbrev main_v1309 : Ref sig .tc := ⟨.hbm, 1491, rfl⟩
abbrev main_cst_165 : Ref sig .tc := ⟨.hbm, 1492, rfl⟩
abbrev main_v1310 : Ref sig .tc := ⟨.hbm, 1493, rfl⟩
abbrev main_v1311 : Ref sig .tc := ⟨.hbm, 1494, rfl⟩
abbrev main_v1312 : Ref sig .tc := ⟨.hbm, 1495, rfl⟩
abbrev main_v1313 : Ref sig .tc := ⟨.hbm, 1496, rfl⟩
abbrev main_v1314 : Ref sig .tc := ⟨.hbm, 1497, rfl⟩
abbrev main_cst_166 : Ref sig .tc := ⟨.hbm, 1498, rfl⟩
abbrev main_v1315 : Ref sig .tc := ⟨.hbm, 1499, rfl⟩
abbrev main_v1316 : Ref sig .tc := ⟨.hbm, 1500, rfl⟩
abbrev main_v1317 : Ref sig .tc := ⟨.hbm, 1501, rfl⟩
abbrev main_v1318 : Ref sig .tc := ⟨.hbm, 1502, rfl⟩
abbrev main_v1319 : Ref sig .tc := ⟨.hbm, 1503, rfl⟩
abbrev main_v1320 : Ref sig .tc := ⟨.hbm, 1504, rfl⟩
abbrev main_v1321 : Ref sig .tc := ⟨.hbm, 1505, rfl⟩
abbrev main_v1322 : Ref sig .tc := ⟨.hbm, 1506, rfl⟩
abbrev main_v1323 : Ref sig .tc := ⟨.hbm, 1507, rfl⟩
abbrev main_v1324 : Ref sig .tc := ⟨.hbm, 1508, rfl⟩
abbrev main_v1325 : Ref sig .tc := ⟨.hbm, 1509, rfl⟩
abbrev main_v1326 : Ref sig .tc := ⟨.hbm, 1510, rfl⟩
abbrev main_v1327 : Ref sig .tc := ⟨.hbm, 1511, rfl⟩
abbrev main_v1328 : Ref sig .tc := ⟨.hbm, 1512, rfl⟩
abbrev main_v1329 : Ref sig .tc := ⟨.hbm, 1513, rfl⟩
abbrev main_v1330 : Ref sig .tc := ⟨.hbm, 1514, rfl⟩
abbrev main_v1331 : Ref sig .tc := ⟨.hbm, 1515, rfl⟩
abbrev main_v1332 : Ref sig .tc := ⟨.hbm, 1516, rfl⟩
abbrev main_v1333 : Ref sig .tc := ⟨.hbm, 1517, rfl⟩
abbrev main_v1334 : Ref sig .tc := ⟨.hbm, 1518, rfl⟩
abbrev main_v1335 : Ref sig .tc := ⟨.hbm, 1519, rfl⟩
abbrev main_v1336 : Ref sig .tc := ⟨.hbm, 1520, rfl⟩
abbrev main_v1337 : Ref sig .tc := ⟨.hbm, 1521, rfl⟩
abbrev main_v1338 : Ref sig .tc := ⟨.hbm, 1522, rfl⟩
abbrev main_v1339 : Ref sig .tc := ⟨.hbm, 1523, rfl⟩
abbrev main_v1340 : Ref sig .tc := ⟨.hbm, 1524, rfl⟩
abbrev main_v1341 : Ref sig .tc := ⟨.hbm, 1525, rfl⟩
abbrev main_v1342 : Ref sig .tc := ⟨.hbm, 1526, rfl⟩
abbrev main_v1343 : Ref sig .tc := ⟨.hbm, 1527, rfl⟩
abbrev main_v1344 : Ref sig .tc := ⟨.hbm, 1528, rfl⟩
abbrev main_cst_167 : Ref sig .tc := ⟨.hbm, 1529, rfl⟩
abbrev main_v1345 : Ref sig .tc := ⟨.hbm, 1530, rfl⟩
abbrev main_v1346 : Ref sig .tc := ⟨.hbm, 1531, rfl⟩
abbrev main_cst_168 : Ref sig .tc := ⟨.hbm, 1532, rfl⟩
abbrev main_v1347 : Ref sig .tc := ⟨.hbm, 1533, rfl⟩
abbrev main_v1348 : Ref sig .tc := ⟨.hbm, 1534, rfl⟩
abbrev main_v1349 : Ref sig .tc := ⟨.hbm, 1535, rfl⟩
abbrev main_v1350 : Ref sig .tc := ⟨.hbm, 1536, rfl⟩
abbrev main_v1351 : Ref sig .tc := ⟨.hbm, 1537, rfl⟩
abbrev main_cst_169 : Ref sig .tc := ⟨.hbm, 1538, rfl⟩
abbrev main_v1352 : Ref sig .tc := ⟨.hbm, 1539, rfl⟩
abbrev main_v1353 : Ref sig .tc := ⟨.hbm, 1540, rfl⟩
abbrev main_cst_170 : Ref sig .tc := ⟨.hbm, 1541, rfl⟩
abbrev main_v1354 : Ref sig .tc := ⟨.hbm, 1542, rfl⟩
abbrev main_v1355 : Ref sig .tc := ⟨.hbm, 1543, rfl⟩
abbrev main_v1356 : Ref sig .tc := ⟨.hbm, 1544, rfl⟩
abbrev main_v1357 : Ref sig .tc := ⟨.hbm, 1545, rfl⟩
abbrev main_v1358 : Ref sig .tc := ⟨.hbm, 1546, rfl⟩
abbrev main_cst_171 : Ref sig .tc := ⟨.hbm, 1547, rfl⟩
abbrev main_v1359 : Ref sig .tc := ⟨.hbm, 1548, rfl⟩
abbrev main_v1360 : Ref sig .tc := ⟨.hbm, 1549, rfl⟩
abbrev main_v1361 : Ref sig .tc := ⟨.hbm, 1550, rfl⟩
abbrev main_v1362 : Ref sig .tc := ⟨.hbm, 1551, rfl⟩
abbrev main_v1363 : Ref sig .tc := ⟨.hbm, 1552, rfl⟩
abbrev main_v1364 : Ref sig .tc := ⟨.hbm, 1553, rfl⟩
abbrev main_v1365 : Ref sig .tc := ⟨.hbm, 1554, rfl⟩
abbrev main_v1366 : Ref sig .tc := ⟨.hbm, 1555, rfl⟩
abbrev main_v1367 : Ref sig .tc := ⟨.hbm, 1556, rfl⟩
abbrev main_v1368 : Ref sig .tc := ⟨.hbm, 1557, rfl⟩
abbrev main_v1369 : Ref sig .tc := ⟨.hbm, 1558, rfl⟩
abbrev main_v1370 : Ref sig .tc := ⟨.hbm, 1559, rfl⟩
abbrev main_v1371 : Ref sig .tc := ⟨.hbm, 1560, rfl⟩
abbrev main_v1372 : Ref sig .tc := ⟨.hbm, 1561, rfl⟩
abbrev main_v1373 : Ref sig .tc := ⟨.hbm, 1562, rfl⟩
abbrev main_v1374 : Ref sig .tc := ⟨.hbm, 1563, rfl⟩
abbrev main_v1375 : Ref sig .tc := ⟨.hbm, 1564, rfl⟩
abbrev main_v1376 : Ref sig .tc := ⟨.hbm, 1565, rfl⟩
abbrev main_v1377 : Ref sig .tc := ⟨.hbm, 1566, rfl⟩
abbrev main_v1378 : Ref sig .tc := ⟨.hbm, 1567, rfl⟩
abbrev main_v1379 : Ref sig .tc := ⟨.hbm, 1568, rfl⟩
abbrev main_v1380 : Ref sig .tc := ⟨.hbm, 1569, rfl⟩
abbrev main_v1381 : Ref sig .tc := ⟨.hbm, 1570, rfl⟩
abbrev main_v1382 : Ref sig .tc := ⟨.hbm, 1571, rfl⟩
abbrev main_cst_172 : Ref sig .tc := ⟨.hbm, 1572, rfl⟩
abbrev main_v1383 : Ref sig .tc := ⟨.hbm, 1573, rfl⟩
abbrev main_v1384 : Ref sig .tc := ⟨.hbm, 1574, rfl⟩
abbrev main_cst_173 : Ref sig .tc := ⟨.hbm, 1575, rfl⟩
abbrev main_v1385 : Ref sig .tc := ⟨.hbm, 1576, rfl⟩
abbrev main_v1386 : Ref sig .tc := ⟨.hbm, 1577, rfl⟩
abbrev main_v1387 : Ref sig .tc := ⟨.hbm, 1578, rfl⟩
abbrev main_v1388 : Ref sig .tc := ⟨.hbm, 1579, rfl⟩
abbrev main_v1389 : Ref sig .tc := ⟨.hbm, 1580, rfl⟩
abbrev main_cst_174 : Ref sig .tc := ⟨.hbm, 1581, rfl⟩
abbrev main_v1390 : Ref sig .tc := ⟨.hbm, 1582, rfl⟩
abbrev main_v1391 : Ref sig .tc := ⟨.hbm, 1583, rfl⟩
abbrev main_cst_175 : Ref sig .tc := ⟨.hbm, 1584, rfl⟩
abbrev main_v1392 : Ref sig .tc := ⟨.hbm, 1585, rfl⟩
abbrev main_v1393 : Ref sig .tc := ⟨.hbm, 1586, rfl⟩
abbrev main_v1394 : Ref sig .tc := ⟨.hbm, 1587, rfl⟩
abbrev main_v1395 : Ref sig .tc := ⟨.hbm, 1588, rfl⟩
abbrev main_v1396 : Ref sig .tc := ⟨.hbm, 1589, rfl⟩
abbrev main_cst_176 : Ref sig .tc := ⟨.hbm, 1590, rfl⟩
abbrev main_v1397 : Ref sig .tc := ⟨.hbm, 1591, rfl⟩
abbrev main_v1398 : Ref sig .tc := ⟨.hbm, 1592, rfl⟩
abbrev main_v1399 : Ref sig .tc := ⟨.hbm, 1593, rfl⟩
abbrev main_v1400 : Ref sig .tc := ⟨.hbm, 1594, rfl⟩
abbrev main_v1401 : Ref sig .tc := ⟨.hbm, 1595, rfl⟩
abbrev main_v1402 : Ref sig .tc := ⟨.hbm, 1596, rfl⟩
abbrev main_v1403 : Ref sig .tc := ⟨.hbm, 1597, rfl⟩
abbrev main_v1404 : Ref sig .tc := ⟨.hbm, 1598, rfl⟩
abbrev main_v1405 : Ref sig .tc := ⟨.hbm, 1599, rfl⟩
abbrev main_v1406 : Ref sig .tc := ⟨.hbm, 1600, rfl⟩
abbrev main_v1407 : Ref sig .tc := ⟨.hbm, 1601, rfl⟩
abbrev main_v1408 : Ref sig .tc := ⟨.hbm, 1602, rfl⟩
abbrev main_v1409 : Ref sig .tc := ⟨.hbm, 1603, rfl⟩
abbrev main_v1410 : Ref sig .tc := ⟨.hbm, 1604, rfl⟩
abbrev main_v1411 : Ref sig .tc := ⟨.hbm, 1605, rfl⟩
abbrev main_v1412 : Ref sig .tc := ⟨.hbm, 1606, rfl⟩
abbrev main_v1413 : Ref sig .tc := ⟨.hbm, 1607, rfl⟩
abbrev main_v1414 : Ref sig .tc := ⟨.hbm, 1608, rfl⟩
abbrev main_v1415 : Ref sig .tc := ⟨.hbm, 1609, rfl⟩
abbrev main_v1416 : Ref sig .tc := ⟨.hbm, 1610, rfl⟩
abbrev main_v1417 : Ref sig .tc := ⟨.hbm, 1611, rfl⟩
abbrev main_v1418 : Ref sig .tc := ⟨.hbm, 1612, rfl⟩
abbrev main_v1419 : Ref sig .tc := ⟨.hbm, 1613, rfl⟩
abbrev main_v1420 : Ref sig .tc := ⟨.hbm, 1614, rfl⟩
abbrev main_cst_177 : Ref sig .tc := ⟨.hbm, 1615, rfl⟩
abbrev main_v1421 : Ref sig .tc := ⟨.hbm, 1616, rfl⟩
abbrev main_v1422 : Ref sig .tc := ⟨.hbm, 1617, rfl⟩
abbrev main_cst_178 : Ref sig .tc := ⟨.hbm, 1618, rfl⟩
abbrev main_v1423 : Ref sig .tc := ⟨.hbm, 1619, rfl⟩
abbrev main_v1424 : Ref sig .tc := ⟨.hbm, 1620, rfl⟩
abbrev main_v1425 : Ref sig .tc := ⟨.hbm, 1621, rfl⟩
abbrev main_v1426 : Ref sig .tc := ⟨.hbm, 1622, rfl⟩
abbrev main_v1427 : Ref sig .tc := ⟨.hbm, 1623, rfl⟩
abbrev main_cst_179 : Ref sig .tc := ⟨.hbm, 1624, rfl⟩
abbrev main_v1428 : Ref sig .tc := ⟨.hbm, 1625, rfl⟩
abbrev main_v1429 : Ref sig .tc := ⟨.hbm, 1626, rfl⟩
abbrev main_cst_180 : Ref sig .tc := ⟨.hbm, 1627, rfl⟩
abbrev main_v1430 : Ref sig .tc := ⟨.hbm, 1628, rfl⟩
abbrev main_v1431 : Ref sig .tc := ⟨.hbm, 1629, rfl⟩
abbrev main_v1432 : Ref sig .tc := ⟨.hbm, 1630, rfl⟩
abbrev main_v1433 : Ref sig .tc := ⟨.hbm, 1631, rfl⟩
abbrev main_v1434 : Ref sig .tc := ⟨.hbm, 1632, rfl⟩
abbrev main_cst_181 : Ref sig .tc := ⟨.hbm, 1633, rfl⟩
abbrev main_v1435 : Ref sig .tc := ⟨.hbm, 1634, rfl⟩
abbrev main_v1436 : Ref sig .tc := ⟨.hbm, 1635, rfl⟩
abbrev main_v1437 : Ref sig .tc := ⟨.hbm, 1636, rfl⟩
abbrev main_v1438 : Ref sig .tc := ⟨.hbm, 1637, rfl⟩
abbrev main_v1439 : Ref sig .tc := ⟨.hbm, 1638, rfl⟩
abbrev main_v1440 : Ref sig .tc := ⟨.hbm, 1639, rfl⟩
abbrev main_v1441 : Ref sig .tc := ⟨.hbm, 1640, rfl⟩
abbrev main_v1442 : Ref sig .tc := ⟨.hbm, 1641, rfl⟩
abbrev main_v1443 : Ref sig .tc := ⟨.hbm, 1642, rfl⟩
abbrev main_v1444 : Ref sig .tc := ⟨.hbm, 1643, rfl⟩
abbrev main_v1445 : Ref sig .tc := ⟨.hbm, 1644, rfl⟩
abbrev main_v1446 : Ref sig .tc := ⟨.hbm, 1645, rfl⟩
abbrev main_v1447 : Ref sig .tc := ⟨.hbm, 1646, rfl⟩
abbrev main_v1448 : Ref sig .tc := ⟨.hbm, 1647, rfl⟩
abbrev main_v1449 : Ref sig .tc := ⟨.hbm, 1648, rfl⟩
abbrev main_v1450 : Ref sig .tc := ⟨.hbm, 1649, rfl⟩
abbrev main_v1451 : Ref sig .tc := ⟨.hbm, 1650, rfl⟩
abbrev main_v1452 : Ref sig .tc := ⟨.hbm, 1651, rfl⟩
abbrev main_v1453 : Ref sig .tc := ⟨.hbm, 1652, rfl⟩
abbrev main_v1454 : Ref sig .tc := ⟨.hbm, 1653, rfl⟩
abbrev main_v1455 : Ref sig .tc := ⟨.hbm, 1654, rfl⟩
abbrev main_v1456 : Ref sig .tc := ⟨.hbm, 1655, rfl⟩
abbrev main_v1457 : Ref sig .tc := ⟨.hbm, 1656, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  slices_S8x8192x2_S1x8192x2_7_0_0 : S8x8192x2.Slices ![7, 0, 0] S1x8192x2
  shapeCasts_S1x8192x2_S8192x2 : S1x8192x2.ShapeCasts S8192x2
  concatenates_S8192x512_S8192x2_S8192x514_d1 : Shape.Concatenates [S8192x512, S8192x2] S8192x514 1
  transposes_S768x514_S514x768_1_0 : S768x514.Transposes [1, 0] S514x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  transposes_S768x256_S256x768_1_0 : S768x256.Transposes [1, 0] S256x768
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  transposes_S2x256_S256x2_1_0 : S2x256.Transposes [1, 0] S256x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S8192x2_S1x8192x2_1_2 : S8192x2.BroadcastsInDim S1x8192x2 (![1, 2] : Fin 2 → Fin S1x8192x2.rank)
  concatenates_S1x8192x2_S1x8192x2_S1x8192x2_S1x8192x2_S1x8192x2_S1x8192x2_S1x8192x2_S1x8192x2_S1x8192x2_S1x8192x2_S1x8192x2_S1x8192x2_S12x8192x2_d0 : Shape.Concatenates [S1x8192x2, S1x8192x2, S1x8192x2, S1x8192x2, S1x8192x2, S1x8192x2, S1x8192x2, S1x8192x2, S1x8192x2, S1x8192x2, S1x8192x2, S1x8192x2] S12x8192x2 0
  dot_S8192x514_S514x768_S8192x768_1_0_0_1_n_n_wf : DotDims.WF S8192x514 S514x768 S8192x768 [1] [0] [0] [1] [] []
  dot_S8192x256_S256x768_S8192x768_1_0_0_1_n_n_wf : DotDims.WF S8192x256 S256x768 S8192x768 [1] [0] [0] [1] [] []
  dot_S8192x256_S256x2_S8192x2_1_0_0_1_n_n_wf : DotDims.WF S8192x256 S256x2 S8192x2 [1] [0] [0] [1] [] []

variable [Facts₀]

def dot_S8192x514_S514x768_S8192x768_1_0_0_1_n_n : DotDims S8192x514 S514x768 S8192x768 where
  lhsContracting := [1]
  rhsContracting := [0]
  lhsNonContracting := [0]
  rhsNonContracting := [1]
  lhsBatch := []
  rhsBatch := []
  wf := dot_S8192x514_S514x768_S8192x768_1_0_0_1_n_n_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf

class Facts : Prop extends Facts₀ where

variable [Facts]
-- ==== Proof.Cells.lean ====
/-
  One time step of the three-layer gated recurrent stack with its output layer, written twice.

  `Tile`: on a tile of 1024 batch rows, with the tile program's operations — operands narrowed to bf16, matrix products
  accumulated into the zero matrix, the bias a row reshaped and broadcast over the tile, the logistic function one
  operation; the hidden states pass through the shape-preserving casts with which the program stores them.
  `Batch`: on all 8192 rows, with the host's operations — general dot products with the weight matrices transposed in
  place, the bias broadcast twice, the logistic function spelt 1 / (1 + exp (−x)).

  A cell with input `x`, state `h`, weights `W`, `U` and biases `b`, `d` computes, with gi = x·W + b and
  gh = h·U + d cut into three column blocks (r, z, n):
    r = σ(gi_r + gh_r),  z = σ(gi_z + gh_z),  n = tanh(gi_n + r ∘ gh_n),  h' = (1 − z) ∘ n + z ∘ h.
  A step feeds [context, position] through the three cells and maps the last state to the next position.
-/
import proofs.«104547_j59072980189901_1_alg».proof.Proof.Gen.KernelIdeal
import proofs.«104547_j59072980189901_1_alg».proof.Proof.Gen.ReferenceIdeal

noncomputable section

namespace Cert.Gru

open Idealize.ShloMosaic

variable {F : FTy → Type} [FloatOps F]

namespace Tile

open Cert.KernelIdeal Cert.KernelIdeal.Facts₀

/-- A bias vector as a row, repeated over the tile's rows. -/
def bias (b : Vec F S768 .f32) : FVec F S1024x768 .f32 :=
  broadcastTo S1024x768 (shapeCast S1x768 b shapeCasts_S768_S1x768) broadcasts_S1x768_S1024x768

/-- The gates of a cell from its two pre-activations `gi`, `gh` and the old state. -/
def gates (gi gh : FVec F S1024x768 .f32) (h : Vec F S1024x256 .f32) : FVec F S1024x256 .f32 :=
  addf
    (mulf
      (subf (broadcast S1024x256 (Scalar.ofBits .f32 0x3F800000#32))
        (logistic (addf (extractStridedSlice S1024x256 ![0, 256] gi slices_S1024x768_o0_256_S1024x256)
          (extractStridedSlice S1024x256 ![0, 256] gh slices_S1024x768_o0_256_S1024x256))))
      (tanh (addf (extractStridedSlice S1024x256 ![0, 512] gi slices_S1024x768_o0_512_S1024x256)
        (mulf
          (logistic (addf (extractStridedSlice S1024x256 ![0, 0] gi slices_S1024x768_o0_0_S1024x256)
            (extractStridedSlice S1024x256 ![0, 0] gh slices_S1024x768_o0_0_S1024x256)))
          (extractStridedSlice S1024x256 ![0, 512] gh slices_S1024x768_o0_512_S1024x256)))))
    (mulf
      (logistic (addf (extractStridedSlice S1024x256 ![0, 256] gi slices_S1024x768_o0_256_S1024x256)
        (extractStridedSlice S1024x256 ![0, 256] gh slices_S1024x768_o0_256_S1024x256)))
      h)

/-- The hidden pre-activation `h·U + d`. -/
def hidden (h : Vec F S1024x256 .f32) (u : FVec F S256x768 .bf16) (d : Vec F S768 .f32) : FVec F S1024x768 .f32 :=
  addf (matmul dot_S1024x256_S256x768_S1024x768_1_0_0_1_n_n none (truncf .bf16 h bitsLt_bf16_f32) u
    (constant S1024x768 .f32 0x00000000#32)) (bias d)

/-- The first layer's cell: its input is the 514 columns [context, position]. -/
def cell0 (x : FVec F S1024x514 .f32) (h : Vec F S1024x256 .f32) (w : FVec F S514x768 .bf16) (u : FVec F S256x768 .bf16)
    (b d : Vec F S768 .f32) : FVec F S1024x256 .f32 :=
  gates (addf (matmul dot_S1024x514_S514x768_S1024x768_1_0_0_1_n_n none (truncf .bf16 x bitsLt_bf16_f32) w
    (constant S1024x768 .f32 0x00000000#32)) (bias b)) (hidden h u d) h

/-- A later layer's cell: its input is the state of the layer below. -/
def cell (x : FVec F S1024x256 .f32) (h : Vec F S1024x256 .f32) (w u : FVec F S256x768 .bf16)
    (b d : Vec F S768 .f32) : FVec F S1024x256 .f32 :=
  gates (addf (matmul dot_S1024x256_S256x768_S1024x768_1_0_0_1_n_n none (truncf .bf16 x bitsLt_bf16_f32) w
    (constant S1024x768 .f32 0x00000000#32)) (bias b)) (hidden h u d) h

/-- The output layer: the next position from the top state. -/
def out (x : FVec F S1024x256 .f32) (w : FVec F S256x2 .bf16) (b : Vec F S2 .f32) : FVec F S1024x2 .f32 :=
  addf (matmul dot_S1024x256_S256x2_S1024x2_1_0_0_1_n_n none (truncf .bf16 x bitsLt_bf16_f32) w
    (constant S1024x2 .f32 0x00000000#32))
    (broadcastTo S1024x2 (shapeCast S1x2 b shapeCasts_S2_S1x2) broadcasts_S1x2_S1024x2)

/-- The weights of the stack as the tile program holds them. -/
structure Weights (F : FTy → Type) where
  w0 : FVec F S514x768 .bf16
  u0 : FVec F S256x768 .bf16
  b0 : Vec F S768 .f32
  d0 : Vec F S768 .f32
  w1 : FVec F S256x768 .bf16
  u1 : FVec F S256x768 .bf16
  b1 : Vec F S768 .f32
  d1 : Vec F S768 .f32
  w2 : FVec F S256x768 .bf16
  u2 : FVec F S256x768 .bf16
  b2 : Vec F S768 .f32
  d2 : Vec F S768 .f32
  wo : FVec F S256x2 .bf16
  bo : Vec F S2 .f32

/-- The three hidden states (as stored) and the current position. -/
structure State (F : FTy → Type) where
  h0 : FVec F S1024x256 .f32
  h1 : FVec F S1024x256 .f32
  h2 : FVec F S1024x256 .f32
  pos : FVec F S1024x2 .f32

/-- One time step on the tile. -/
def step (W : Weights F) (ctx : Vec F S1024x512 .f32) (s : State F) : State F :=
  let a0 := cell0 (concatenate S1024x514 1 [⟨S1024x512, ctx⟩, ⟨S1024x2, s.pos⟩] concatenates_S1024x512_S1024x2_S1024x514_d1)
    s.h0 W.w0 W.u0 W.b0 W.d0
  let a1 := cell a0 s.h1 W.w1 W.u1 W.b1 W.d1
  let a2 := cell a1 s.h2 W.w2 W.u2 W.b2 W.d2
  { h0 := shapeCast S1024x256 a0 shapeCasts_S1024x256_S1024x256
    h1 := shapeCast S1024x256 a1 shapeCasts_S1024x256_S1024x256
    h2 := shapeCast S1024x256 a2 shapeCasts_S1024x256_S1024x256
    pos := out a2 W.wo W.bo }

/-- The state before the first step: zero hidden states (as the program stores them) and the last observed position. -/
def init (pos : FVec F S1024x2 .f32) : State F :=
  { h0 := shapeCast S1024x256 (broadcast S1024x256 (Scalar.ofBits .f32 0x00000000#32)) shapeCasts_S1024x256_S1024x256
    h1 := shapeCast S1024x256 (broadcast S1024x256 (Scalar.ofBits .f32 0x00000000#32)) shapeCasts_S1024x256_S1024x256
    h2 := shapeCast S1024x256 (broadcast S1024x256 (Scalar.ofBits .f32 0x00000000#32)) shapeCasts_S1024x256_S1024x256
    pos := pos }

/-- The state after `k` steps. -/
def after (W : Weights F) (ctx : Vec F S1024x512 .f32) (pos : FVec F S1024x2 .f32) : ℕ → State F
  | 0 => init pos
  | k + 1 => step W ctx (after W ctx pos k)

end Tile

namespace Batch

open Cert.ReferenceIdeal Cert.ReferenceIdeal.Facts₀

/-- A bias vector as a row, repeated over all rows. -/
def bias (b : FVec F S768 .f32) : FVec F S8192x768 .f32 :=
  broadcastInDim S8192x768 ![0, 1] bcast_S1x768_S8192x768_0_1 (broadcastInDim S1x768 ![1] bcast_S768_S1x768_1 b)

/-- The matrix of ones. -/
def ones : FVec F S8192x256 .f32 := broadcastInDim S8192x256 ![] bcast_S_S8192x256 (constant S_ .f32 0x3F800000#32)

/-- The logistic function as the host spells it. -/
def sigm (x : FVec F S8192x256 .f32) : FVec F S8192x256 .f32 := Host.divf ones (addf ones (Host.exp (Host.negf x)))

/-- The gates of a cell from its two pre-activations and the old state. -/
def gates (gi gh : FVec F S8192x768 .f32) (h : FVec F S8192x256 .f32) : FVec F S8192x256 .f32 :=
  addf
    (mulf
      (subf ones
        (sigm (addf (extractStridedSlice S8192x256 ![0, 256] gi slices_S8192x768_S8192x256_0_256)
          (extractStridedSlice S8192x256 ![0, 256] gh slices_S8192x768_S8192x256_0_256))))
      (Host.tanh (addf (extractStridedSlice S8192x256 ![0, 512] gi slices_S8192x768_S8192x256_0_512)
        (mulf
          (sigm (addf (extractStridedSlice S8192x256 ![0, 0] gi slices_S8192x768_S8192x256_0_0)
            (extractStridedSlice S8192x256 ![0, 0] gh slices_S8192x768_S8192x256_0_0)))
          (extractStridedSlice S8192x256 ![0, 512] gh slices_S8192x768_S8192x256_0_512)))))
    (mulf
      (sigm (addf (extractStridedSlice S8192x256 ![0, 256] gi slices_S8192x768_S8192x256_0_256)
        (extractStridedSlice S8192x256 ![0, 256] gh slices_S8192x768_S8192x256_0_256)))
      h)

/-- The hidden pre-activation `h·Uᵀ + d`. -/
def hidden (h : FVec F S8192x256 .f32) (u : FVec F S768x256 .f32) (d : FVec F S768 .f32) : FVec F S8192x768 .f32 :=
  addf (Host.dotGeneral dot_S8192x256_S256x768_S8192x768_1_0_0_1_n_n none h
    (transpose S256x768 [1, 0] u transposes_S768x256_S256x768_1_0)) (bias d)

/-- The first layer's cell. -/
def cell0 (x : FVec F S8192x514 .f32) (h : FVec F S8192x256 .f32) (w : FVec F S768x514 .f32) (u : FVec F S768x256 .f32)
    (b d : FVec F S768 .f32) : FVec F S8192x256 .f32 :=
  gates (addf (Host.dotGeneral dot_S8192x514_S514x768_S8192x768_1_0_0_1_n_n none x
    (transpose S514x768 [1, 0] w transposes_S768x514_S514x768_1_0)) (bias b)) (hidden h u d) h

/-- A later layer's cell. -/
def cell (x : FVec F S8192x256 .f32) (h : FVec F S8192x256 .f32) (w u : FVec F S768x256 .f32)
    (b d : FVec F S768 .f32) : FVec F S8192x256 .f32 :=
  gates (addf (Host.dotGeneral dot_S8192x256_S256x768_S8192x768_1_0_0_1_n_n none x
    (transpose S256x768 [1, 0] w transposes_S768x256_S256x768_1_0)) (bias b)) (hidden h u d) h

/-- The output layer. -/
def out (x : FVec F S8192x256 .f32) (w : FVec F S2x256 .f32) (b : FVec F S2 .f32) : FVec F S8192x2 .f32 :=
  addf (Host.dotGeneral dot_S8192x256_S256x2_S8192x2_1_0_0_1_n_n none x
    (transpose S256x2 [1, 0] w transposes_S2x256_S256x2_1_0))
    (broadcastInDim S8192x2 ![0, 1] bcast_S1x2_S8192x2_0_1 (broadcastInDim S1x2 ![1] bcast_S2_S1x2_1 b))

/-- The weights of the stack as the reference takes them. -/
structure Weights (F : FTy → Type) where
  w0 : FVec F S768x514 .f32
  u0 : FVec F S768x256 .f32
  b0 : FVec F S768 .f32
  d0 : FVec F S768 .f32
  w1 : FVec F S768x256 .f32
  u1 : FVec F S768x256 .f32
  b1 : FVec F S768 .f32
  d1 : FVec F S768 .f32
  w2 : FVec F S768x256 .f32
  u2 : FVec F S768x256 .f32
  b2 : FVec F S768 .f32
  d2 : FVec F S768 .f32
  wo : FVec F S2x256 .f32
  bo : FVec F S2 .f32

/-- The three hidden states and the current position. -/
structure State (F : FTy → Type) where
  h0 : FVec F S8192x256 .f32
  h1 : FVec F S8192x256 .f32
  h2 : FVec F S8192x256 .f32
  pos : FVec F S8192x2 .f32

/-- One time step on the whole batch. -/
def step (W : Weights F) (ctx : FVec F S8192x512 .f32) (s : State F) : State F :=
  let a0 := cell0 (concatenate S8192x514 1 [⟨S8192x512, ctx⟩, ⟨S8192x2, s.pos⟩] concatenates_S8192x512_S8192x2_S8192x514_d1)
    s.h0 W.w0 W.u0 W.b0 W.d0
  let a1 := cell a0 s.h1 W.w1 W.u1 W.b1 W.d1
  let a2 := cell a1 s.h2 W.w2 W.u2 W.b2 W.d2
  { h0 := a0, h1 := a1, h2 := a2, pos := out a2 W.wo W.bo }

/-- The matrix of zeros the hidden states start from. -/
def zeros : FVec F S8192x256 .f32 := broadcastInDim S8192x256 ![] bcast_S_S8192x256 (constant S_ .f32 0x00000000#32)

/-- The state before the first step. -/
def init (pos : FVec F S8192x2 .f32) : State F := { h0 := zeros, h1 := zeros, h2 := zeros, pos := pos }

/-- The state after `k` steps. -/
def after (W : Weights F) (ctx : FVec F S8192x512 .f32) (pos : FVec F S8192x2 .f32) : ℕ → State F
  | 0 => init pos
  | k + 1 => step W ctx (after W ctx pos k)

end Batch

end Cert.Gru

end
-- ==== Proof.LibReadBack.lean ====
/-
  A general fact about a buffer that is overwritten whole several times and read back whole.

  A buffer's contents after a list of stores are decided by the LAST store that covers an element. When the last store
  covers the whole buffer (its rectangle is the buffer's own shape at zero offsets), a load of the whole buffer reads
  exactly that store's value, whatever the earlier stores were. The library states this for a single store; a state
  rewritten at every step of a recurrence needs it with a history behind the last store.
-/
import Idealize.ShloMosaic.Lib.Pipeline.Value

noncomputable section

namespace Idealize.ShloMosaic.View

variable {Val : EltTy → Type} {S : Shape} {e : EltTy}

/-- A whole-buffer load after a history of stores whose LAST one is a whole-buffer store reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KernelPieces.lean ====
/-
  What the tile program leaves in its output block, as the tile recurrence.

  The program keeps its three hidden states in scratch buffers it overwrites whole at every step and reads back whole, so
  a read-back is the value last stored; its loads of the sixteen operand blocks read the blocks. With that, the twelve
  slabs it stores into its [12, 1024, 2] output block are, in order, the positions after steps 1, …, 12 of the tile
  recurrence (Cells.lean) started from zero states and the loaded position block, with the loaded weights.
-/
import proofs.«104547_j59072980189901_1_alg».proof.Proof.Gen.KernelIdeal.Frame
import proofs.«104547_j59072980189901_1_alg».proof.Proof.Cells
import proofs.«104547_j59072980189901_1_alg».proof.Proof.LibReadBack

set_option maxRecDepth 65536

noncomputable section

namespace Cert.KernelIdeal.Gen

open Idealize.ShloMosaic Idealize.ShloMosaic.TcCoe Idealize.ShloMosaic.Tactic
open Idealize.SL Idealize.SL.Sem
open Cert.KernelIdeal.Facts₀ Cert.Gru

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a <;> rfl

/-- The weights as the tile program holds them after loading its weight blocks. -/
def loaded (x2 : Vec F S514x768 .bf16) (x3 : Vec F S256x768 .bf16) (x4 x5 : Vec F S768 .f32) (x6 x7 : Vec F S256x768 .bf16)
    (x8 x9 : Vec F S768 .f32) (x10 x11 : Vec F S256x768 .bf16) (x12 x13 : Vec F S768 .f32) (x14 : Vec F S256x2 .bf16)
    (x15 : Vec F S2 .f32) : Tile.Weights F where
  w0 := shapeCast S514x768 x2 shapeCasts_S514x768_S514x768
  u0 := shapeCast S256x768 x3 shapeCasts_S256x768_S256x768
  b0 := x4
  d0 := x5
  w1 := shapeCast S256x768 x6 shapeCasts_S256x768_S256x768
  u1 := shapeCast S256x768 x7 shapeCasts_S256x768_S256x768
  b1 := x8
  d1 := x9
  w2 := shapeCast S256x768 x10 shapeCasts_S256x768_S256x768
  u2 := shapeCast S256x768 x11 shapeCasts_S256x768_S256x768
  b2 := x12
  d2 := x13
  wo := shapeCast S256x2 x14 shapeCasts_S256x2_S256x2
  bo := x15

/-- The stores the run finds into the output block (last first): slab `k − 1` holds the position after step `k`. -/
theorem pieces_eq (c : Dev nD) (i : grid0.Coords) (arg1 : Memref sig .tc .vmem S1024x512 .f32) (harg1 : arg1.IsWhole) (arg2 : Memref sig .tc .vmem S1024x2 .f32) (harg2 : arg2.IsWhole) (arg3 : Memref sig .tc .vmem S514x768 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S768 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S768 .f32) (harg9 : arg9.IsWhole) (arg10 : Memref sig .tc .vmem S768 .f32) (harg10 : arg10.IsWhole) (arg11 : Memref sig .tc .vmem S256x768 .bf16) (harg11 : arg11.IsWhole) (arg12 : Memref sig .tc .vmem S256x768 .bf16) (harg12 : arg12.IsWhole) (arg13 : Memref sig .tc .vmem S768 .f32) (harg13 : arg13.IsWhole) (arg14 : Memref sig .tc .vmem S768 .f32) (harg14 : arg14.IsWhole) (arg15 : Memref sig .tc .vmem S256x2 .bf16) (harg15 : arg15.IsWhole) (arg16 : Memref sig .tc .vmem S2 .f32) (harg16 : arg16.IsWhole) (arg17 : Memref sig .tc .vmem S12x1024x2 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (x0 : Vec F S1024x512 .f32) (x1 : Vec F S1024x2 .f32) (x2 : Vec F S514x768 .bf16) (x3 : Vec F S256x768 .bf16) (x4 : Vec F S768 .f32) (x5 : Vec F S768 .f32) (x6 : Vec F S256x768 .bf16) (x7 : Vec F S256x768 .bf16) (x8 : Vec F S768 .f32) (x9 : Vec F S768 .f32) (x10 : Vec F S256x768 .bf16) (x11 : Vec F S256x768 .bf16) (x12 : Vec F S768 .f32) (x13 : Vec F S768 .f32) (x14 : Vec F S256x2 .bf16) (x15 : Vec F S2 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).1 = [
      ⟨Rect.unit ![11, 0, 0] S1x1024x2.size inb_S12x1024x2_S1x1024x2_11_0_0,
        shapeCast S1x1024x2 (Tile.after (loaded x2 x3 x4 x5 x6 x7 x8 x9 x10 x11 x12 x13 x14 x15) x0 (shapeCast S1024x2 x1 shapeCasts_S1024x2_S1024x2) 12).pos shapeCasts_S1024x2_S1x1024x2⟩,
      ⟨Rect.unit ![10, 0, 0] S1x1024x2.size inb_S12x1024x2_S1x1024x2_10_0_0,
        shapeCast S1x1024x2 (Tile.after (loaded x2 x3 x4 x5 x6 x7 x8 x9 x10 x11 x12 x13 x14 x15) x0 (shapeCast S1024x2 x1 shapeCasts_S1024x2_S1024x2) 11).pos shapeCasts_S1024x2_S1x1024x2⟩,
      ⟨Rect.unit ![9, 0, 0] S1x1024x2.size inb_S12x1024x2_S1x1024x2_9_0_0,
        shapeCast S1x1024x2 (Tile.after (loaded x2 x3 x4 x5 x6 x7 x8 x9 x10 x11 x12 x13 x14 x15) x0 (shapeCast S1024x2 x1 shapeCasts_S1024x2_S1024x2) 10).pos shapeCasts_S1024x2_S1x1024x2⟩,
      ⟨Rect.unit ![8, 0, 0] S1x1024x2.size inb_S12x1024x2_S1x1024x2_8_0_0,
        shapeCast S1x1024x2 (Tile.after (loaded x2 x3 x4 x5 x6 x7 x8 x9 x10 x11 x12 x13 x14 x15) x0 (shapeCast S1024x2 x1 shapeCasts_S1024x2_S1024x2) 9).pos shapeCasts_S1024x2_S1x1024x2⟩,
      ⟨Rect.unit ![7, 0, 0] S1x1024x2.size inb_S12x1024x2_S1x1024x2_7_0_0,
        shapeCast S1x1024x2 (Tile.after (loaded x2 x3 x4 x5 x6 x7 x8 x9 x10 x11 x12 x13 x14 x15) x0 (shapeCast S1024x2 x1 shapeCasts_S1024x2_S1024x2) 8).pos shapeCasts_S1024x2_S1x1024x2⟩,
      ⟨Rect.unit ![6, 0, 0] S1x1024x2.size inb_S12x1024x2_S1x1024x2_6_0_0,
        shapeCast S1x1024x2 (Tile.after (loaded x2 x3 x4 x5 x6 x7 x8 x9 x10 x11 x12 x13 x14 x15) x0 (shapeCast S1024x2 x1 shapeCasts_S1024x2_S1024x2) 7).pos shapeCasts_S1024x2_S1x1024x2⟩,
      ⟨Rect.unit ![5, 0, 0] S1x1024x2.size inb_S12x1024x2_S1x1024x2_5_0_0,
        shapeCast S1x1024x2 (Tile.after (loaded x2 x3 x4 x5 x6 x7 x8 x9 x10 x11 x12 x13 x14 x15) x0 (shapeCast S1024x2 x1 shapeCasts_S1024x2_S1024x2) 6).pos shapeCasts_S1024x2_S1x1024x2⟩,
      ⟨Rect.unit ![4, 0, 0] S1x1024x2.size inb_S12x1024x2_S1x1024x2_4_0_0,
        shapeCast S1x1024x2 (Tile.after (loaded x2 x3 x4 x5 x6 x7 x8 x9 x10 x11 x12 x13 x14 x15) x0 (shapeCast S1024x2 x1 shapeCasts_S1024x2_S1024x2) 5).pos shapeCasts_S1024x2_S1x1024x2⟩,
      ⟨Rect.unit ![3, 0, 0] S1x1024x2.size inb_S12x1024x2_S1x1024x2_3_0_0,
        shapeCast S1x1024x2 (Tile.after (loaded x2 x3 x4 x5 x6 x7 x8 x9 x10 x11 x12 x13 x14 x15) x0 (shapeCast S1024x2 x1 shapeCasts_S1024x2_S1024x2) 4).pos shapeCasts_S1024x2_S1x1024x2⟩,
      ⟨Rect.unit ![2, 0, 0] S1x1024x2.size inb_S12x1024x2_S1x1024x2_2_0_0,
        shapeCast S1x1024x2 (Tile.after (loaded x2 x3 x4 x5 x6 x7 x8 x9 x10 x11 x12 x13 x14 x15) x0 (shapeCast S1024x2 x1 shapeCasts_S1024x2_S1024x2) 3).pos shapeCasts_S1024x2_S1x1024x2⟩,
      ⟨Rect.unit ![1, 0, 0] S1x1024x2.size inb_S12x1024x2_S1x1024x2_1_0_0,
        shapeCast S1x1024x2 (Tile.after (loaded x2 x3 x4 x5 x6 x7 x8 x9 x10 x11 x12 x13 x14 x15) x0 (shapeCast S1024x2 x1 shapeCasts_S1024x2_S1024x2) 2).pos shapeCasts_S1024x2_S1x1024x2⟩,
      ⟨Rect.unit ![0, 0, 0] S1x1024x2.size inb_S12x1024x2_S1x1024x2_0_0_0,
        shapeCast S1x1024x2 (Tile.after (loaded x2 x3 x4 x5 x6 x7 x8 x9 x10 x11 x12 x13 x14 x15) x0 (shapeCast S1024x2 x1 shapeCasts_S1024x2_S1024x2) 1).pos shapeCasts_S1024x2_S1x1024x2⟩] := by
  unfold kernelRun0_A
  dsimp only
  sl_unfold_words
  simp only [View.readCov_cons_unit_zero (S := S1024x256) _ zero2, View.readAt_eq_ld,
    harg1.read_unread, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    View.ld_unit_zero (S := S1024x512) zero2, View.ld_unit_zero (S := S1024x2) zero2, View.ld_unit_zero (S := S514x768) zero2,
    View.ld_unit_zero (S := S256x768) zero2, View.ld_unit_zero (S := S256x2) zero2, View.ld_unit_zero (S := S768) zero1,
    View.ld_unit_zero (S := S2) zero1]
  rfl

end Cert.KernelIdeal.Gen

end
-- ==== Proof.KernelBlock.lean ====
/-
  The tile program's output block as one function of its operand blocks.

  Slab `k − 1` of the [12, 1024, 2] output block is the position after step `k`; the twelve slabs tile the block, so the
  block the program leaves is, index by index, `(s, r, p) ↦ (position after step s + 1) (r, p)`.
-/
import proofs.«104547_j59072980189901_1_alg».proof.Proof.KernelPieces
import Idealize.ShloMosaic.Lib.ValueIdx
import Idealize.ShloMosaic.Lib.ValueLayout

set_option maxRecDepth 65536

noncomputable section

namespace Cert.KernelIdeal.Gen

open Idealize.ShloMosaic Idealize.ShloMosaic.TcCoe Idealize.ShloMosaic.Tactic Idealize.ShloMosaic.ValueIdx
open Idealize.SL Idealize.SL.Sem
open Cert.KernelIdeal.Facts₀ Cert.Gru

variable {F : FTy → Type} [FloatOps F]

/-- The positions after steps 1, …, 12 of the tile recurrence, stacked along a leading axis. -/
def stacked (W : Tile.Weights F) (ctx : Vec F S1024x512 .f32) (pos : FVec F S1024x2 .f32) : S12x1024x2.Idx → Elt F .f32 :=
  fun y => (Tile.after W ctx pos ((y 0).val + 1)).pos (ix2 (n0 := 1024) (n1 := 2) (y 1) (y 2))

/-- The position after step `k + 1`, laid out as one slab, is slab `k` of the stack. -/
theorem slab_eq (W : Tile.Weights F) (ctx : Vec F S1024x512 .f32) (pos : FVec F S1024x2 .f32) (k : ℕ)
    (inb : ∀ a, (![k, 0, 0] : Fin 3 → Nat) a + S1x1024x2.size a ≤ S12x1024x2.size a) (x : S1x1024x2.Idx) :
    shapeCast S1x1024x2 (Tile.after W ctx pos (k + 1)).pos shapeCasts_S1024x2_S1x1024x2 x
      = stacked W ctx pos ((Rect.unit (s := S12x1024x2) ![k, 0, 0] S1x1024x2.size inb).emb x) := by
  obtain ⟨u, r, p, rfl⟩ : ∃ (u : Fin 1) (r : Fin 1024) (p : Fin 2), x = ix3 u r p := ⟨x 0, x 1, x 2, eq_ix3 x⟩
  rw [shapeCast_ab_1ab_apply]
  unfold stacked
  have hu : u.val = 0 := by omega
  have e0 : (((Rect.unit (s := S12x1024x2) ![k, 0, 0] S1x1024x2.size inb).emb (ix3 u r p)) 0).val = k := by
    show k + 1 * u.val = k
    omega
  rw [e0]
  congr 1
  funext a
  match a with
  | ⟨0, _⟩ => exact Fin.ext (by show r.val = 0 + 1 * r.val; omega)
  | ⟨1, _⟩ => exact Fin.ext (by show p.val = 0 + 1 * p.val; omega)

/-- What the body leaves in the output's staging buffer is the stack of the twelve positions. -/
theorem out_eq (c : Dev nD) (i : grid0.Coords) (arg1 : Memref sig .tc .vmem S1024x512 .f32) (harg1 : arg1.IsWhole) (arg2 : Memref sig .tc .vmem S1024x2 .f32) (harg2 : arg2.IsWhole) (arg3 : Memref sig .tc .vmem S514x768 .bf16) (harg3 : arg3.IsWhole) (arg4 : Memref sig .tc .vmem S256x768 .bf16) (harg4 : arg4.IsWhole) (arg5 : Memref sig .tc .vmem S768 .f32) (harg5 : arg5.IsWhole) (arg6 : Memref sig .tc .vmem S768 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S768 .f32) (harg9 : arg9.IsWhole) (arg10 : Memref sig .tc .vmem S768 .f32) (harg10 : arg10.IsWhole) (arg11 : Memref sig .tc .vmem S256x768 .bf16) (harg11 : arg11.IsWhole) (arg12 : Memref sig .tc .vmem S256x768 .bf16) (harg12 : arg12.IsWhole) (arg13 : Memref sig .tc .vmem S768 .f32) (harg13 : arg13.IsWhole) (arg14 : Memref sig .tc .vmem S768 .f32) (harg14 : arg14.IsWhole) (arg15 : Memref sig .tc .vmem S256x2 .bf16) (harg15 : arg15.IsWhole) (arg16 : Memref sig .tc .vmem S2 .f32) (harg16 : arg16.IsWhole) (arg17 : Memref sig .tc .vmem S12x1024x2 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (x0 : Vec F S1024x512 .f32) (x1 : Vec F S1024x2 .f32) (x2 : Vec F S514x768 .bf16) (x3 : Vec F S256x768 .bf16) (x4 : Vec F S768 .f32) (x5 : Vec F S768 .f32) (x6 : Vec F S256x768 .bf16) (x7 : Vec F S256x768 .bf16) (x8 : Vec F S768 .f32) (x9 : Vec F S768 .f32) (x10 : Vec F S256x768 .bf16) (x11 : Vec F S256x768 .bf16) (x12 : Vec F S768 .f32) (x13 : Vec F S768 .f32) (x14 : Vec F S256x2 .bf16) (x15 : Vec F S2 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15
      = stacked (loaded x2 x3 x4 x5 x6 x7 x8 x9 x10 x11 x12 x13 x14 x15) x0 (shapeCast S1024x2 x1 shapeCasts_S1024x2_S1024x2) := by
  funext y
  unfold out0_A_16
  rw [View.read_writes_eq_canon _ _ _ (fun y => cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 y)]
  refine View.canon_apply_of_pieces (stacked _ x0 _) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 y)
  rw [pieces_eq]
  intro p hp x
  simp only [List.mem_cons, List.not_mem_nil, or_false] at hp
  rcases hp with rfl | rfl | rfl | rfl | rfl | rfl | rfl | rfl | rfl | rfl | rfl | rfl
  · exact slab_eq _ _ _ 11 inb_S12x1024x2_S1x1024x2_11_0_0 x
  · exact slab_eq _ _ _ 10 inb_S12x1024x2_S1x1024x2_10_0_0 x
  · exact slab_eq _ _ _ 9 inb_S12x1024x2_S1x1024x2_9_0_0 x
  · exact slab_eq _ _ _ 8 inb_S12x1024x2_S1x1024x2_8_0_0 x
  · exact slab_eq _ _ _ 7 inb_S12x1024x2_S1x1024x2_7_0_0 x
  · exact slab_eq _ _ _ 6 inb_S12x1024x2_S1x1024x2_6_0_0 x
  · exact slab_eq _ _ _ 5 inb_S12x1024x2_S1x1024x2_5_0_0 x
  · exact slab_eq _ _ _ 4 inb_S12x1024x2_S1x1024x2_4_0_0 x
  · exact slab_eq _ _ _ 3 inb_S12x1024x2_S1x1024x2_3_0_0 x
  · exact slab_eq _ _ _ 2 inb_S12x1024x2_S1x1024x2_2_0_0 x
  · exact slab_eq _ _ _ 1 inb_S12x1024x2_S1x1024x2_1_0_0 x
  · exact slab_eq _ _ _ 0 inb_S12x1024x2_S1x1024x2_0_0_0 x

end Cert.KernelIdeal.Gen

end
-- ==== Proof.Tile.lean ====
/-
  Row blocks of a matrix, and the operations of a gated recurrent cell read through them.

  Every operation of the cell acts on the rows of its operands independently: an elementwise operation, a slice of
  columns, a bias row broadcast over the rows, a matrix product with a fixed right factor, and a concatenation along
  the columns all send rows `off … off + n − 1` of their operands to the same rows of their result. This module says so,
  operation by operation, for the block of `n` rows starting at row `off` of a matrix with `N` rows; at the extended
  reals a product accumulated into the zero matrix and a general dot product are the same plain sum over the contracted
  axis, so the matrix-product case compares the two forms directly.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Tile

open Idealize.ShloMosaic Idealize.ShloMosaic.ValueIdx

variable {α : Type}

/-- The shape of a matrix with `N` rows and `w` columns. -/
abbrev Mat (N w : ℕ) : Shape := ⟨2, ![N, w]⟩

/-- Rows `off, …, off + n − 1` of a matrix with `N` rows. -/
def rowsOf {N w : ℕ} (n off : ℕ) (hoff : off + n ≤ N) (X : (Mat N w).Idx → α) : (Mat n w).Idx → α :=
  fun j => X (ix2 (n0 := N) (n1 := w) ⟨off + (j 0).val, by have := idx2_lt0 j; omega⟩ (j 1))

theorem rowsOf_apply {N w : ℕ} (n off : ℕ) (hoff : off + n ≤ N) (X : (Mat N w).Idx → α) (r : Fin n) (c : Fin w) :
    rowsOf n off hoff X (ix2 r c) = X (ix2 ⟨off + r.val, by have := r.isLt; omega⟩ c) := rfl

/-! ## Elementwise operations, constants -/

/-- A row block of a pointwise image is the pointwise image of the row block. -/
theorem rowsOf_map {β : Type} {N w : ℕ} (n off : ℕ) (hoff : off + n ≤ N) (f : α → β) (X : (Mat N w).Idx → α) :
    rowsOf n off hoff (fun i => f (X i)) = fun j => f (rowsOf n off hoff X j) := rfl

theorem rowsOf_map₂ {β γ : Type} {N w : ℕ} (n off : ℕ) (hoff : off + n ≤ N) (f : α → β → γ) (X : (Mat N w).Idx → α)
    (Y : (Mat N w).Idx → β) :
    rowsOf n off hoff (fun i => f (X i) (Y i)) = fun j => f (rowsOf n off hoff X j) (rowsOf n off hoff Y j) := rfl

/-- A row block of a constant matrix is the constant matrix. -/
theorem rowsOf_const {N w : ℕ} (n off : ℕ) (hoff : off + n ≤ N) (x : α) :
    rowsOf n off hoff (fun _ : (Mat N w).Idx => x) = fun _ => x := rfl

/-! ## A slice of columns -/

/-- Columns `o, …, o + m − 1` of a row block are the row block of those columns. -/
theorem rowsOf_slice {N w m : ℕ} (n off : ℕ) (hoff : off + n ≤ N) (o : ℕ) (hw : o + m ≤ w) (X : (Mat N w).Idx → α)
    (h : (Mat N w).Slices ![0, o] (Mat N m)) (h' : (Mat n w).Slices ![0, o] (Mat n m)) :
    rowsOf n off hoff (extractStridedSlice (Mat N m) ![0, o] X h)
      = extractStridedSlice (Mat n m) ![0, o] (rowsOf n off hoff X) h' := by
  funext j
  obtain ⟨r, c, rfl⟩ : ∃ (r : Fin n) (c : Fin m), j = ix2 r c := ⟨j 0, j 1, eq_ix2 j⟩
  have hc : o + c.val < w := by have := c.isLt; omega
  rw [rowsOf_apply, slice2_axis1_apply o X h _ c ⟨o + c.val, hc⟩ rfl,
    slice2_axis1_apply o (rowsOf n off hoff X) h' r c ⟨o + c.val, hc⟩ rfl, rowsOf_apply]

/-! ## A bias row over the rows -/

/-- A vector laid out as one row and repeated over `N` rows by the host's two broadcasts, read in a row block, is the
    same vector reshaped to one row and broadcast over the block's `n` rows. -/
theorem rowsOf_bias {N w : ℕ} (n off : ℕ) (hoff : off + n ≤ N) (hw : w ≠ 1) (b : (⟨1, ![w]⟩ : Shape).Idx → α)
    (h1 : (⟨1, ![w]⟩ : Shape).BroadcastsInDim (Mat 1 w) ![1]) (h2 : (Mat 1 w).BroadcastsInDim (Mat N w) ![0, 1])
    (hc : (⟨1, ![w]⟩ : Shape).ShapeCasts (Mat 1 w)) (hb : (Mat 1 w).Broadcasts (Mat n w)) :
    rowsOf n off hoff (broadcastInDim (Mat N w) ![0, 1] h2 (broadcastInDim (Mat 1 w) ![1] h1 b))
      = broadcastTo (Mat n w) (shapeCast (Mat 1 w) b hc) hb := by
  funext j
  obtain ⟨r, c, rfl⟩ : ∃ (r : Fin n) (c : Fin w), j = ix2 r c := ⟨j 0, j 1, eq_ix2 j⟩
  rw [rowsOf_apply, broadcastTo_1b_ab_apply, shapeCast_a_1a_apply]
  rw [broadcastInDim_apply ![0, 1] h2 _ _ (ix2 (0 : Fin 1) c) (fun a => by
    match a with
    | ⟨0, _⟩ => rfl
    | ⟨1, _⟩ => exact (if_neg hw).symm)]
  rw [broadcastInDim_apply ![1] h1 b _ (ix1 c) (fun a => by
    match a with
    | ⟨0, _⟩ => exact (if_neg hw).symm)]

/-- The scalar constant broadcast to a whole matrix, read in a row block, is the constant block. -/
theorem rowsOf_splat {N w : ℕ} (n off : ℕ) (hoff : off + n ≤ N) (x : (⟨0, ![]⟩ : Shape).Idx → α)
    (h : (⟨0, ![]⟩ : Shape).BroadcastsInDim (Mat N w) ![]) :
    rowsOf n off hoff (broadcastInDim (Mat N w) ![] h x) = fun _ => x ix0 := by
  funext j
  show broadcastInDim (Mat N w) ![] h x _ = _
  exact broadcastInDim_apply ![] h x _ ix0 (fun a => a.elim0)

/-! ## A matrix product -/

/-- The dimension numbers of a plain product of an `n × K` by a `K × M` matrix: one contracted axis of extent `K`, the
    left factor read at (row, k), the right one at (k, column). -/
structure Plain {n K M : ℕ} (d : DotDims (Mat n K) (Mat K M) (Mat n M)) : Prop where
  rank : d.contr.rank = 1
  size : d.contr.size ⟨0, by rw [rank]; exact Nat.one_pos⟩ = K
  l0 : ∀ j k, (d.lhsIdx j k 0).val = (j 0).val
  l1 : ∀ j k, (d.lhsIdx j k 1).val = (k ⟨0, by rw [rank]; exact Nat.one_pos⟩).val
  r0 : ∀ j k, (d.rhsIdx j k 0).val = (k ⟨0, by rw [rank]; exact Nat.one_pos⟩).val
  r1 : ∀ j k, (d.rhsIdx j k 1).val = (j 1).val

/-- The contraction's sum over the dimension numbers' own index set is the sum over `k < K`. -/
theorem Plain.sum_eq {n K M : ℕ} {d : DotDims (Mat n K) (Mat K M) (Mat n M)} (hd : Plain d)
    (X : (Mat n K).Idx → EReal) (W : (Mat K M).Idx → EReal) (r : Fin n) (c : Fin M) :
    ∑ k : d.contr.Idx, X (d.lhsIdx (ix2 r c) k) * W (d.rhsIdx (ix2 r c) k) = ∑ k : Fin K, X (ix2 r k) * W (ix2 k c) := by
  rw [← Equiv.sum_comp (contrEquiv1 d K hd.rank hd.size) (fun k : Fin K => X (ix2 r k) * W (ix2 k c))]
  refine Finset.sum_congr rfl fun k _ => ?_
  have e1 : d.lhsIdx (ix2 r c) k = ix2 r (contrEquiv1 d K hd.rank hd.size k) := by
    funext a
    match a with
    | ⟨0, _⟩ => exact Fin.ext (hd.l0 _ k)
    | ⟨1, _⟩ => exact Fin.ext (hd.l1 _ k)
  have e2 : d.rhsIdx (ix2 r c) k = ix2 (contrEquiv1 d K hd.rank hd.size k) c := by
    funext a
    match a with
    | ⟨0, _⟩ => exact Fin.ext (hd.r0 _ k)
    | ⟨1, _⟩ => exact Fin.ext (hd.r1 _ k)
  rw [e1, e2]

/-- Rows of a general dot product of an `N × K` matrix with a `K × M` one are the product, accumulated into zero, of
    the rows of the left factor with the same right factor — whatever formats the factors are stored in, at the
    extended reals. -/
theorem rowsOf_dot {N n K M : ℕ} (off : ℕ) (hoff : off + n ≤ N) {φ₁ φ₂ ψ₁ ψ₂ : FTy}
    (dR : DotDims (Mat N K) (Mat K M) (Mat N M)) (dK : DotDims (Mat n K) (Mat K M) (Mat n M))
    (hR : Plain dR) (hK : Plain dK) (precR precK : Option ContractPrecision) (sched : HostSchedule)
    (X : FVec Ideal (Mat N K) φ₁) (W : FVec Ideal (Mat K M) φ₂)
    (X' : FVec Ideal (Mat n K) ψ₁) (W' : FVec Ideal (Mat K M) ψ₂)
    (hX : ∀ i, X' i = rowsOf n off hoff X i) (hW : ∀ i, W' i = W i) :
    rowsOf n off hoff (FloatOps.dotGeneral dR precR sched X W)
      = FloatOps.matmul dK precK X' W' (constant (Mat n M) .f32 0x00000000#32) := by
  funext j
  obtain ⟨r, c, rfl⟩ : ∃ (r : Fin n) (c : Fin M), j = ix2 r c := ⟨j 0, j 1, eq_ix2 j⟩
  rw [rowsOf_apply, Ideal.dotGeneral_apply, Ideal.matmul_constant_zero_apply]
  rw [hR.sum_eq (X := X) (W := W), hK.sum_eq (X := X') (W := W')]
  refine Finset.sum_congr rfl fun k _ => ?_
  rw [hX, hW, rowsOf_apply]

/-! ## A concatenation along the columns -/

/-- Rows of two matrices laid side by side are the rows of each laid side by side. -/
theorem rowsOf_concat {N a b w : ℕ} (n off : ℕ) (hoff : off + n ≤ N) (hw : a + b = w)
    (A : (Mat N a).Idx → α) (B : (Mat N b).Idx → α)
    (h : Shape.Concatenates [Mat N a, Mat N b] (Mat N w) 1) (h' : Shape.Concatenates [Mat n a, Mat n b] (Mat n w) 1) :
    rowsOf n off hoff (concatenate (Mat N w) 1 [⟨Mat N a, A⟩, ⟨Mat N b, B⟩] h)
      = concatenate (Mat n w) 1 [⟨Mat n a, rowsOf n off hoff A⟩, ⟨Mat n b, rowsOf n off hoff B⟩] h' := by
  funext j
  obtain ⟨r, c, rfl⟩ : ∃ (r : Fin n) (c : Fin w), j = ix2 r c := ⟨j 0, j 1, eq_ix2 j⟩
  rw [rowsOf_apply]
  by_cases hc : c.val < a
  · rw [concatenate_pair_apply_left 1 A B h _ rfl (ix2 ⟨off + r.val, by have := r.isLt; omega⟩ ⟨c.val, hc⟩) (fun x => by
        match x with
        | ⟨0, _⟩ => rfl
        | ⟨1, _⟩ => rfl),
      concatenate_pair_apply_left 1 (rowsOf n off hoff A) (rowsOf n off hoff B) h' _ rfl (ix2 r ⟨c.val, hc⟩) (fun x => by
        match x with
        | ⟨0, _⟩ => rfl
        | ⟨1, _⟩ => rfl), rowsOf_apply]
  · have hb : c.val - a < b := by have := c.isLt; omega
    rw [concatenate_pair_apply_right 1 A B h _ rfl rfl (ix2 ⟨off + r.val, by have := r.isLt; omega⟩ ⟨c.val - a, hb⟩) (fun x hx => by
        match x with
        | ⟨0, _⟩ => rfl
        | ⟨1, _⟩ => exact absurd rfl hx) (by show c.val - a + a = c.val; omega),
      concatenate_pair_apply_right 1 (rowsOf n off hoff A) (rowsOf n off hoff B) h' _ rfl rfl (ix2 r ⟨c.val - a, hb⟩) (fun x hx => by
        match x with
        | ⟨0, _⟩ => rfl
        | ⟨1, _⟩ => exact absurd rfl hx) (by show c.val - a + a = c.val; omega), rowsOf_apply]

end Cert.Tile

end
-- ==== Proof.Rows.lean ====
/-
  Rows of the whole-batch recurrence are the tile recurrence of the rows.

  Tile `t` of the batch is rows 1024·t, …, 1024·t + 1023. Every operation of a time step acts on rows independently
  (Tile.lean), the host's spelling 1 / (1 + exp (−x)) is the logistic function on every extended real, a change of
  float format is the identity there, and a product accumulated into zero is the same sum as a general dot product. So
  the rows of the state after k whole-batch steps are the state after k tile steps started from the rows, with the
  weights transposed and narrowed as the tile program receives them.
-/
import proofs.«104547_j59072980189901_1_alg».proof.Proof.Cells
import proofs.«104547_j59072980189901_1_alg».proof.Proof.Tile
import Idealize.ShloMosaic.Lib.IdealHost

noncomputable section

namespace Cert.Gru

open Idealize.ShloMosaic Idealize.ShloMosaic.ValueIdx Cert.Tile

/-! ## The dimension numbers of the six products are plain -/

theorem plain_t514 : Plain (n := 1024) (K := 514) (M := 768) Cert.KernelIdeal.dot_S1024x514_S514x768_S1024x768_1_0_0_1_n_n :=
  ⟨rfl, rfl, fun _ _ => rfl, fun _ _ => rfl, fun _ _ => rfl, fun _ _ => rfl⟩
theorem plain_t256 : Plain (n := 1024) (K := 256) (M := 768) Cert.KernelIdeal.dot_S1024x256_S256x768_S1024x768_1_0_0_1_n_n :=
  ⟨rfl, rfl, fun _ _ => rfl, fun _ _ => rfl, fun _ _ => rfl, fun _ _ => rfl⟩
theorem plain_t2 : Plain (n := 1024) (K := 256) (M := 2) Cert.KernelIdeal.dot_S1024x256_S256x2_S1024x2_1_0_0_1_n_n :=
  ⟨rfl, rfl, fun _ _ => rfl, fun _ _ => rfl, fun _ _ => rfl, fun _ _ => rfl⟩
theorem plain_b514 : Plain (n := 8192) (K := 514) (M := 768) Cert.ReferenceIdeal.dot_S8192x514_S514x768_S8192x768_1_0_0_1_n_n :=
  ⟨rfl, rfl, fun _ _ => rfl, fun _ _ => rfl, fun _ _ => rfl, fun _ _ => rfl⟩
theorem plain_b256 : Plain (n := 8192) (K := 256) (M := 768) Cert.ReferenceIdeal.dot_S8192x256_S256x768_S8192x768_1_0_0_1_n_n :=
  ⟨rfl, rfl, fun _ _ => rfl, fun _ _ => rfl, fun _ _ => rfl, fun _ _ => rfl⟩
theorem plain_b2 : Plain (n := 8192) (K := 256) (M := 2) Cert.ReferenceIdeal.dot_S8192x256_S256x2_S8192x2_1_0_0_1_n_n :=
  ⟨rfl, rfl, fun _ _ => rfl, fun _ _ => rfl, fun _ _ => rfl, fun _ _ => rfl⟩

/-! ## Rows of tile `t` -/

section
variable (t : Fin 8)

/-- Rows 1024·t, …, 1024·t + 1023 of a matrix with 8192 rows. -/
def rows {α : Type} {w : ℕ} (X : (Mat 8192 w).Idx → α) : (Mat 1024 w).Idx → α :=
  rowsOf 1024 (1024 * t.val) (by have := t.isLt; omega) X

theorem rows_addf {w : ℕ} {φ : FTy} (a b : FVec Ideal (Mat 8192 w) φ) : rows t (addf a b) = addf (rows t a) (rows t b) := rfl
theorem rows_mulf {w : ℕ} {φ : FTy} (a b : FVec Ideal (Mat 8192 w) φ) : rows t (mulf a b) = mulf (rows t a) (rows t b) := rfl
theorem rows_subf {w : ℕ} {φ : FTy} (a b : FVec Ideal (Mat 8192 w) φ) : rows t (subf a b) = subf (rows t a) (rows t b) := rfl
theorem rows_tanh {w : ℕ} {φ : FTy} (a : FVec Ideal (Mat 8192 w) φ) : rows t (Host.tanh a) = tanh (rows t a) := rfl

theorem rows_ones : rows t (Batch.ones (F := Ideal)) = broadcast Cert.KernelIdeal.S1024x256 (Scalar.ofBits (F := Ideal) .f32 0x3F800000#32) := rfl

theorem rows_zeros : rows t (Batch.zeros (F := Ideal)) = broadcast Cert.KernelIdeal.S1024x256 (Scalar.ofBits (F := Ideal) .f32 0x00000000#32) := rfl

/-- The host's 1 / (1 + exp (−x)) is the logistic function, on every extended real. -/
theorem rows_sigm (x : FVec Ideal Cert.ReferenceIdeal.S8192x256 .f32) : rows t (Batch.sigm x) = logistic (rows t x) := by
  funext j
  show Ideal.div (Ideal.ofBits .f32 0x3F800000#32) (Ideal.ofBits .f32 0x3F800000#32 + Ideal.exp (-(rows t x j)))
    = Ideal.logistic (rows t x j)
  rw [Ideal.ofBits_one_f32]
  rfl

theorem rows_slice0 (x : FVec Ideal Cert.ReferenceIdeal.S8192x768 .f32) :
    rows t (extractStridedSlice Cert.ReferenceIdeal.S8192x256 ![0, 0] x Cert.ReferenceIdeal.Facts₀.slices_S8192x768_S8192x256_0_0)
      = extractStridedSlice Cert.KernelIdeal.S1024x256 ![0, 0] (rows t x) Cert.KernelIdeal.Facts₀.slices_S1024x768_o0_0_S1024x256 :=
  rowsOf_slice 1024 _ _ 0 (by norm_num) x _ _

theorem rows_slice256 (x : FVec Ideal Cert.ReferenceIdeal.S8192x768 .f32) :
    rows t (extractStridedSlice Cert.ReferenceIdeal.S8192x256 ![0, 256] x Cert.ReferenceIdeal.Facts₀.slices_S8192x768_S8192x256_0_256)
      = extractStridedSlice Cert.KernelIdeal.S1024x256 ![0, 256] (rows t x) Cert.KernelIdeal.Facts₀.slices_S1024x768_o0_256_S1024x256 :=
  rowsOf_slice 1024 _ _ 256 (by norm_num) x _ _

theorem rows_slice512 (x : FVec Ideal Cert.ReferenceIdeal.S8192x768 .f32) :
    rows t (extractStridedSlice Cert.ReferenceIdeal.S8192x256 ![0, 512] x Cert.ReferenceIdeal.Facts₀.slices_S8192x768_S8192x256_0_512)
      = extractStridedSlice Cert.KernelIdeal.S1024x256 ![0, 512] (rows t x) Cert.KernelIdeal.Facts₀.slices_S1024x768_o0_512_S1024x256 :=
  rowsOf_slice 1024 _ _ 512 (by norm_num) x _ _

theorem rows_bias (b : FVec Ideal Cert.ReferenceIdeal.S768 .f32) : rows t (Batch.bias b) = Tile.bias b :=
  rowsOf_bias 1024 _ _ (by norm_num) b _ _ _ _

theorem rows_gates (gi gh : FVec Ideal Cert.ReferenceIdeal.S8192x768 .f32) (h : FVec Ideal Cert.ReferenceIdeal.S8192x256 .f32) :
    rows t (Batch.gates gi gh h) = Tile.gates (rows t gi) (rows t gh) (rows t h) := by
  unfold Batch.gates Tile.gates
  simp only [rows_addf, rows_mulf, rows_subf, rows_tanh, rows_sigm, rows_ones, rows_slice0, rows_slice256, rows_slice512]

/-- The weights of a layer as the tile program receives them: transposed, narrowed to bf16. -/
def tw {a b : ℕ} (w : FVec Ideal (Mat a b) .f32) (h : (Mat a b).Transposes [1, 0] (Mat b a)) : FVec Ideal (Mat b a) .bf16 :=
  truncf .bf16 (transpose (Mat b a) [1, 0] w h) Cert.KernelIdeal.Facts₀.bitsLt_bf16_f32

theorem rows_hidden (h : FVec Ideal Cert.ReferenceIdeal.S8192x256 .f32) (u : FVec Ideal Cert.ReferenceIdeal.S768x256 .f32) (d : FVec Ideal Cert.ReferenceIdeal.S768 .f32) :
    rows t (Batch.hidden h u d) = Tile.hidden (rows t h) (tw u Cert.ReferenceIdeal.Facts₀.transposes_S768x256_S256x768_1_0) d := by
  unfold Batch.hidden Tile.hidden
  rw [rows_addf, rows_bias]
  congr 1
  exact rowsOf_dot _ _ _ _ plain_b256 plain_t256 _ _ _ _ _ _ _ (fun _ => rfl) (fun _ => rfl)

theorem rows_cell0 (x : FVec Ideal Cert.ReferenceIdeal.S8192x514 .f32) (h : FVec Ideal Cert.ReferenceIdeal.S8192x256 .f32) (w : FVec Ideal Cert.ReferenceIdeal.S768x514 .f32)
    (u : FVec Ideal Cert.ReferenceIdeal.S768x256 .f32) (b d : FVec Ideal Cert.ReferenceIdeal.S768 .f32) :
    rows t (Batch.cell0 x h w u b d) = Tile.cell0 (rows t x) (rows t h) (tw w Cert.ReferenceIdeal.Facts₀.transposes_S768x514_S514x768_1_0)
      (tw u Cert.ReferenceIdeal.Facts₀.transposes_S768x256_S256x768_1_0) b d := by
  unfold Batch.cell0 Tile.cell0
  rw [rows_gates, rows_hidden, rows_addf, rows_bias]
  congr 2
  exact rowsOf_dot _ _ _ _ plain_b514 plain_t514 _ _ _ _ _ _ _ (fun _ => rfl) (fun _ => rfl)

theorem rows_cell (x h : FVec Ideal Cert.ReferenceIdeal.S8192x256 .f32) (w u : FVec Ideal Cert.ReferenceIdeal.S768x256 .f32) (b d : FVec Ideal Cert.ReferenceIdeal.S768 .f32) :
    rows t (Batch.cell x h w u b d) = Tile.cell (rows t x) (rows t h) (tw w Cert.ReferenceIdeal.Facts₀.transposes_S768x256_S256x768_1_0)
      (tw u Cert.ReferenceIdeal.Facts₀.transposes_S768x256_S256x768_1_0) b d := by
  unfold Batch.cell Tile.cell
  rw [rows_gates, rows_hidden, rows_addf, rows_bias]
  congr 2
  exact rowsOf_dot _ _ _ _ plain_b256 plain_t256 _ _ _ _ _ _ _ (fun _ => rfl) (fun _ => rfl)

theorem rows_out (x : FVec Ideal Cert.ReferenceIdeal.S8192x256 .f32) (w : FVec Ideal Cert.ReferenceIdeal.S2x256 .f32) (b : FVec Ideal Cert.ReferenceIdeal.S2 .f32) :
    rows t (Batch.out x w b) = Tile.out (rows t x) (tw w Cert.ReferenceIdeal.Facts₀.transposes_S2x256_S256x2_1_0) b := by
  unfold Batch.out Tile.out
  rw [rows_addf]
  congr 1
  · exact rowsOf_dot _ _ _ _ plain_b2 plain_t2 _ _ _ _ _ _ _ (fun _ => rfl) (fun _ => rfl)
  · exact rowsOf_bias 1024 _ _ (by norm_num) b _ _ _ _

theorem rows_concat (ctx : FVec Ideal Cert.ReferenceIdeal.S8192x512 .f32) (pos : FVec Ideal Cert.ReferenceIdeal.S8192x2 .f32) :
    rows t (concatenate Cert.ReferenceIdeal.S8192x514 1 [⟨Cert.ReferenceIdeal.S8192x512, ctx⟩, ⟨Cert.ReferenceIdeal.S8192x2, pos⟩]
        Cert.ReferenceIdeal.Facts₀.concatenates_S8192x512_S8192x2_S8192x514_d1)
      = concatenate Cert.KernelIdeal.S1024x514 1 [⟨Cert.KernelIdeal.S1024x512, rows t ctx⟩, ⟨Cert.KernelIdeal.S1024x2, rows t pos⟩]
        Cert.KernelIdeal.Facts₀.concatenates_S1024x512_S1024x2_S1024x514_d1 :=
  rowsOf_concat 1024 _ _ (by norm_num) ctx pos _ _

/-! ## The recurrence -/

/-- The tile program's weights from the reference's. -/
def tileWeights (W : Batch.Weights Ideal) : Tile.Weights Ideal where
  w0 := tw W.w0 Cert.ReferenceIdeal.Facts₀.transposes_S768x514_S514x768_1_0
  u0 := tw W.u0 Cert.ReferenceIdeal.Facts₀.transposes_S768x256_S256x768_1_0
  b0 := W.b0
  d0 := W.d0
  w1 := tw W.w1 Cert.ReferenceIdeal.Facts₀.transposes_S768x256_S256x768_1_0
  u1 := tw W.u1 Cert.ReferenceIdeal.Facts₀.transposes_S768x256_S256x768_1_0
  b1 := W.b1
  d1 := W.d1
  w2 := tw W.w2 Cert.ReferenceIdeal.Facts₀.transposes_S768x256_S256x768_1_0
  u2 := tw W.u2 Cert.ReferenceIdeal.Facts₀.transposes_S768x256_S256x768_1_0
  b2 := W.b2
  d2 := W.d2
  wo := tw W.wo Cert.ReferenceIdeal.Facts₀.transposes_S2x256_S256x2_1_0
  bo := W.bo

/-- The rows of a whole-batch state. -/
def rowsState (s : Batch.State Ideal) : Tile.State Ideal :=
  { h0 := rows t s.h0, h1 := rows t s.h1, h2 := rows t s.h2, pos := rows t s.pos }

theorem rows_step (W : Batch.Weights Ideal) (ctx : FVec Ideal Cert.ReferenceIdeal.S8192x512 .f32) (s : Batch.State Ideal) :
    rowsState t (Batch.step W ctx s) = Tile.step (tileWeights W) (rows t ctx) (rowsState t s) := by
  unfold Batch.step Tile.step rowsState tileWeights
  simp only [shapeCast_self, rows_cell, rows_cell0, rows_out, rows_concat]

theorem rows_init (pos : FVec Ideal Cert.ReferenceIdeal.S8192x2 .f32) : rowsState t (Batch.init pos) = Tile.init (rows t pos) := by
  unfold Batch.init Tile.init rowsState
  simp only [shapeCast_self, rows_zeros]

/-- The rows of the state after `k` whole-batch steps are the state after `k` tile steps from the rows. -/
theorem rows_after (W : Batch.Weights Ideal) (ctx : FVec Ideal Cert.ReferenceIdeal.S8192x512 .f32) (pos : FVec Ideal Cert.ReferenceIdeal.S8192x2 .f32) (k : ℕ) :
    rowsState t (Batch.after W ctx pos k) = Tile.after (tileWeights W) (rows t ctx) (rows t pos) k := by
  induction k with
  | zero => exact rows_init t pos
  | succ k ih => show rowsState t (Batch.step W ctx (Batch.after W ctx pos k)) = Tile.step _ _ (Tile.after _ _ _ k); rw [rows_step, ih]

end

end Cert.Gru

end
-- ==== Proof.Spec.lean ====
/-
  The predicted positions as ONE function of the sixteen argument arrays, index by index.

  Entry (s, b, p) is coordinate p of batch row b's position after step s + 1 of the recurrence of Cells.lean, run on the
  whole batch from zero hidden states and the last observed position (slice 7 of the trajectory), with the context rows
  and the weights as given. Both programs are shown to end holding this function of their arguments.
-/
import proofs.«104547_j59072980189901_1_alg».proof.Proof.Cells
import Idealize.ShloMosaic.Lib.ValueIdx

noncomputable section

namespace Cert.Gru

open Idealize.ShloMosaic Idealize.ShloMosaic.ValueIdx Cert.ReferenceIdeal

/-- The positions after steps 1, …, 12, stacked along a leading axis. -/
def predicted (W : Batch.Weights Ideal) (ctx : FVec Ideal S8192x512 .f32) (pos : FVec Ideal S8192x2 .f32) :
    S12x8192x2.Idx → EReal :=
  fun i => (Batch.after W ctx pos ((i 0).val + 1)).pos (ix2 (n0 := 8192) (n1 := 2) (i 1) (i 2))

/-- The last observed position: slice 7 of the [8, 8192, 2] trajectory, as a matrix. -/
def lastObserved (traj : FVec Ideal S8x8192x2 .f32) : FVec Ideal S8192x2 .f32 :=
  shapeCast S8192x2 (extractStridedSlice S1x8192x2 ![7, 0, 0] traj Facts₀.slices_S8x8192x2_S1x8192x2_7_0_0)
    Facts₀.shapeCasts_S1x8192x2_S8192x2

/-- The result as a function of the sixteen argument arrays. -/
def G (a0 : FVec Ideal S8192x512 .f32) (a1 : FVec Ideal S8x8192x2 .f32) (a2 : FVec Ideal S768x514 .f32)
    (a3 : FVec Ideal S768x256 .f32) (a4 a5 : FVec Ideal S768 .f32) (a6 a7 : FVec Ideal S768x256 .f32)
    (a8 a9 : FVec Ideal S768 .f32) (a10 a11 : FVec Ideal S768x256 .f32) (a12 a13 : FVec Ideal S768 .f32)
    (a14 : FVec Ideal S2x256 .f32) (a15 : FVec Ideal S2 .f32) : S12x8192x2.Idx → EReal :=
  predicted ⟨a2, a3, a4, a5, a6, a7, a8, a9, a10, a11, a12, a13, a14, a15⟩ a0 (lastObserved a1)

end Cert.Gru

end
-- ==== Proof.KernelBlocks.lean ====
import proofs.«104547_j59072980189901_1_alg».proof.Proof.Gen.KernelIdeal.Value
import proofs.«104547_j59072980189901_1_alg».proof.Proof.Rows
import proofs.«104547_j59072980189901_1_alg».proof.Proof.Spec
import Idealize.ShloMosaic.Lib.StableHlo.Run

noncomputable section

namespace Cert.Gru.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The tile a grid point works on. -/
abbrev tileOf (t : Fin cfg0.N) : Fin 8 := ⟨t.val, t.isLt⟩

/-! ## The index maps, decided over the eight grid points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 1) = 0 :=
  (by decide +kernel : ∀ t : Fin grid0.N, _)
theorem idx_9 : ∀ t : Fin cfg0.N, win0_9.index t (0 : Fin 1) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 1) = 0 :=
  (by decide +kernel : ∀ t : Fin grid0.N, _)
theorem idx_13 : ∀ t : Fin cfg0.N, win0_13.index t (0 : Fin 1) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 1) = 0 :=
  (by decide +kernel : ∀ t : Fin grid0.N, _)
theorem idx_16 : ∀ t : Fin cfg0.N, win0_16.index t (0 : Fin 3) = 0 ∧ win0_16.index t (1 : Fin 3) = t.val ∧ win0_16.index t (2 : Fin 3) = 0 :=
  (by decide +kernel : ∀ t : Fin grid0.N, _)

/-! ## The arrays the host prepares before the call: the last observed position, the transposed and narrowed weights -/

theorem V_v1 (c : Dev nD) : (V m c main_v1 : S8192x2.Idx → EReal) = Gru.lastObserved (m ((c : Thread nD τ).loc main_arg1)) := by
  dsimp only [V, hostOps0]
  after_results
  rfl

theorem V_v3 (c : Dev nD) : (V m c main_v3 : S514x768.Idx → EReal) = Gru.tw (m ((c : Thread nD τ).loc main_arg2)) Cert.ReferenceIdeal.Facts₀.transposes_S768x514_S514x768_1_0 := by
  dsimp only [V, hostOps0]
  after_results
  rfl

theorem V_v5 (c : Dev nD) : (V m c main_v5 : S256x768.Idx → EReal) = Gru.tw (m ((c : Thread nD τ).loc main_arg3)) Cert.ReferenceIdeal.Facts₀.transposes_S768x256_S256x768_1_0 := by
  dsimp only [V, hostOps0]
  after_results
  rfl

theorem V_v7 (c : Dev nD) : (V m c main_v7 : S256x768.Idx → EReal) = Gru.tw (m ((c : Thread nD τ).loc main_arg6)) Cert.ReferenceIdeal.Facts₀.transposes_S768x256_S256x768_1_0 := by
  dsimp only [V, hostOps0]
  after_results
  rfl

theorem V_v9 (c : Dev nD) : (V m c main_v9 : S256x768.Idx → EReal) = Gru.tw (m ((c : Thread nD τ).loc main_arg7)) Cert.ReferenceIdeal.Facts₀.transposes_S768x256_S256x768_1_0 := by
  dsimp only [V, hostOps0]
  after_results
  rfl

theorem V_v11 (c : Dev nD) : (V m c main_v11 : S256x768.Idx → EReal) = Gru.tw (m ((c : Thread nD τ).loc main_arg10)) Cert.ReferenceIdeal.Facts₀.transposes_S768x256_S256x768_1_0 := by
  dsimp only [V, hostOps0]
  after_results
  rfl

theorem V_v13 (c : Dev nD) : (V m c main_v13 : S256x768.Idx → EReal) = Gru.tw (m ((c : Thread nD τ).loc main_arg11)) Cert.ReferenceIdeal.Facts₀.transposes_S768x256_S256x768_1_0 := by
  dsimp only [V, hostOps0]
  after_results
  rfl

theorem V_v15 (c : Dev nD) : (V m c main_v15 : S256x2.Idx → EReal) = Gru.tw (m ((c : Thread nD τ).loc main_arg14)) Cert.ReferenceIdeal.Facts₀.transposes_S2x256_S256x2_1_0 := by
  dsimp only [V, hostOps0]
  after_results
  rfl

/-! ## The operand blocks at a grid point -/

/-- Window 0 moves with the grid point: its block is the rows of tile t. -/
theorem blk_0 (c : Dev nD) (t : Fin cfg0.N) : (iblk m c 0 t : S1024x512.Idx → EReal) = Gru.rows (tileOf t) (m ((c : Thread nD τ).loc main_arg0)) := by
  obtain ⟨e0, e1⟩ := idx_0 t
  funext j
  show V m c main_arg0 (((cfg0.win 0).blk t).view.emb j) = _
  rw [V_main_arg0]
  refine congrArg (m ((c : Thread nD τ).loc main_arg0)) ?_
  funext a
  apply Fin.ext
  match a with
  | ⟨0, _⟩ => show win0_0.index t (0 : Fin 2) * 1024 + 1 * (j 0).val = 1024 * t.val + (j 0).val; omega
  | ⟨1, _⟩ => show win0_0.index t (1 : Fin 2) * 512 + 1 * (j 1).val = (j 1).val; omega

/-- Window 1 moves with the grid point: its block is the rows of tile t. -/
theorem blk_1 (c : Dev nD) (t : Fin cfg0.N) : (iblk m c 1 t : S1024x2.Idx → EReal) = Gru.rows (tileOf t) (Gru.lastObserved (m ((c : Thread nD τ).loc main_arg1))) := by
  obtain ⟨e0, e1⟩ := idx_1 t
  rw [← V_v1 m c]
  funext j
  show V m c main_v1 (((cfg0.win 1).blk t).view.emb j) = _
  refine congrArg (V m c main_v1) ?_
  funext a
  apply Fin.ext
  match a with
  | ⟨0, _⟩ => show win0_1.index t (0 : Fin 2) * 1024 + 1 * (j 0).val = 1024 * t.val + (j 0).val; omega
  | ⟨1, _⟩ => show win0_1.index t (1 : Fin 2) * 2 + 1 * (j 1).val = (j 1).val; omega

/-- Window 2 is one block: the whole array at every grid point. -/
theorem blk_2 (c : Dev nD) (t : Fin cfg0.N) : (iblk m c 2 t : S514x768.Idx → EReal) = Gru.tw (m ((c : Thread nD τ).loc main_arg2)) Cert.ReferenceIdeal.Facts₀.transposes_S768x514_S514x768_1_0 := by
  obtain ⟨e0, e1⟩ := idx_2 t
  rw [← V_v3 m c]
  funext j
  show V m c main_v3 (((cfg0.win 2).blk t).view.emb j) = V m c main_v3 j
  refine congrArg (V m c main_v3) ?_
  funext a
  apply Fin.ext
  match a with
  | ⟨0, _⟩ => show win0_2.index t (0 : Fin 2) * 514 + 1 * (j 0).val = (j 0).val; omega
  | ⟨1, _⟩ => show win0_2.index t (1 : Fin 2) * 768 + 1 * (j 1).val = (j 1).val; omega

/-- Window 3 is one block: the whole array at every grid point. -/
theorem blk_3 (c : Dev nD) (t : Fin cfg0.N) : (iblk m c 3 t : S256x768.Idx → EReal) = Gru.tw (m ((c : Thread nD τ).loc main_arg3)) Cert.ReferenceIdeal.Facts₀.transposes_S768x256_S256x768_1_0 := by
  obtain ⟨e0, e1⟩ := idx_3 t
  rw [← V_v5 m c]
  funext j
  show V m c main_v5 (((cfg0.win 3).blk t).view.emb j) = V m c main_v5 j
  refine congrArg (V m c main_v5) ?_
  funext a
  apply Fin.ext
  match a with
  | ⟨0, _⟩ => show win0_3.index t (0 : Fin 2) * 256 + 1 * (j 0).val = (j 0).val; omega
  | ⟨1, _⟩ => show win0_3.index t (1 : Fin 2) * 768 + 1 * (j 1).val = (j 1).val; omega

/-- Window 4 is one block: the whole array at every grid point. -/
theorem blk_4 (c : Dev nD) (t : Fin cfg0.N) : (iblk m c 4 t : S768.Idx → EReal) = (m ((c : Thread nD τ).loc main_arg4)) := by
  have e0 := idx_4 t
  funext j
  show V m c main_arg4 (((cfg0.win 4).blk t).view.emb j) = _
  rw [V_main_arg4]
  refine congrArg (m ((c : Thread nD τ).loc main_arg4)) ?_
  funext a
  apply Fin.ext
  match a with
  | ⟨0, _⟩ => show win0_4.index t (0 : Fin 1) * 768 + 1 * (j 0).val = (j 0).val; omega

/-- Window 5 is one block: the whole array at every grid point. -/
theorem blk_5 (c : Dev nD) (t : Fin cfg0.N) : (iblk m c 5 t : S768.Idx → EReal) = (m ((c : Thread nD τ).loc main_arg5)) := by
  have e0 := idx_5 t
  funext j
  show V m c main_arg5 (((cfg0.win 5).blk t).view.emb j) = _
  rw [V_main_arg5]
  refine congrArg (m ((c : Thread nD τ).loc main_arg5)) ?_
  funext a
  apply Fin.ext
  match a with
  | ⟨0, _⟩ => show win0_5.index t (0 : Fin 1) * 768 + 1 * (j 0).val = (j 0).val; omega

/-- Window 6 is one block: the whole array at every grid point. -/
theorem blk_6 (c : Dev nD) (t : Fin cfg0.N) : (iblk m c 6 t : S256x768.Idx → EReal) = Gru.tw (m ((c : Thread nD τ).loc main_arg6)) Cert.ReferenceIdeal.Facts₀.transposes_S768x256_S256x768_1_0 := by
  obtain ⟨e0, e1⟩ := idx_6 t
  rw [← V_v7 m c]
  funext j
  show V m c main_v7 (((cfg0.win 6).blk t).view.emb j) = V m c main_v7 j
  refine congrArg (V m c main_v7) ?_
  funext a
  apply Fin.ext
  match a with
  | ⟨0, _⟩ => show win0_6.index t (0 : Fin 2) * 256 + 1 * (j 0).val = (j 0).val; omega
  | ⟨1, _⟩ => show win0_6.index t (1 : Fin 2) * 768 + 1 * (j 1).val = (j 1).val; omega

/-- Window 7 is one block: the whole array at every grid point. -/
theorem blk_7 (c : Dev nD) (t : Fin cfg0.N) : (iblk m c 7 t : S256x768.Idx → EReal) = Gru.tw (m ((c : Thread nD τ).loc main_arg7)) Cert.ReferenceIdeal.Facts₀.transposes_S768x256_S256x768_1_0 := by
  obtain ⟨e0, e1⟩ := idx_7 t
  rw [← V_v9 m c]
  funext j
  show V m c main_v9 (((cfg0.win 7).blk t).view.emb j) = V m c main_v9 j
  refine congrArg (V m c main_v9) ?_
  funext a
  apply Fin.ext
  match a with
  | ⟨0, _⟩ => show win0_7.index t (0 : Fin 2) * 256 + 1 * (j 0).val = (j 0).val; omega
  | ⟨1, _⟩ => show win0_7.index t (1 : Fin 2) * 768 + 1 * (j 1).val = (j 1).val; omega

/-- Window 8 is one block: the whole array at every grid point. -/
theorem blk_8 (c : Dev nD) (t : Fin cfg0.N) : (iblk m c 8 t : S768.Idx → EReal) = (m ((c : Thread nD τ).loc main_arg8)) := by
  have e0 := idx_8 t
  funext j
  show V m c main_arg8 (((cfg0.win 8).blk t).view.emb j) = _
  rw [V_main_arg8]
  refine congrArg (m ((c : Thread nD τ).loc main_arg8)) ?_
  funext a
  apply Fin.ext
  match a with
  | ⟨0, _⟩ => show win0_8.index t (0 : Fin 1) * 768 + 1 * (j 0).val = (j 0).val; omega

/-- Window 9 is one block: the whole array at every grid point. -/
theorem blk_9 (c : Dev nD) (t : Fin cfg0.N) : (iblk m c 9 t : S768.Idx → EReal) = (m ((c : Thread nD τ).loc main_arg9)) := by
  have e0 := idx_9 t
  funext j
  show V m c main_arg9 (((cfg0.win 9).blk t).view.emb j) = _
  rw [V_main_arg9]
  refine congrArg (m ((c : Thread nD τ).loc main_arg9)) ?_
  funext a
  apply Fin.ext
  match a with
  | ⟨0, _⟩ => show win0_9.index t (0 : Fin 1) * 768 + 1 * (j 0).val = (j 0).val; omega

/-- Window 10 is one block: the whole array at every grid point. -/
theorem blk_10 (c : Dev nD) (t : Fin cfg0.N) : (iblk m c 10 t : S256x768.Idx → EReal) = Gru.tw (m ((c : Thread nD τ).loc main_arg10)) Cert.ReferenceIdeal.Facts₀.transposes_S768x256_S256x768_1_0 := by
  obtain ⟨e0, e1⟩ := idx_10 t
  rw [← V_v11 m c]
  funext j
  show V m c main_v11 (((cfg0.win 10).blk t).view.emb j) = V m c main_v11 j
  refine congrArg (V m c main_v11) ?_
  funext a
  apply Fin.ext
  match a with
  | ⟨0, _⟩ => show win0_10.index t (0 : Fin 2) * 256 + 1 * (j 0).val = (j 0).val; omega
  | ⟨1, _⟩ => show win0_10.index t (1 : Fin 2) * 768 + 1 * (j 1).val = (j 1).val; omega

/-- Window 11 is one block: the whole array at every grid point. -/
theorem blk_11 (c : Dev nD) (t : Fin cfg0.N) : (iblk m c 11 t : S256x768.Idx → EReal) = Gru.tw (m ((c : Thread nD τ).loc main_arg11)) Cert.ReferenceIdeal.Facts₀.transposes_S768x256_S256x768_1_0 := by
  obtain ⟨e0, e1⟩ := idx_11 t
  rw [← V_v13 m c]
  funext j
  show V m c main_v13 (((cfg0.win 11).blk t).view.emb j) = V m c main_v13 j
  refine congrArg (V m c main_v13) ?_
  funext a
  apply Fin.ext
  match a with
  | ⟨0, _⟩ => show win0_11.index t (0 : Fin 2) * 256 + 1 * (j 0).val = (j 0).val; omega
  | ⟨1, _⟩ => show win0_11.index t (1 : Fin 2) * 768 + 1 * (j 1).val = (j 1).val; omega

/-- Window 12 is one block: the whole array at every grid point. -/
theorem blk_12 (c : Dev nD) (t : Fin cfg0.N) : (iblk m c 12 t : S768.Idx → EReal) = (m ((c : Thread nD τ).loc main_arg12)) := by
  have e0 := idx_12 t
  funext j
  show V m c main_arg12 (((cfg0.win 12).blk t).view.emb j) = _
  rw [V_main_arg12]
  refine congrArg (m ((c : Thread nD τ).loc main_arg12)) ?_
  funext a
  apply Fin.ext
  match a with
  | ⟨0, _⟩ => show win0_12.index t (0 : Fin 1) * 768 + 1 * (j 0).val = (j 0).val; omega

/-- Window 13 is one block: the whole array at every grid point. -/
theorem blk_13 (c : Dev nD) (t : Fin cfg0.N) : (iblk m c 13 t : S768.Idx → EReal) = (m ((c : Thread nD τ).loc main_arg13)) := by
  have e0 := idx_13 t
  funext j
  show V m c main_arg13 (((cfg0.win 13).blk t).view.emb j) = _
  rw [V_main_arg13]
  refine congrArg (m ((c : Thread nD τ).loc main_arg13)) ?_
  funext a
  apply Fin.ext
  match a with
  | ⟨0, _⟩ => show win0_13.index t (0 : Fin 1) * 768 + 1 * (j 0).val = (j 0).val; omega

/-- Window 14 is one block: the whole array at every grid point. -/
theorem blk_14 (c : Dev nD) (t : Fin cfg0.N) : (iblk m c 14 t : S256x2.Idx → EReal) = Gru.tw (m ((c : Thread nD τ).loc main_arg14)) Cert.ReferenceIdeal.Facts₀.transposes_S2x256_S256x2_1_0 := by
  obtain ⟨e0, e1⟩ := idx_14 t
  rw [← V_v15 m c]
  funext j
  show V m c main_v15 (((cfg0.win 14).blk t).view.emb j) = V m c main_v15 j
  refine congrArg (V m c main_v15) ?_
  funext a
  apply Fin.ext
  match a with
  | ⟨0, _⟩ => show win0_14.index t (0 : Fin 2) * 256 + 1 * (j 0).val = (j 0).val; omega
  | ⟨1, _⟩ => show win0_14.index t (1 : Fin 2) * 2 + 1 * (j 1).val = (j 1).val; omega

/-- Window 15 is one block: the whole array at every grid point. -/
theorem blk_15 (c : Dev nD) (t : Fin cfg0.N) : (iblk m c 15 t : S2.Idx → EReal) = (m ((c : Thread nD τ).loc main_arg15)) := by
  have e0 := idx_15 t
  funext j
  show V m c main_arg15 (((cfg0.win 15).blk t).view.emb j) = _
  rw [V_main_arg15]
  refine congrArg (m ((c : Thread nD τ).loc main_arg15)) ?_
  funext a
  apply Fin.ext
  match a with
  | ⟨0, _⟩ => show win0_15.index t (0 : Fin 1) * 2 + 1 * (j 0).val = (j 0).val; omega

end Cert.Gru.Kernel

end
-- ==== Proof.KernelFinal.lean ====
/-
  The tile program ends holding the predicted positions.

  At grid point t the program's operand blocks are the rows of tile t of the context and of the last observed position,
  and the whole (transposed, narrowed) weight arrays; its output block is the stack of the tile recurrence's positions
  (KernelBlock.lean); rows of the whole-batch recurrence are the tile recurrence of the rows (Rows.lean). So the block
  written back at point t is block t of the function `G` of the arguments, the eight blocks cover the [12, 8192, 2]
  result array, and the array ends holding `G`.
-/
import proofs.«104547_j59072980189901_1_alg».proof.Proof.KernelBlock
import proofs.«104547_j59072980189901_1_alg».proof.Proof.KernelBlocks

set_option maxRecDepth 65536

noncomputable section

namespace Cert.Gru.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The reference's weights, read off the program's argument arrays on core `c`. -/
def weightsOf (c : Dev nD) : Batch.Weights Ideal := ⟨m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

/-- The predicted positions as the function `G` of the program's argument arrays on core `c`. -/
def result (c : Dev nD) : S12x8192x2.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The weight blocks the program loads are the reference's weights, transposed and narrowed. -/
theorem loaded_eq (c : Dev nD) (t : Fin cfg0.N) :
    loaded (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t)
      = tileWeights (weightsOf m c) := by
  rw [blk_2, blk_3, blk_4, blk_5, blk_6, blk_7, blk_8, blk_9, blk_10, blk_11, blk_12, blk_13, blk_14, blk_15]
  unfold loaded tileWeights weightsOf
  simp only [shapeCast_self]

/-- WHAT POINT `t` WRITES BACK is block `t` of the predicted positions. -/
theorem flushed_eq (c : Dev nD) (t : Fin cfg0.N) :
    (dats m 0 c).flushed 16 t = ((cfg0.win 16).blk t).view.read (Elt Ideal) (result m c) := by
  obtain ⟨e0, e1, e2⟩ := idx_16 t
  rw [flushed16_A, out_eq, loaded_eq m c t, blk_0, blk_1]
  funext j
  obtain ⟨s, r, p, rfl⟩ : ∃ (s : Fin 12) (r : Fin 1024) (p : Fin 2), j = ix3 s r p := ⟨j 0, j 1, j 2, eq_ix3 j⟩
  show stacked (F := Ideal) _ _ _ (ix3 s r p) = result m c (((cfg0.win 16).blk t).view.emb (ix3 s r p))
  unfold stacked result G predicted
  rw [shapeCast_self, ← rows_after]
  have h0 : ((((cfg0.win 16).blk t).view.emb (ix3 s r p)) 0).val = s.val := by
    show win0_16.index t (0 : Fin 3) * 12 + 1 * s.val = s.val
    omega
  rw [h0]
  show (Batch.after _ _ _ (s.val + 1)).pos _ = (Batch.after _ _ _ (s.val + 1)).pos _
  refine congrArg _ ?_
  funext a
  apply Fin.ext
  match a with
  | ⟨0, _⟩ => show 1024 * t.val + r.val = win0_16.index t (1 : Fin 3) * 1024 + 1 * r.val; omega
  | ⟨1, _⟩ => show p.val = win0_16.index t (2 : Fin 3) * 2 + 1 * p.val; omega

/-- An index of the result array is in point `t`'s block iff each coordinate is in the block's range on its axis. -/
theorem mem_blk (t : Fin cfg0.N) (i : S12x8192x2.Idx) :
    i ∈ ((cfg0.win 16).blk t).view.set ↔ ∀ a : Fin 3, win0_16.index t a * S12x1024x2.size a ≤ (i a).val
      ∧ (i a).val < win0_16.index t a * S12x1024x2.size a + S12x1024x2.size a := by
  show i ∈ ((View.whole main_v16).slice (win0_16.rect t)).set ↔ _
  rw [View.set_slice_whole, Rect.mem_set_unit]
  exact Iff.rfl

/-- The eight blocks cover the result array: batch row b lies in the block of point b / 1024. -/
theorem covered (i : S12x8192x2.Idx) :
    ∃ t : Fin cfg0.N, (cfg0.win 16).flush t = true ∧ i ∈ ((cfg0.win 16).blk t).view.set := by
  have hi0 : (i 0).val < 12 := (i 0).isLt
  have hi1 : (i 1).val < 8192 := (i 1).isLt
  have hi2 : (i 2).val < 2 := (i 2).isLt
  have ht : (i 1).val / 1024 < 8 := by omega
  obtain ⟨e0, e1, e2⟩ := idx_16 ⟨(i 1).val / 1024, ht⟩
  have e1' : win0_16.index ⟨(i 1).val / 1024, ht⟩ (1 : Fin 3) = (i 1).val / 1024 := e1
  refine ⟨⟨(i 1).val / 1024, ht⟩, flush0_16 _, ?_⟩
  rw [mem_blk]
  intro a
  match a with
  | ⟨0, _⟩ => show win0_16.index _ (0 : Fin 3) * 12 ≤ (i 0).val ∧ (i 0).val < win0_16.index _ (0 : Fin 3) * 12 + 12; omega
  | ⟨1, _⟩ => show win0_16.index _ (1 : Fin 3) * 1024 ≤ (i 1).val ∧ (i 1).val < win0_16.index _ (1 : Fin 3) * 1024 + 1024; omega
  | ⟨2, _⟩ => show win0_16.index _ (2 : Fin 3) * 2 ≤ (i 2).val ∧ (i 2).val < win0_16.index _ (2 : Fin 3) * 2 + 2; omega

/-- THE RESULT ARRAY after the run is the predicted positions. -/
theorem final (c : Dev nD) : (dats m 0 c).arrAt 16 cfg0.N = result m c :=
  (dats m 0 c).arrAt_eq_of_cover 16 (result m c) (fun t _ => flushed_eq m c t) covered

/-- The run: the result array at the function `G` of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (run_blocks m ρ)

end Cert.Gru.Kernel

end
-- ==== Proof.RefSteps.lean ====
import proofs.«104547_j59072980189901_1_alg».proof.Proof.RunPart0
import proofs.«104547_j59072980189901_1_alg».proof.Proof.Cells

set_option maxRecDepth 8192

noncomputable section

namespace Cert.Gru.Ref

open Cert.ReferenceIdeal Cert.ReferenceIdeal.Value Cert.ReferenceIdeal.Facts₀
open Idealize.ShloMosaic Idealize.ShloMosaic.TcCoe Idealize.SL.Sem Idealize.ShloMosaic.StableHlo

variable {F : FTy → Type} [FloatOps F] (V0 : Valuation τ sig (Elt F))

/-- The weights, as the reference's arguments. -/
def weights : Batch.Weights F where
  w0 := V0 (Proc.devRef .tc main_arg2)
  u0 := V0 (Proc.devRef .tc main_arg3)
  b0 := V0 (Proc.devRef .tc main_arg4)
  d0 := V0 (Proc.devRef .tc main_arg5)
  w1 := V0 (Proc.devRef .tc main_arg6)
  u1 := V0 (Proc.devRef .tc main_arg7)
  b1 := V0 (Proc.devRef .tc main_arg8)
  d1 := V0 (Proc.devRef .tc main_arg9)
  w2 := V0 (Proc.devRef .tc main_arg10)
  u2 := V0 (Proc.devRef .tc main_arg11)
  b2 := V0 (Proc.devRef .tc main_arg12)
  d2 := V0 (Proc.devRef .tc main_arg13)
  wo := V0 (Proc.devRef .tc main_arg14)
  bo := V0 (Proc.devRef .tc main_arg15)

/-- The context rows. -/
def ctx : FVec F S8192x512 .f32 := V0 (Proc.devRef .tc main_arg0)

/-- The last observed position: slice 7 of the trajectory. -/
def pos0 : FVec F S8192x2 .f32 :=
  shapeCast S8192x2 (extractStridedSlice S1x8192x2 ![7, 0, 0] (V0 (Proc.devRef .tc main_arg1)) slices_S8x8192x2_S1x8192x2_7_0_0) shapeCasts_S1x8192x2_S8192x2

/-- The state after k steps of the whole-batch recurrence on the reference's arguments. -/
def st (k : ℕ) : Batch.State F := Batch.after (weights V0) (ctx V0) (pos0 V0) k

/-- After step 1 the states and the position are the reference's buffers 43, 81, 119, 124. -/
theorem st_1 : st V0 1 = ⟨res_main_v43 V0, res_main_v81 V0, res_main_v119 V0, res_main_v124 V0⟩ := by
  show Batch.step (weights V0) (ctx V0) (Batch.init (pos0 V0)) = _
  rfl

/-- After step 2 the states and the position are the reference's buffers 163, 201, 239, 244. -/
theorem st_2 : st V0 2 = ⟨res_main_v163 V0, res_main_v201 V0, res_main_v239 V0, res_main_v244 V0⟩ := by
  show Batch.step (weights V0) (ctx V0) (st V0 1) = _
  rw [st_1]
  rfl

/-- After step 3 the states and the position are the reference's buffers 283, 321, 359, 364. -/
theorem st_3 : st V0 3 = ⟨res_main_v283 V0, res_main_v321 V0, res_main_v359 V0, res_main_v364 V0⟩ := by
  show Batch.step (weights V0) (ctx V0) (st V0 2) = _
  rw [st_2]
  rfl

/-- After step 4 the states and the position are the reference's buffers 403, 441, 479, 484. -/
theorem st_4 : st V0 4 = ⟨res_main_v403 V0, res_main_v441 V0, res_main_v479 V0, res_main_v484 V0⟩ := by
  show Batch.step (weights V0) (ctx V0) (st V0 3) = _
  rw [st_3]
  rfl

/-- After step 5 the states and the position are the reference's buffers 523, 561, 599, 604. -/
theorem st_5 : st V0 5 = ⟨res_main_v523 V0, res_main_v561 V0, res_main_v599 V0, res_main_v604 V0⟩ := by
  show Batch.step (weights V0) (ctx V0) (st V0 4) = _
  rw [st_4]
  rfl

/-- After step 6 the states and the position are the reference's buffers 643, 681, 719, 724. -/
theorem st_6 : st V0 6 = ⟨res_main_v643 V0, res_main_v681 V0, res_main_v719 V0, res_main_v724 V0⟩ := by
  show Batch.step (weights V0) (ctx V0) (st V0 5) = _
  rw [st_5]
  rfl

/-- After step 7 the states and the position are the reference's buffers 763, 801, 839, 844. -/
theorem st_7 : st V0 7 = ⟨res_main_v763 V0, res_main_v801 V0, res_main_v839 V0, res_main_v844 V0⟩ := by
  show Batch.step (weights V0) (ctx V0) (st V0 6) = _
  rw [st_6]
  rfl

/-- After step 8 the states and the position are the reference's buffers 883, 921, 959, 964. -/
theorem st_8 : st V0 8 = ⟨res_main_v883 V0, res_main_v921 V0, res_main_v959 V0, res_main_v964 V0⟩ := by
  show Batch.step (weights V0) (ctx V0) (st V0 7) = _
  rw [st_7]
  rfl

/-- After step 9 the states and the position are the reference's buffers 1003, 1041, 1079, 1084. -/
theorem st_9 : st V0 9 = ⟨res_main_v1003 V0, res_main_v1041 V0, res_main_v1079 V0, res_main_v1084 V0⟩ := by
  show Batch.step (weights V0) (ctx V0) (st V0 8) = _
  rw [st_8]
  rfl

/-- After step 10 the states and the position are the reference's buffers 1123, 1161, 1199, 1204. -/
theorem st_10 : st V0 10 = ⟨res_main_v1123 V0, res_main_v1161 V0, res_main_v1199 V0, res_main_v1204 V0⟩ := by
  show Batch.step (weights V0) (ctx V0) (st V0 9) = _
  rw [st_9]
  rfl

/-- After step 11 the states and the position are the reference's buffers 1243, 1281, 1319, 1324. -/
theorem st_11 : st V0 11 = ⟨res_main_v1243 V0, res_main_v1281 V0, res_main_v1319 V0, res_main_v1324 V0⟩ := by
  show Batch.step (weights V0) (ctx V0) (st V0 10) = _
  rw [st_10]
  rfl

/-- The last position: one more step from the named buffers of step 11 (step 12's own buffers are not named). -/
theorem pos_12 : (st V0 12).pos = (Batch.step (weights V0) (ctx V0) ⟨res_main_v1243 V0, res_main_v1281 V0, res_main_v1319 V0, res_main_v1324 V0⟩).pos := by
  show (Batch.step (weights V0) (ctx V0) (st V0 11)).pos = _
  rw [st_11]

end Cert.Gru.Ref

end
-- ==== Proof.RefFinal.lean ====
/-
  The reference ends holding the predicted positions.

  Its result is the concatenation, along a new leading axis, of the twelve positions, each laid out as one [1, 8192, 2]
  slab; the positions are those of the whole-batch recurrence (RefSteps.lean identifies the named buffers step by step).
  Read at (s, b, p), the concatenation is slab s at (b, p): the function `G` of the arguments.
-/
import proofs.«104547_j59072980189901_1_alg».proof.Proof.RefSteps
import proofs.«104547_j59072980189901_1_alg».proof.Proof.RunPart5
import proofs.«104547_j59072980189901_1_alg».proof.Proof.Spec
import Idealize.ShloMosaic.Lib.Pipeline.Value
import Idealize.ShloMosaic.Lib.ValueIdx

set_option maxRecDepth 8192

noncomputable section

namespace Cert.Gru.Ref

open Cert.ReferenceIdeal Cert.ReferenceIdeal.Value Cert.ReferenceIdeal.Facts₀
open Idealize.ShloMosaic Idealize.ShloMosaic.TcCoe Idealize.SL.Sem Idealize.ShloMosaic.StableHlo Idealize.ShloMosaic.ValueIdx

/-- Twelve matrices, each laid out as one slab, stacked along a new leading axis — as the reference stacks them. -/
def stack (p : Fin 12 → FVec Ideal S8192x2 .f32) : S12x8192x2.Idx → EReal :=
  concatenate S12x8192x2 0 [
      ⟨S1x8192x2, broadcastInDim S1x8192x2 ![1, 2] bcast_S8192x2_S1x8192x2_1_2 (p 0)⟩,
      ⟨S1x8192x2, broadcastInDim S1x8192x2 ![1, 2] bcast_S8192x2_S1x8192x2_1_2 (p 1)⟩,
      ⟨S1x8192x2, broadcastInDim S1x8192x2 ![1, 2] bcast_S8192x2_S1x8192x2_1_2 (p 2)⟩,
      ⟨S1x8192x2, broadcastInDim S1x8192x2 ![1, 2] bcast_S8192x2_S1x8192x2_1_2 (p 3)⟩,
      ⟨S1x8192x2, broadcastInDim S1x8192x2 ![1, 2] bcast_S8192x2_S1x8192x2_1_2 (p 4)⟩,
      ⟨S1x8192x2, broadcastInDim S1x8192x2 ![1, 2] bcast_S8192x2_S1x8192x2_1_2 (p 5)⟩,
      ⟨S1x8192x2, broadcastInDim S1x8192x2 ![1, 2] bcast_S8192x2_S1x8192x2_1_2 (p 6)⟩,
      ⟨S1x8192x2, broadcastInDim S1x8192x2 ![1, 2] bcast_S8192x2_S1x8192x2_1_2 (p 7)⟩,
      ⟨S1x8192x2, broadcastInDim S1x8192x2 ![1, 2] bcast_S8192x2_S1x8192x2_1_2 (p 8)⟩,
      ⟨S1x8192x2, broadcastInDim S1x8192x2 ![1, 2] bcast_S8192x2_S1x8192x2_1_2 (p 9)⟩,
      ⟨S1x8192x2, broadcastInDim S1x8192x2 ![1, 2] bcast_S8192x2_S1x8192x2_1_2 (p 10)⟩,
      ⟨S1x8192x2, broadcastInDim S1x8192x2 ![1, 2] bcast_S8192x2_S1x8192x2_1_2 (p 11)⟩]
    concatenates_S1x8192x2_S1x8192x2_S1x8192x2_S1x8192x2_S1x8192x2_S1x8192x2_S1x8192x2_S1x8192x2_S1x8192x2_S1x8192x2_S1x8192x2_S1x8192x2_S12x8192x2_d0

/-- A matrix laid out as one slab reads, at (0, b, q), the matrix at (b, q). -/
theorem slab_apply (P : FVec Ideal S8192x2 .f32) (u : Fin 1) (b : Fin 8192) (q : Fin 2) :
    broadcastInDim S1x8192x2 ![1, 2] bcast_S8192x2_S1x8192x2_1_2 P (ix3 u b q) = P (ix2 b q) :=
  broadcastInDim_apply ![1, 2] _ P _ (ix2 b q) (fun a => by
    have h0 : ¬ (8192 : ℕ) = 1 := by omega
    have h1 : ¬ (2 : ℕ) = 1 := by omega
    match a with
    | ⟨0, _⟩ => exact (if_neg h0).symm
    | ⟨1, _⟩ => exact (if_neg h1).symm)

/-- The stack at (s, b, q) is matrix s at (b, q). -/
theorem stack_apply (p : Fin 12 → FVec Ideal S8192x2 .f32) (s : Fin 12) (b : Fin 8192) (q : Fin 2) :
    stack p (ix3 s b q) = p s (ix2 b q) := by
  have key := concatenate_ofFn_unit_apply (t := S12x8192x2) (s₁ := S1x8192x2) (α := EReal) 0
    (fun n : Fin 12 => broadcastInDim S1x8192x2 ![1, 2] bcast_S8192x2_S1x8192x2_1_2 (p n))
    concatenates_S1x8192x2_S1x8192x2_S1x8192x2_S1x8192x2_S1x8192x2_S1x8192x2_S1x8192x2_S1x8192x2_S1x8192x2_S1x8192x2_S1x8192x2_S1x8192x2_S12x8192x2_d0
    rfl rfl (ix3 s b q) s rfl (ix3 (0 : Fin 1) b q) (fun x hx => by
      match x with
      | ⟨0, _⟩ => exact absurd rfl hx
      | ⟨1, _⟩ => rfl
      | ⟨2, _⟩ => rfl)
  exact key.trans (slab_apply (p s) 0 b q)

/-- The predicted positions are the stack of the recurrence's twelve positions. -/
theorem predicted_eq_stack (W : Batch.Weights Ideal) (ctx : FVec Ideal S8192x512 .f32) (pos : FVec Ideal S8192x2 .f32) :
    predicted W ctx pos = stack (fun s => (Batch.after W ctx pos (s.val + 1)).pos) := by
  funext i
  obtain ⟨s, b, q, rfl⟩ : ∃ (s : Fin 12) (b : Fin 8192) (q : Fin 2), i = ix3 s b q := ⟨i 0, i 1, i 2, eq_ix3 i⟩
  rw [stack_apply]
  rfl

/-- The run: the result at the function `G` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1457) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ⟨(h c).1.trans ?_, (h c).2⟩) (Value.run (F := Ideal) m ρ)
  show _ = predicted (weights (launchContents m c)) (ctx (launchContents m c)) (pos0 (launchContents m c))
  rw [predicted_eq_stack]
  show _ = concatenate S12x8192x2 0 [
      ⟨S1x8192x2, broadcastInDim S1x8192x2 ![1, 2] bcast_S8192x2_S1x8192x2_1_2 (st (launchContents m c) 1).pos⟩,
      ⟨S1x8192x2, broadcastInDim S1x8192x2 ![1, 2] bcast_S8192x2_S1x8192x2_1_2 (st (launchContents m c) 2).pos⟩,
      ⟨S1x8192x2, broadcastInDim S1x8192x2 ![1, 2] bcast_S8192x2_S1x8192x2_1_2 (st (launchContents m c) 3).pos⟩,
      ⟨S1x8192x2, broadcastInDim S1x8192x2 ![1, 2] bcast_S8192x2_S1x8192x2_1_2 (st (launchContents m c) 4).pos⟩,
      ⟨S1x8192x2, broadcastInDim S1x8192x2 ![1, 2] bcast_S8192x2_S1x8192x2_1_2 (st (launchContents m c) 5).pos⟩,
      ⟨S1x8192x2, broadcastInDim S1x8192x2 ![1, 2] bcast_S8192x2_S1x8192x2_1_2 (st (launchContents m c) 6).pos⟩,
      ⟨S1x8192x2, broadcastInDim S1x8192x2 ![1, 2] bcast_S8192x2_S1x8192x2_1_2 (st (launchContents m c) 7).pos⟩,
      ⟨S1x8192x2, broadcastInDim S1x8192x2 ![1, 2] bcast_S8192x2_S1x8192x2_1_2 (st (launchContents m c) 8).pos⟩,
      ⟨S1x8192x2, broadcastInDim S1x8192x2 ![1, 2] bcast_S8192x2_S1x8192x2_1_2 (st (launchContents m c) 9).pos⟩,
      ⟨S1x8192x2, broadcastInDim S1x8192x2 ![1, 2] bcast_S8192x2_S1x8192x2_1_2 (st (launchContents m c) 10).pos⟩,
      ⟨S1x8192x2, broadcastInDim S1x8192x2 ![1, 2] bcast_S8192x2_S1x8192x2_1_2 (st (launchContents m c) 11).pos⟩,
      ⟨S1x8192x2, broadcastInDim S1x8192x2 ![1, 2] bcast_S8192x2_S1x8192x2_1_2 (st (launchContents m c) 12).pos⟩]
    concatenates_S1x8192x2_S1x8192x2_S1x8192x2_S1x8192x2_S1x8192x2_S1x8192x2_S1x8192x2_S1x8192x2_S1x8192x2_S1x8192x2_S1x8192x2_S1x8192x2_S12x8192x2_d0
  rw [pos_12, st_1, st_2, st_3, st_4, st_5, st_6, st_7, st_8, st_9, st_10, st_11]
  rfl

end Cert.Gru.Ref

end
-- ==== Proof.lean ====
/-
  A three-layer stack of gated recurrent cells with a linear output layer, run for twelve steps with its own output fed
  back as the next input position, over 8192 batch rows.

  The tile program computes it on tiles of 1024 rows, one tile per grid point, keeping the hidden states of the tile in
  buffers it overwrites at every step; the reference computes it on all rows at once. Every operation of a step acts on
  rows independently, so the rows of tile t of the reference's state after k steps are the tile program's state after k
  steps at grid point t (Rows.lean). At the extended reals the two spell each operation the same way up to notation: a
  change of float format is the identity, a matrix product accumulated into zero is the plain sum a general dot product
  is, and the logistic function is 1 / (1 + exp (−x)) on every extended real. So both programs end holding one function
  `G` of the sixteen argument arrays (Spec.lean): the tile program by KernelFinal.lean, the reference by RefFinal.lean.
  No law is used that needs the inputs finite: the precondition is never opened.
-/
import proofs.«104547_j59072980189901_1_alg».proof.Defs
import proofs.«104547_j59072980189901_1_alg».proof.Proof.Gen.Kernel
import proofs.«104547_j59072980189901_1_alg».proof.Proof.Gen.Kernel.Frame
import proofs.«104547_j59072980189901_1_alg».proof.Proof.Gen.KernelIdeal
import proofs.«104547_j59072980189901_1_alg».proof.Proof.Gen.KernelIdeal.Frame
import proofs.«104547_j59072980189901_1_alg».proof.Proof.Gen.ReferenceIdeal
import proofs.«104547_j59072980189901_1_alg».proof.Proof.Gen.Pre_finite_inputs
import proofs.«104547_j59072980189901_1_alg».proof.Proof.KernelFinal
import proofs.«104547_j59072980189901_1_alg».proof.Proof.RefFinal
import Idealize.ShloMosaic.Adequacy
import Idealize.ShloMosaic.Init

noncomputable section

namespace Cert.Proof

open Idealize.ShloMosaic Idealize.ShloMosaic.TcCoe Idealize.SL.Sem

/-- The word-level program runs, faults nowhere and leaves its arguments as they were. -/
theorem frame_kernel : Cert.frame_Kernel := fun m ρ _ => Cert.Kernel.Gen.frame m ρ

/-- So does the program read at the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end holding `G` of the arguments. -/
theorem algebraic : Cert.algebraic_KernelIdeal_ReferenceIdeal := by
  intro m ρ m' ρ' _ hagree
  refine ⟨fun c => Cert.Gru.Kernel.result m c, Cert.Gru.Kernel.run m ρ, ?_⟩
  refine (θ_run Cert.ReferenceIdeal.defs _ _).mono (fun _ h c => ⟨(h c).1.trans ?_, (h c).2⟩) (Cert.Gru.Ref.run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
